-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S512x64 : Shape := ⟨2, ![512, 64]⟩
abbrev S100000 : Shape := ⟨1, ![100000]⟩
abbrev S160x64 : Shape := ⟨2, ![160, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S512x64 : S_.BroadcastsInDim S512x64 (![] : Fin 0 → Fin S512x64.rank)
  reducesTo_S512x64_S_d0_1 : S512x64.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg6 : FVec F S64 .f32) (main_v13 : IVec S_ 1) (main_v16 : IVec S160x64 1) : IVec S_ 1 :=
  let main_c_5 : IVec S_ 1 := constantI S_ 1 1#1
  let main_v17 : IVec S_ 1 := (fun x v => Host.reduce IntOp.andi x v reducesTo_S160x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x1600000 32 := (extractStridedSlice S1x1600000 ![1, 0] · slices_S2x1600000_S1x1600000_1_0) main_arg1
  let main_v25 : IVec S1600000 32 := shapeCast S1600000 main_v24 shapeCasts_S1x1600000_S1600000
  let main_c_8 : IVec S_ 32 := constantI S_ 32 4294867296#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![1, 0] · slices_S2x1600000_S1x1600000_1_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x128 .f32) (main_arg1 : IVec S2x1600000 32) (main_arg2 : FVec F S1600000x32 .f32) (main_arg3 : FVec F S512x64 .f32) (main_arg4 : IVec S100000 32) (main_arg5 : FVec F S160x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S160x64 .f32 := Host.absf main_arg5
  let main_cst_4 : FVec F S_ .f32 := constant S_ .f32 0x7F800000#32
  let main_v15 : FVec F S160x64 .f32 := broadcastInDim S160x64 ![] bcast_S_S160x64 main_cst_4
  let main_v16 : IVec S160x64 1 := cmpf .olt main_v14 main_v15
  fn_part1 (F := F) main_arg1 main_arg6 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S512x64 : Shape := ⟨2, ![512, 64]⟩
abbrev S100000 : Shape := ⟨1, ![100000]⟩
abbrev S160x64 : Shape := ⟨2, ![160, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S2x50000x128 : Shape := ⟨3, ![2, 50000, 128]⟩
abbrev S2x50000x1 : Shape := ⟨3, ![2, 50000, 1]⟩
abbrev S2x800000x32 : Shape := ⟨3, ![2, 800000, 32]⟩
abbrev S2x800000x1 : Shape := ⟨3, ![2, 800000, 1]⟩
abbrev S2x512x128 : Shape := ⟨3, ![2, 512, 128]⟩
abbrev S1x5000x128 : Shape := ⟨3, ![1, 5000, 128]⟩
abbrev S1x5000x1 : Shape := ⟨3, ![1, 5000, 1]⟩
abbrev S1x512x128 : Shape := ⟨3, ![1, 512, 128]⟩
abbrev S512x128 : Shape := ⟨2, ![512, 128]⟩
abbrev S5000x512 : Shape := ⟨2, ![5000, 512]⟩
abbrev S5000x128 : Shape := ⟨2, ![5000, 128]⟩
abbrev S5000x1 : Shape := ⟨2, ![5000, 1]⟩
abbrev S2x512x32 : Shape := ⟨3, ![2, 512, 32]⟩
abbrev S1x4000x32 : Shape := ⟨3, ![1, 4000, 32]⟩
abbrev S1x4000x1 : Shape := ⟨3, ![1, 4000, 1]⟩
abbrev S1x512x32 : Shape := ⟨3, ![1, 512, 32]⟩
abbrev S512x32 : Shape := ⟨2, ![512, 32]⟩
abbrev S4000x512 : Shape := ⟨2, ![4000, 512]⟩
abbrev S4000x32 : Shape := ⟨2, ![4000, 32]⟩
abbrev S4000x1 : Shape := ⟨2, ![4000, 1]⟩
abbrev S512x160 : Shape := ⟨2, ![512, 160]⟩
abbrev S1x64 : Shape := ⟨2, ![1, 64]⟩

abbrev nBuf : Space → Nat
  | .hbm => 46
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S512x64, .f32⟩
  | .hbm, ⟨4, _⟩ => ⟨S100000, .i32⟩
  | .hbm, ⟨5, _⟩ => ⟨S160x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000, .i32⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S2x50000x128, .f32⟩
  | .hbm, ⟨32, _⟩ => ⟨S2x50000x1, .i32⟩
  | .hbm, ⟨33, _⟩ => ⟨S2x800000x32, .f32⟩
  | .hbm, ⟨34, _⟩ => ⟨S2x800000x1, .i32⟩
  | .hbm, ⟨35, _⟩ => ⟨S2x512x128, .f32⟩
  | .hbm, ⟨36, _⟩ => ⟨S2x512x32, .f32⟩
  | .hbm, ⟨37, _⟩ => ⟨S_, .f32⟩
  | .hbm, ⟨38, _⟩ => ⟨S512x128, .f32⟩
  | .hbm, ⟨39, _⟩ => ⟨S_, .f32⟩
  | .hbm, ⟨40, _⟩ => ⟨S512x32, .f32⟩
  | .hbm, ⟨41, _⟩ => ⟨S512x160, .f32⟩
  | .hbm, ⟨42, _⟩ => ⟨S512x64, .f32⟩
  | .hbm, ⟨43, _⟩ => ⟨S1x64, .f32⟩
  | .hbm, ⟨44, _⟩ => ⟨S512x64, .f32⟩
  | .hbm, ⟨45, _⟩ => ⟨S512x64, .f32⟩
  | .local _ .vmem, ⟨0, _⟩ => ⟨S1x5000x128, .f32⟩
  | .local _ .vmem, ⟨1, _⟩ => ⟨S1x5000x128, .f32⟩
  | .local _ .vmem, ⟨2, _⟩ => ⟨S1x5000x1, .i32⟩
  | .local _ .vmem, ⟨3, _⟩ => ⟨S1x5000x1, .i32⟩
  | .local _ .vmem, ⟨4, _⟩ => ⟨S1x512x128, .f32⟩
  | .local _ .vmem, ⟨5, _⟩ => ⟨S1x512x128, .f32⟩
  | .local _ .vmem, ⟨6, _⟩ => ⟨S512x128, .f32⟩
  | .local _ .vmem, ⟨7, _⟩ => ⟨S5000x512, .i32⟩
  | .local _ .vmem, ⟨8, _⟩ => ⟨S1x4000x32, .f32⟩
  | .local _ .vmem, ⟨9, _⟩ => ⟨S1x4000x32, .f32⟩
  | .local _ .vmem, ⟨10, _⟩ => ⟨S1x4000x1, .i32⟩
  | .local _ .vmem, ⟨11, _⟩ => ⟨S1x4000x1, .i32⟩
  | .local _ .vmem, ⟨12, _⟩ => ⟨S1x512x32, .f32⟩
  | .local _ .vmem, ⟨13, _⟩ => ⟨S1x512x32, .f32⟩
  | .local _ .vmem, ⟨14, _⟩ => ⟨S512x32, .f32⟩
  | .local _ .vmem, ⟨15, _⟩ => ⟨S4000x512, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_c_4 : Ref sig .tc := ⟨.hbm, 28, rfl⟩
abbrev main_call0_v14 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v20 : BitVec 1 := Scalar.cmpi .eq arg1 c9_i32
  let v21 : BitVec 32 := Scalar.extui v20
  let c0_i32_12 : BitVec 32 := 0#32
  let v22 : BitVec 1 := Scalar.cmpi .ne v21 c0_i32_12
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 200], ![false, false]⟩

def k1_cond2 (i : grid1.Coords) : BitVec 1 :=
  let arg1 : BitVec 32 := BitVec.ofNat 32 (i 1).val
  let c199_i32 : BitVec 32 := 199#32
  let v20 : BitVec 1 := Scalar.cmpi .eq arg1 c199_i32
  let v21 : BitVec 32 := Scalar.extui v20
  let c0_i32_12 : BitVec 32 := 0#32
  let v22 : BitVec 1 := Scalar.cmpi .ne v21 c0_i32_12
  v22

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  shapeCasts_S100000x128_S2x50000x128 : S100000x128.ShapeCasts S2x50000x128
  shapeCasts_S100000_S2x50000x1 : S100000.ShapeCasts S2x50000x1
  shapeCasts_S1600000x32_S2x800000x32 : S1600000x32.ShapeCasts S2x800000x32
  shapeCasts_S1600000_S2x800000x1 : S1600000.ShapeCasts S2x800000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S5000x512_d1_w32 : S5000x512.Iotas .tc 32 [1]
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  broadcasts_S5000x1_S5000x512 : S5000x1.Broadcasts S5000x512
  natLt_1_32 : 1 < 32
  bitsLt_bf16_f32 : FTy.bits .bf16 < FTy.bits .f32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S512x32_S512x32_0_0 : ∀ a, (![0, 0] : Fin 2 → Nat) a + S512x32.size a ≤ S512x32.size a
  h_S512x32 : 0 < S512x32.numel
  shapeCasts_S512x32_S512x32 : S512x32.ShapeCasts S512x32
  iota_S4000x512_d1_w32 : S4000x512.Iotas .tc 32 [1]
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  inb_S1x4000x32_S1x4000x32_0_0_0 : ∀ a, (![0, 0, 0] : Fin 3 → Nat) a + S1x4000x32.size a ≤ S1x4000x32.size a
  h_S1x4000x32 : 0 < S1x4000x32.numel
  shapeCasts_S1x4000x32_S4000x32 : S1x4000x32.ShapeCasts S4000x32
  inb_S1x4000x1_S1x4000x1_0_0_0 : ∀ a, (![0, 0, 0] : Fin 3 → Nat) a + S1x4000x1.size a ≤ S1x4000x1.size a
  h_S1x4000x1 : 0 < S1x4000x1.numel
  shapeCasts_S1x4000x1_S4000x1 : S1x4000x1.ShapeCasts S4000x1
  broadcasts_S4000x1_S4000x512 : S4000x1.Broadcasts S4000x512
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  shapeCasts_S512x32_S1x512x32 : S512x32.ShapeCasts S1x512x32
  reducesTo_S2x512x128_S512x128_d0 : S2x512x128.ReducesTo [0] S512x128
  reducesTo_S2x512x32_S512x32_d0 : S2x512x32.ReducesTo [0] S512x32
  concatenates_S512x128_S512x32_S512x160_d1 : Shape.Concatenates [S512x128, S512x32] S512x160 1
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  gather_S100000_S1600000x1_S1600000_n_0_n_n_0_1_1_wf : GatherDims.WF S100000 S1600000x1 S1600000 [] [0] [] [0] [] 1 ![1]
  dot_S5000x512_S5000x128_S512x128_0_0_1_1_n_n_wf : DotDims.WF S5000x512 S5000x128 S512x128 [0] [0] [1] [1] [] []
  dot_S4000x512_S4000x32_S512x32_0_0_1_1_n_n_wf : DotDims.WF S4000x512 S4000x32 S512x32 [0] [0] [1] [1] [] []
  dot_S512x160_S160x64_S512x64_1_0_0_1_n_n_wf : DotDims.WF S512x160 S160x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S2x50000x128.size a
  hwx0_0 : ∀ i : grid0.Coords, EltTy.bits .f32 = 32 ∨ (Rect.block (s := S2x50000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x1.size a ≤ S2x50000x1.size a
  hwx0_1 : ∀ i : grid0.Coords, EltTy.bits .i32 = 32 ∨ (Rect.block (s := S2x50000x1) S1x5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S2x512x128.size a
  hwx0_2 : ∀ i : grid0.Coords, EltTy.bits .f32 = 32 ∨ (Rect.block (s := S2x512x128) S1x512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4000x32.size a ≤ S2x800000x32.size a
  hwx1_0 : ∀ i : grid1.Coords, EltTy.bits .f32 = 32 ∨ (Rect.block (s := S2x800000x32) S1x4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4000x1.size a ≤ S2x800000x1.size a
  hwx1_1 : ∀ i : grid1.Coords, EltTy.bits .i32 = 32 ∨ (Rect.block (s := S2x800000x1) S1x4000x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x32.size a ≤ S2x512x32.size a
  hwx1_2 : ∀ i : grid1.Coords, EltTy.bits .f32 = 32 ∨ (Rect.block (s := S2x512x32) S1x512x32.size (cc1_transform_2 i) (hinb1_2 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S4000x512_S4000x32_S512x32_0_0_1_1_n_n : DotDims S4000x512 S4000x32 S512x32 where
  lhsContracting := [0]
  rhsContracting := [0]
  lhsNonContracting := [1]
  rhsNonContracting := [1]
  lhsBatch := []
  rhsBatch := []
  wf := dot_S4000x512_S4000x32_S512x32_0_0_1_1_n_n_wf
def dot_S512x160_S160x64_S512x64_1_0_0_1_n_n : DotDims S512x160 S160x64 S512x64 where
  lhsContracting := [1]
  rhsContracting := [0]
  lhsNonContracting := [0]
  rhsNonContracting := [1]
  lhsBatch := []
  rhsBatch := []
  wf := dot_S512x160_S160x64_S512x64_1_0_0_1_n_n_wf

abbrev win0_0 : Pipeline.Window sig grid0 :=
  Pipeline.Window.ofSpec (Memref.whole main_v3) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S1x4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x512x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S512x64 : Shape := ⟨2, ![512, 64]⟩
abbrev S100000 : Shape := ⟨1, ![100000]⟩
abbrev S160x64 : Shape := ⟨2, ![160, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S512x128 : Shape := ⟨2, ![512, 128]⟩
abbrev S100000x1 : Shape := ⟨2, ![100000, 1]⟩
abbrev S1600000x1 : Shape := ⟨2, ![1600000, 1]⟩
abbrev S512x32 : Shape := ⟨2, ![512, 32]⟩
abbrev S512x160 : Shape := ⟨2, ![512, 160]⟩
abbrev S1x64 : Shape := ⟨2, ![1, 64]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S512x64, .f32⟩
  | .hbm, ⟨4, _⟩ => ⟨S100000, .i32⟩
  | .hbm, ⟨5, _⟩ => ⟨S160x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S512x128, .f32⟩
  | .hbm, ⟨11, _⟩ => ⟨S100000x1, .i32⟩
  | .hbm, ⟨12, _⟩ => ⟨S512x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000, .i32⟩
  | .hbm, ⟨22, _⟩ => ⟨S_, .f32⟩
  | .hbm, ⟨23, _⟩ => ⟨S512x32, .f32⟩
  | .hbm, ⟨24, _⟩ => ⟨S1600000x1, .i32⟩
  | .hbm, ⟨25, _⟩ => ⟨S512x32, .f32⟩
  | .hbm, ⟨26, _⟩ => ⟨S512x160, .f32⟩
  | .hbm, ⟨27, _⟩ => ⟨S512x64, .f32⟩
  | .hbm, ⟨28, _⟩ => ⟨S1x64, .f32⟩
  | .hbm, ⟨29, _⟩ => ⟨S512x64, .f32⟩
  | .hbm, ⟨30, _⟩ => ⟨S512x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S512x128 : S_.BroadcastsInDim S512x128 (![] : Fin 0 → Fin S512x128.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S512x32 : S_.BroadcastsInDim S512x32 (![] : Fin 0 → Fin S512x32.rank)
  concatenates_S512x128_S512x32_S512x160_d1 : Shape.Concatenates [S512x128, S512x32] S512x160 1
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  scatter_S512x128_S100000x1_S100000x128_1_0_0_1_wf : ScatterDims.WF S512x128 S100000x1 S100000x128 [1] [0] [0] 1
  gather_S100000_S1600000x1_S1600000_n_0_n_n_0_1_1_wf : GatherDims.WF S100000 S1600000x1 S1600000 [] [0] [] [0] [] 1 ![1]
  scatter_S512x32_S1600000x1_S1600000x32_1_0_0_1_wf : ScatterDims.WF S512x32 S1600000x1 S1600000x32 [1] [0] [0] 1
  dot_S512x160_S160x64_S512x64_1_0_0_1_n_n_wf : DotDims.WF S512x160 S160x64 S512x64 [1] [0] [0] [1] [] []

variable [Facts₀]

def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S512x32_S1600000x1_S1600000x32_1_0_0_1 : ScatterDims S512x32 S1600000x1 S1600000x32 where
  updateWindowDims := [1]
  insertedWindowDims := [0]
  scatterDimsToOperandDims := [0]
  indexVectorDim := 1
  wf := scatter_S512x32_S1600000x1_S1600000x32_1_0_0_1_wf
def dot_S512x160_S160x64_S512x64_1_0_0_1_n_n : DotDims S512x160 S160x64 S512x64 where
  lhsContracting := [1]
  rhsContracting := [0]
  lhsNonContracting := [0]
  rhsNonContracting := [1]
  lhsBatch := []
  rhsBatch := []
  wf := dot_S512x160_S160x64_S512x64_1_0_0_1_n_n_wf

class Facts : Prop extends Facts₀ where

variable [Facts]
-- ==== Proof.Kb.R0Shared.lean ====
/-
  Region 0 (the node aggregation): what the three control cases of its body share. The grid is 2 x 10, row-major:
  point t has half t / 10 and step t % 10. The body resets its two scratch buffers (the accumulator and the cached
  column-index table) at step 0, adds one tile's one-hot product into the accumulator at every step, and copies the
  accumulator into the output block at step 9.
-/
import proofs.«423693_j10393820857014_2_alg».proof.Proof.Gen.Kernel.Skeleton
import proofs.«423693_j10393820857014_2_alg».proof.Proof.Gen.Kernel.Launch
import proofs.«423693_j10393820857014_2_alg».proof.Proof.Gen.Kernel.Points
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions of the body, over the grid coordinates -/

/-- "this is step 0 of its half": the scalar chain the first `scf.if` tests. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "this is the last step of its half". -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
/-- The accumulator scratch and the column-index scratch, whole scoped buffers of the kernel's own. -/
abbrev scM0_0 : Memref sig .tc .vmem S512x128 .f32 := Memref.whole cc0_scratch0
abbrev scM0_1 : Memref sig .tc .vmem S5000x512 .i32 := Memref.whole cc0_scratch1
abbrev VS0_0 : View sig .tc .vmem S512x128 .f32 := scM0_0.view
abbrev VS0_1 : View sig .tc .vmem S5000x512 .i32 := scM0_1.view
abbrev VO0_2 : View sig .tc .vmem S1x512x128 .f32 := (Memref.whole cc0_stg2_0 : Memref sig .tc .vmem S1x512x128 .f32).view

end Cert.Kernel.Fr

end
-- ==== Proof.Kb.R0RunA.lean ====
/-
  Region 0, case A (step 0 of a half): both scratch buffers are overwritten whole before they are read, so the
  body runs from ANY contents of them; the output block is not touched.
-/
import proofs.«423693_j10393820857014_2_alg».proof.Proof.Kb.R0Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a step-0 point: from the two input blocks `x0` (the tile of rows) and `x1` (the tile of graph ids),
    the output's staging buffer at anything (`xi2`, handed back untouched) and the two scratch buffers at anything, it
    runs, and leaves in each scratch the pieces its stores wrote (found by the run). -/
noncomputable def kernelRun0_A (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i)
    (x0 : Vec F S1x5000x128 .f32) (x1 : Vec F S1x5000x1 .i32) :
    Σ' (LS0 : List (View.Piece (Elt F) S512x128 .f32)), { LS1 : List (View.Piece (Elt F) S5000x512 .i32) //
      ∀ (xi2 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__node_agg_kernel i arg2 harg2 arg3 harg3 arg4 harg4 arg5 harg5 arg6 harg6) K } := by
  refine ⟨?_, ?_, fun xi2 E K => ?run⟩
  case run =>
    simp only [cc0__node_agg_kernel_eq_skeleton]; unfold cc0__node_agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.Kernel.Fr

end
-- ==== Proof.Kb.R0RunB.lean ====
/-
  Region 0, case B (a middle step of a half): the accumulator is read and overwritten whole, the column-index table
  only read; the output block is not touched.
-/
import proofs.«423693_j10393820857014_2_alg».proof.Proof.Kb.R0Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a middle point: the accumulator comes in at `xs0` and the index table at `xs1` (what the point before
    left); the accumulator goes out with the pieces the one store wrote, the table as it came. -/
noncomputable def kernelRun0_B (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : ¬cond0_1 i)
    (x0 : Vec F S1x5000x128 .f32) (x1 : Vec F S1x5000x1 .i32) (xs0 : Vec F S512x128 .f32) (xs1 : Vec F S5000x512 .i32) :
    { LS0 : List (View.Piece (Elt F) S512x128 .f32) //
      ∀ (xi2 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__node_agg_kernel i arg2 harg2 arg3 harg3 arg4 harg4 arg5 harg5 arg6 harg6) K } := by
  refine ⟨?_, fun xi2 E K => ?run⟩
  case run =>
    simp only [cc0__node_agg_kernel_eq_skeleton]; unfold cc0__node_agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; isplitr; · ipureintro; exact harg6.read_unread _
    iexact HS1

end Cert.Kernel.Fr

end
-- ==== Proof.Kb.R0RunC.lean ====
/-
  Region 0, case C (the last step of a half): as a middle step, and then the accumulator is copied whole into the
  output block.
-/
import proofs.«423693_j10393820857014_2_alg».proof.Proof.Kb.R0Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a last point: as case B, and the output's staging buffer (at anything before) goes out with the
    pieces the one store wrote. -/
noncomputable def kernelRun0_C (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i)
    (x0 : Vec F S1x5000x128 .f32) (x1 : Vec F S1x5000x1 .i32) (xs0 : Vec F S512x128 .f32) (xs1 : Vec F S5000x512 .i32) :
    Σ' (L2 : List (View.Piece (Elt F) S1x512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__node_agg_kernel i arg2 harg2 arg3 harg3 arg4 harg4 arg5 harg5 arg6 harg6) K } := by
  refine ⟨?_, ?_, fun E K => ?run⟩
  case run =>
    simp only [cc0__node_agg_kernel_eq_skeleton]; unfold cc0__node_agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    iexists _; isplitr; · ipureintro; exact harg6.read_unread _
    iexact HS1

end Cert.Kernel.Fr

end
-- ==== Proof.Kb.R0Rest.lean ====
/-
  Region 0: the class invariant (every scoped buffer no window stages, whole at some contents, and the generator
  register) split into the two scratch buffers this kernel names and the rest, which it never touches.
-/
import proofs.«423693_j10393820857014_2_alg».proof.Proof.Kb.R0Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scoped buffers of the core that region 0 neither stages nor names (they are region 1's), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_split (c : Dev nD) :
    (Pipeline.ΦA spec0 c : sProp 𝕄) ⊢ iprop((∃ d, owns (c : Thread nD τ) scM0_0 fullShare d) ∗ (∃ d, owns (c : Thread nD τ) scM0_1 fullShare d) ∗ rest0 (F := F) c ∗ (∃ r, prngReg c r)) := by
  unfold Pipeline.ΦA rest0; rw [scopedRest0_eq]; simp only [scM0_0, scM0_1, owns_whole]
  iintro ⟨⟨H0, H1, Hr⟩, Hg⟩
  isplitl [H0]; · iexact H0
  isplitl [H1]; · iexact H1
  isplitl [Hr]; · iexact Hr
  iexact Hg

theorem PhiA0_join (c : Dev nD) :
    iprop((∃ d, owns (c : Thread nD τ) scM0_0 fullShare d) ∗ (∃ d, owns (c : Thread nD τ) scM0_1 fullShare d) ∗ rest0 (F := F) c ∗ (∃ r, prngReg c r)) ⊢ (Pipeline.ΦA spec0 c : sProp 𝕄) := by
  unfold Pipeline.ΦA rest0; rw [scopedRest0_eq]; simp only [scM0_0, scM0_1, owns_whole]
  iintro ⟨H0, H1, Hr, Hg⟩
  isplitr [Hg]
  · isplitl [H0]; · iexact H0
    isplitl [H1]; · iexact H1
    iexact Hr
  iexact Hg

end Cert.Kernel.Fr

end
-- ==== Proof.Kb.R0Frame.lean ====
/-
  Region 0 (the node aggregation): what its scratch buffers and its output block hold point by point, the proof data
  of its pipeline, and the body obligation at every point.

  The grid is 2 x 10. Before a point that is not step 0 of its half the accumulator scratch holds the sum of the
  one-hot products of the half's earlier tiles and the index scratch the column-index table; at step 0 both are
  overwritten before they are read, so nothing is asked of them there. The output block of a half is written at its
  last step only, from the accumulator; at every other point the window is idle and its buffer handed back untouched.
-/
import proofs.«423693_j10393820857014_2_alg».proof.Proof.Kb.R0RunA
import proofs.«423693_j10393820857014_2_alg».proof.Proof.Kb.R0RunB
import proofs.«423693_j10393820857014_2_alg».proof.Proof.Kb.R0RunC
import proofs.«423693_j10393820857014_2_alg».proof.Proof.Kb.R0Rest
import Idealize.ShloMosaic.Lib.Pipeline.FrameBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the pieces its stores wrote, read back -/

theorem scover0_A_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i) (x0 : Vec F S1x5000x128 .f32) (x1 : Vec F S1x5000x1 .i32) (y : S512x128.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S512x128.size (by sl_kernel_rfl) y
theorem scover0_A_1 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i) (x0 : Vec F S1x5000x128 .f32) (x1 : Vec F S1x5000x1 .i32) (y : S5000x512.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S5000x512.size (by sl_kernel_rfl) y
/-- The accumulator after a step-0 point. -/
def sout0_A_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i) (x0 : Vec F S1x5000x128 .f32) (x1 : Vec F S1x5000x1 .i32) : Vec F S512x128 .f32 :=
  VS0_0.read (Elt F) (VS0_0.writes (Elt F) VS0_0.junk (kernelRun0_A c i arg2 harg2 arg3 harg3 arg4 harg4 arg5 harg5 arg6 harg6 hc0 hc1 x0 x1).1)
/-- The column-index table after a step-0 point. -/
def sout0_A_1 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i) (x0 : Vec F S1x5000x128 .f32) (x1 : Vec F S1x5000x1 .i32) : Vec F S5000x512 .i32 :=
  VS0_1.read (Elt F) (VS0_1.writes (Elt F) VS0_1.junk (kernelRun0_A c i arg2 harg2 arg3 harg3 arg4 harg4 arg5 harg5 arg6 harg6 hc0 hc1 x0 x1).2.1)

theorem scover0_B_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : ¬cond0_1 i) (x0 : Vec F S1x5000x128 .f32) (x1 : Vec F S1x5000x1 .i32) (xs0 : Vec F S512x128 .f32) (xs1 : Vec F S5000x512 .i32) (y : S512x128.Idx) :
    ∃ pc ∈ (kernelRun0_B c i arg2 harg2 arg3 harg3 arg4 harg4 arg5 harg5 arg6 harg6 hc0 hc1 x0 x1 xs0 xs1).1, y ∈ pc.1.set :=
  View.cover_of_tiledL (kernelRun0_B c i arg2 harg2 arg3 harg3 arg4 harg4 arg5 harg5 arg6 harg6 hc0 hc1 x0 x1 xs0 xs1).1 S512x128.size (by sl_kernel_rfl) y
/-- The accumulator after a middle point, over what the point before left. -/
def sout0_B_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : ¬cond0_1 i) (x0 : Vec F S1x5000x128 .f32) (x1 : Vec F S1x5000x1 .i32) (xs0 : Vec F S512x128 .f32) (xs1 : Vec F S5000x512 .i32) : Vec F S512x128 .f32 :=
  VS0_0.read (Elt F) (VS0_0.writes (Elt F) VS0_0.junk (kernelRun0_B c i arg2 harg2 arg3 harg3 arg4 harg4 arg5 harg5 arg6 harg6 hc0 hc1 x0 x1 xs0 xs1).1)

theorem cover0_C_2 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i) (x0 : Vec F S1x5000x128 .f32) (x1 : Vec F S1x5000x1 .i32) (xs0 : Vec F S512x128 .f32) (xs1 : Vec F S5000x512 .i32) (y : S1x512x128.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1x512x128.size (by sl_kernel_rfl) y
theorem scover0_C_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i) (x0 : Vec F S1x5000x128 .f32) (x1 : Vec F S1x5000x1 .i32) (xs0 : Vec F S512x128 .f32) (xs1 : Vec F S5000x512 .i32) (y : S512x128.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S512x128.size (by sl_kernel_rfl) y
/-- The output block a last point writes. -/
def out0_C_2 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i) (x0 : Vec F S1x5000x128 .f32) (x1 : Vec F S1x5000x1 .i32) (xs0 : Vec F S512x128 .f32) (xs1 : Vec F S5000x512 .i32) : Vec F S1x512x128 .f32 :=
  VO0_2.read (Elt F) (VO0_2.writes (Elt F) VO0_2.junk (kernelRun0_C c i arg2 harg2 arg3 harg3 arg4 harg4 arg5 harg5 arg6 harg6 hc0 hc1 x0 x1 xs0 xs1).1)
/-- The accumulator after a last point. -/
def sout0_C_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i) (x0 : Vec F S1x5000x128 .f32) (x1 : Vec F S1x5000x1 .i32) (xs0 : Vec F S512x128 .f32) (xs1 : Vec F S5000x512 .i32) : Vec F S512x128 .f32 :=
  VS0_0.read (Elt F) (VS0_0.writes (Elt F) VS0_0.junk (kernelRun0_C c i arg2 harg2 arg3 harg3 arg4 harg4 arg5 harg5 arg6 harg6 hc0 hc1 x0 x1 xs0 xs1).2.1)

/-! ## The scratch buffers point by point -/

theorem notLast_of_first (t : Fin cfg0.N) (h0 : t.val % 10 = 0) : ¬cond0_1 (grid0.coords t) :=
  fun h => by have := (hcond0_1 t).mp h; omega
theorem notFirst_of_last (t : Fin cfg0.N) (h1 : t.val % 10 = 9) : ¬cond0_0 (grid0.coords t) :=
  fun h => by have := (hcond0_0 t).mp h; omega

/-- (accumulator, index table) after a step-0 point. -/
def accA0 (c : Dev nD) (t : Fin cfg0.N) (h0 : t.val % 10 = 0) : Vec F S512x128 .f32 × Vec F S5000x512 .i32 :=
  (sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notLast_of_first t h0) (iblk0 V c 0 t) (iblk0 V c 1 t),
   sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (notLast_of_first t h0) (iblk0 V c 0 t) (iblk0 V c 1 t))
/-- after a middle point, over the pair `p` the point before left. -/
def accB0 (c : Dev nD) (t : Fin cfg0.N) (h0 : ¬t.val % 10 = 0) (h1 : ¬t.val % 10 = 9) (p : Vec F S512x128 .f32 × Vec F S5000x512 .i32) :
    Vec F S512x128 .f32 × Vec F S5000x512 .i32 :=
  (sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) p.1 p.2, p.2)
/-- after a last point. -/
def accC0 (c : Dev nD) (t : Fin cfg0.N) (h1 : t.val % 10 = 9) (p : Vec F S512x128 .f32 × Vec F S5000x512 .i32) :
    Vec F S512x128 .f32 × Vec F S5000x512 .i32 :=
  (sout0_C_0 c (grid0.coords t) (ms0_0 t) (hs0_0 t) (ms0_1 t) (hs0_1 t) (ms0_2 t) (hs0_2 t) scM0_0 (Memref.isWhole_whole _) scM0_1 (Memref.isWhole_whole _) (notFirst_of_last t h1) ((hcond0_1 t).mpr h1) (iblk0 V c 0 t) (iblk0 V c 1 t) p.1 p.2, p.2)

/-- THE ACCUMULATION: the two scratch buffers after the body at position `n`, by recursion on the point. -/
def scAt0 (c : Dev nD) : (n : ℕ) → n < cfg0.N → Vec F S512x128 .f32 × Vec F S5000x512 .i32
  | 0, hn => accA0 V c ⟨0, hn⟩ (Nat.zero_mod _)
  | n + 1, hn =>
    if h0 : (n + 1) % 10 = 0 then accA0 V c ⟨n + 1, hn⟩ h0
    else if h1 : (n + 1) % 10 = 9 then accC0 V c ⟨n + 1, hn⟩ h1 (scAt0 c n (Nat.lt_of_succ_lt hn))
    else accB0 V c ⟨n + 1, hn⟩ h0 h1 (scAt0 c n (Nat.lt_of_succ_lt hn))

theorem scAt0_A (c : Dev nD) (t : Fin cfg0.N) (h0 : t.val % 10 = 0) : scAt0 V c t.val t.isLt = accA0 V c t h0 := by
  obtain ⟨n, hn⟩ := t
  cases n with
  | zero => rfl
  | succ n => exact dif_pos h0
theorem scAt0_B (c : Dev nD) (t : Fin cfg0.N) (h0 : ¬t.val % 10 = 0) (h1 : ¬t.val % 10 = 9) :
    scAt0 V c t.val t.isLt = accB0 V c t h0 h1 (scAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem scAt0_C (c : Dev nD) (t : Fin cfg0.N) (h0 : ¬t.val % 10 = 0) (h1 : t.val % 10 = 9) :
    scAt0 V c t.val t.isLt = accC0 V c t h1 (scAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's buffer holds after the body: at a last point the block it wrote; elsewhere the window
    is idle and this value is never consulted. -/
def out2At0 (c : Dev nD) (t : Fin cfg0.N) : Vec F S1x512x128 .f32 :=
  if h1 : t.val % 10 = 9 then
    out0_C_2 c (grid0.coords t) (ms0_0 t) (hs0_0 t) (ms0_1 t) (hs0_1 t) (ms0_2 t) (hs0_2 t) scM0_0 (Memref.isWhole_whole _) scM0_1 (Memref.isWhole_whole _) (notFirst_of_last t h1) ((hcond0_1 t).mpr h1) (iblk0 V c 0 t) (iblk0 V c 1 t)
      (scAt0 V c (t.val - 1) (Nat.lt_of_le_of_lt (Nat.sub_le _ _) t.isLt)).1 (scAt0 V c (t.val - 1) (Nat.lt_of_le_of_lt (Nat.sub_le _ _) t.isLt)).2
  else VO0_2.read (Elt F) (VO0_2.writes (Elt F) VO0_2.junk [])

theorem out2At0_C (c : Dev nD) (t : Fin cfg0.N) (h1 : t.val % 10 = 9) :
    out2At0 V c t = out0_C_2 c (grid0.coords t) (ms0_0 t) (hs0_0 t) (ms0_1 t) (hs0_1 t) (ms0_2 t) (hs0_2 t) scM0_0 (Memref.isWhole_whole _) scM0_1 (Memref.isWhole_whole _) (notFirst_of_last t h1) ((hcond0_1 t).mpr h1) (iblk0 V c 0 t) (iblk0 V c 1 t)
      (scAt0 V c (t.val - 1) (Nat.lt_of_le_of_lt (Nat.sub_le _ _) t.isLt)).1 (scAt0 V c (t.val - 1) (Nat.lt_of_le_of_lt (Nat.sub_le _ _) t.isLt)).2 := by
  unfold out2At0; exact dif_pos h1

/-! ## The invariant -/

/-- Before position `n`: at the region's entry the class invariant; afterwards the two scratch buffers at what the
    point before left, the untouched scoped buffers and the generator register. -/
def PhiS0 (c : Dev nD) : (n : ℕ) → n ≤ cfg0.N → sProp 𝕄
  | 0, _ => Pipeline.ΦA spec0 c
  | n + 1, hn => iprop(owns (c : Thread nD τ) scM0_0 fullShare (scAt0 V c n hn).1 ∗ owns (c : Thread nD τ) scM0_1 fullShare (scAt0 V c n hn).2
      ∗ rest0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (scAt0 V c n hn).1 ∗ owns (c : Thread nD τ) scM0_1 fullShare (scAt0 V c n hn).2
      ∗ rest0 (F := F) c ∗ (∃ r, prngReg c r)) := rfl
theorem PhiS0_pos (c : Dev nD) (n : ℕ) (h : n ≤ cfg0.N) (hz : n ≠ 0) :
    PhiS0 V c n h = iprop(owns (c : Thread nD τ) scM0_0 fullShare (scAt0 V c (n - 1) (by omega)).1 ∗ owns (c : Thread nD τ) scM0_1 fullShare (scAt0 V c (n - 1) (by omega)).2
      ∗ rest0 (F := F) c ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out2At0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out2At0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms of the two conditions say which case the point is in; the invariant hands
    the run the scratch buffers (at anything at the region's first point, at what the point before left afterwards) and
    takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 20 := lt_of_lt_of_eq t.isLt (show cfg0.N = 20 from N_0)
  by_cases h0 : t.val % 10 = 0
  · have hn1 : ¬cond0_1 (grid0.coords t) := notLast_of_first t h0
    rw [Dat.leavesExact_idle (dat0 V c) 2 t (idleAt0_2 t hn1) (noFlush0_2 t hn1)]
    rw [scAt0_A V c t h0]
    unfold accA0 sout0_A_0 sout0_A_1; (try dsimp only)
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA0_split (F := F) c) $$ HΦ
      icases HΦ' with ⟨HS0, HS1, Hr, Hg⟩
      iapply ((kernelRun0_A c (grid0.coords t) _ _ _ _ _ _ _ _ _ _ ((hcond0_0 t).mpr h0) hn1 (iblk0 V c 0 t) (iblk0 V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover0_A_0 c _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨HS0, HS1, Hr, Hg⟩, Ho, ⟨%d0, H0⟩, ⟨%d1, H1⟩, ⟨%d2, H2⟩⟩
      iapply ((kernelRun0_A c (grid0.coords t) _ _ _ _ _ _ _ _ _ _ ((hcond0_0 t).mpr h0) hn1 (iblk0 V c 0 t) (iblk0 V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover0_A_0 c _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun hz => h0 (by rw [hz])
    by_cases h1 : t.val % 10 = 9
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, out2At0_C V c t h1]
      rw [scAt0_C V c t h0 h1]
      unfold accC0 out0_C_2 sout0_C_0; (try dsimp only)
      rw [PhiS0_castSucc V c t, PhiS0_pos V c _ _ hz]
      iintro ⟨⟨HS0, HS1, Hr, Hg⟩, Ho, ⟨%d0, H0⟩, ⟨%d1, H1⟩, ⟨%d2, H2⟩⟩
      iapply ((kernelRun0_C c (grid0.coords t) _ _ _ _ _ _ _ _ _ _ (notFirst_of_last t h1) hc1 (iblk0 V c 0 t) (iblk0 V c 1 t) _ _).2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, HS1⟩
      isplitl [HS0 HS1 Hr Hg]
      · isplitl [HS0]
        · unfold owns; iexists _; isplitr
          swap; · iexact HS0
          ipureintro; exact View.read_writes_of_cover _ _ _ _ _ (scover0_C_0 c _ _ _ _ _ _ _ _ _ _ _ _ _ _ _ _ _)
        isplitl [HS1]; · iexact HS1
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · have hn1 : ¬cond0_1 (grid0.coords t) := fun h => h1 ((hcond0_1 t).mp h)
      rw [Dat.leavesExact_idle (dat0 V c) 2 t (idleAt0_2 t hn1) (noFlush0_2 t hn1)]
      rw [scAt0_B V c t h0 h1]
      unfold accB0 sout0_B_0; (try dsimp only)
      rw [PhiS0_castSucc V c t, PhiS0_pos V c _ _ hz]
      iintro ⟨⟨HS0, HS1, Hr, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) hn1 (iblk0 V c 0 t) (iblk0 V c 1 t) _ _).2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, HS1⟩
      isplitl [HS0 HS1 Hr Hg]
      · isplitl [HS0]
        · unfold owns; iexists _; isplitr
          swap; · iexact HS0
          ipureintro; exact View.read_writes_of_cover _ _ _ _ _ (scover0_B_0 c _ _ _ _ _ _ _ _ _ _ _ _ _ _ _ _ _)
        isplitl [HS1]; · iexact HS1
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 20 := N_0; omega)]
  iintro ⟨HS0, HS1, Hr, Hg⟩
  iapply (PhiA0_join (F := F) c)
  isplitl [HS0]; · iexists _; iexact HS0
  isplitl [HS1]; · iexists _; iexact HS1
  isplitl [Hr]; · iexact Hr
  iexact Hg

end Cert.Kernel.Fr

end
-- ==== Proof.Kb.R1Shared.lean ====
/-
  Region 1 (the edge aggregation): what the three control cases of its body share. The grid is 2 x 200, row-major:
  point t has half t / 200 and step t % 200. The body resets its two scratch buffers (the accumulator and the cached
  column-index table) at step 0, adds one tile's one-hot product into the accumulator at every step, and copies the
  accumulator into the output block at step 199.
-/
import proofs.«423693_j10393820857014_2_alg».proof.Proof.Gen.Kernel.Skeleton
import proofs.«423693_j10393820857014_2_alg».proof.Proof.Gen.Kernel.Launch
import proofs.«423693_j10393820857014_2_alg».proof.Proof.Gen.Kernel.Points
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions of the body, over the grid coordinates -/

/-- "this is step 0 of its half": the scalar chain the first `scf.if` tests. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 200 = 0 :=
  (by decide +kernel : ∀ t : Fin grid1.N, cond1_0 (grid1.coords t) ↔ t.val % 200 = 0)

/-- "this is the last step of its half". -/
abbrev cond1_1 (i : grid1.Coords) : Prop := k1_cond2 i = 1#1
theorem hcond1_1 : ∀ t : Fin cfg1.N, cond1_1 (grid1.coords t) ↔ t.val % 200 = 199 :=
  (by decide +kernel : ∀ t : Fin grid1.N, cond1_1 (grid1.coords t) ↔ t.val % 200 = 199)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1x4000x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x32 .f32 := win1_2.stage (cfg1.slots t 2)
abbrev hs1_2 (t : Fin cfg1.N) : (ms1_2 t).IsWhole := hstage1_2 ((cfg1.slots t 2).cast nbuf1_2)
/-- The accumulator scratch and the column-index scratch, whole scoped buffers of the kernel's own. -/
abbrev scM1_0 : Memref sig .tc .vmem S512x32 .f32 := Memref.whole cc1_scratch0
abbrev scM1_1 : Memref sig .tc .vmem S4000x512 .i32 := Memref.whole cc1_scratch1
abbrev VS1_0 : View sig .tc .vmem S512x32 .f32 := scM1_0.view
abbrev VS1_1 : View sig .tc .vmem S4000x512 .i32 := scM1_1.view
abbrev VO1_2 : View sig .tc .vmem S1x512x32 .f32 := (Memref.whole cc1_stg2_0 : Memref sig .tc .vmem S1x512x32 .f32).view

end Cert.Kernel.Fr

end
-- ==== Proof.Kb.R1RunA.lean ====
/-
  Region 1, case A (step 0 of a half): both scratch buffers are overwritten whole before they are read, so the
  body runs from ANY contents of them; the output block is not touched.
-/
import proofs.«423693_j10393820857014_2_alg».proof.Proof.Kb.R1Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a step-0 point: from the two input blocks `x0` (the tile of rows) and `x1` (the tile of graph ids),
    the output's staging buffer at anything (`xi2`, handed back untouched) and the two scratch buffers at anything, it
    runs, and leaves in each scratch the pieces its stores wrote (found by the run). -/
noncomputable def kernelRun1_A (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i)
    (x0 : Vec F S1x4000x32 .f32) (x1 : Vec F S1x4000x1 .i32) :
    Σ' (LS0 : List (View.Piece (Elt F) S512x32 .f32)), { LS1 : List (View.Piece (Elt F) S4000x512 .i32) //
      ∀ (xi2 : Vec F S1x512x32 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__edge_agg_kernel i arg2 harg2 arg3 harg3 arg4 harg4 arg5 harg5 arg6 harg6) K } := by
  refine ⟨?_, ?_, fun xi2 E K => ?run⟩
  case run =>
    simp only [cc1__edge_agg_kernel_eq_skeleton]; unfold cc1__edge_agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.Kernel.Fr

end
-- ==== Proof.Kb.R1RunB.lean ====
/-
  Region 1, case B (a middle step of a half): the accumulator is read and overwritten whole, the column-index table
  only read; the output block is not touched.
-/
import proofs.«423693_j10393820857014_2_alg».proof.Proof.Kb.R1Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a middle point: the accumulator comes in at `xs0` and the index table at `xs1` (what the point before
    left); the accumulator goes out with the pieces the one store wrote, the table as it came. -/
noncomputable def kernelRun1_B (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : ¬cond1_1 i)
    (x0 : Vec F S1x4000x32 .f32) (x1 : Vec F S1x4000x1 .i32) (xs0 : Vec F S512x32 .f32) (xs1 : Vec F S4000x512 .i32) :
    { LS0 : List (View.Piece (Elt F) S512x32 .f32) //
      ∀ (xi2 : Vec F S1x512x32 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc1__edge_agg_kernel i arg2 harg2 arg3 harg3 arg4 harg4 arg5 harg5 arg6 harg6) K } := by
  refine ⟨?_, fun xi2 E K => ?run⟩
  case run =>
    simp only [cc1__edge_agg_kernel_eq_skeleton]; unfold cc1__edge_agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; isplitr; · ipureintro; exact harg6.read_unread _
    iexact HS1

end Cert.Kernel.Fr

end
-- ==== Proof.Kb.R1RunC.lean ====
/-
  Region 1, case C (the last step of a half): as a middle step, and then the accumulator is copied whole into the
  output block.
-/
import proofs.«423693_j10393820857014_2_alg».proof.Proof.Kb.R1Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a last point: as case B, and the output's staging buffer (at anything before) goes out with the
    pieces the one store wrote. -/
noncomputable def kernelRun1_C (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i)
    (x0 : Vec F S1x4000x32 .f32) (x1 : Vec F S1x4000x1 .i32) (xs0 : Vec F S512x32 .f32) (xs1 : Vec F S4000x512 .i32) :
    Σ' (L2 : List (View.Piece (Elt F) S1x512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc1__edge_agg_kernel i arg2 harg2 arg3 harg3 arg4 harg4 arg5 harg5 arg6 harg6) K } := by
  refine ⟨?_, ?_, fun E K => ?run⟩
  case run =>
    simp only [cc1__edge_agg_kernel_eq_skeleton]; unfold cc1__edge_agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    iexists _; isplitr; · ipureintro; exact harg6.read_unread _
    iexact HS1

end Cert.Kernel.Fr

end
-- ==== Proof.Kb.R1Rest.lean ====
/-
  Region 1: the class invariant split into the two scratch buffers this kernel names and the rest (region 0's scoped
  buffers), which it never touches. The two scratch buffers come last in the list of the core's scoped buffers.
-/
import proofs.«423693_j10393820857014_2_alg».proof.Proof.Kb.R1Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scoped buffers of the core that region 1 neither stages nor names (they are region 0's), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ rest1 (F := F) c ∗ (∃ r, prngReg c r)) := by
  unfold Pipeline.ΦA rest1; rw [scopedRest1_eq]; simp only [scM1_0, scM1_1, owns_whole]
  iintro ⟨⟨R1, R2, R3, R4, R5, R6, R7, R8, H0, H1⟩, Hg⟩
  isplitl [H0]; · iexact H0
  isplitl [H1]; · iexact H1
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg

theorem PhiA1_join (c : Dev nD) :
    iprop((∃ d, owns (c : Thread nD τ) scM1_0 fullShare d) ∗ (∃ d, owns (c : Thread nD τ) scM1_1 fullShare d) ∗ rest1 (F := F) c ∗ (∃ r, prngReg c r)) ⊢ (Pipeline.ΦA spec1 c : sProp 𝕄) := by
  unfold Pipeline.ΦA rest1; rw [scopedRest1_eq]; simp only [scM1_0, scM1_1, owns_whole]
  iintro ⟨H0, H1, ⟨R1, R2, R3, R4, R5, R6, R7, R8⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [H0]; · iexact H0
    iexact H1
  iexact Hg

end Cert.Kernel.Fr

end
-- ==== Proof.Kb.R1Frame.lean ====
/-
  Region 1 (the edge aggregation): what its scratch buffers and its output block hold point by point, the proof data
  of its pipeline, and the body obligation at every point.

  The grid is 2 x 200. Before a point that is not step 0 of its half the accumulator scratch holds the sum of the
  one-hot products of the half's earlier tiles and the index scratch the column-index table; at step 0 both are
  overwritten before they are read, so nothing is asked of them there. The output block of a half is written at its
  last step only, from the accumulator; at every other point the window is idle and its buffer handed back untouched.
-/
import proofs.«423693_j10393820857014_2_alg».proof.Proof.Kb.R1RunA
import proofs.«423693_j10393820857014_2_alg».proof.Proof.Kb.R1RunB
import proofs.«423693_j10393820857014_2_alg».proof.Proof.Kb.R1RunC
import proofs.«423693_j10393820857014_2_alg».proof.Proof.Kb.R1Rest
import Idealize.ShloMosaic.Lib.Pipeline.FrameBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the pieces its stores wrote, read back -/

theorem scover1_A_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i) (x0 : Vec F S1x4000x32 .f32) (x1 : Vec F S1x4000x1 .i32) (y : S512x32.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S512x32.size (by sl_kernel_rfl) y
theorem scover1_A_1 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i) (x0 : Vec F S1x4000x32 .f32) (x1 : Vec F S1x4000x1 .i32) (y : S4000x512.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S4000x512.size (by sl_kernel_rfl) y
/-- The accumulator after a step-0 point. -/
def sout1_A_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i) (x0 : Vec F S1x4000x32 .f32) (x1 : Vec F S1x4000x1 .i32) : Vec F S512x32 .f32 :=
  VS1_0.read (Elt F) (VS1_0.writes (Elt F) VS1_0.junk (kernelRun1_A c i arg2 harg2 arg3 harg3 arg4 harg4 arg5 harg5 arg6 harg6 hc0 hc1 x0 x1).1)
/-- The column-index table after a step-0 point. -/
def sout1_A_1 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i) (x0 : Vec F S1x4000x32 .f32) (x1 : Vec F S1x4000x1 .i32) : Vec F S4000x512 .i32 :=
  VS1_1.read (Elt F) (VS1_1.writes (Elt F) VS1_1.junk (kernelRun1_A c i arg2 harg2 arg3 harg3 arg4 harg4 arg5 harg5 arg6 harg6 hc0 hc1 x0 x1).2.1)

theorem scover1_B_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : ¬cond1_1 i) (x0 : Vec F S1x4000x32 .f32) (x1 : Vec F S1x4000x1 .i32) (xs0 : Vec F S512x32 .f32) (xs1 : Vec F S4000x512 .i32) (y : S512x32.Idx) :
    ∃ pc ∈ (kernelRun1_B c i arg2 harg2 arg3 harg3 arg4 harg4 arg5 harg5 arg6 harg6 hc0 hc1 x0 x1 xs0 xs1).1, y ∈ pc.1.set :=
  View.cover_of_tiledL (kernelRun1_B c i arg2 harg2 arg3 harg3 arg4 harg4 arg5 harg5 arg6 harg6 hc0 hc1 x0 x1 xs0 xs1).1 S512x32.size (by sl_kernel_rfl) y
/-- The accumulator after a middle point, over what the point before left. -/
def sout1_B_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : ¬cond1_1 i) (x0 : Vec F S1x4000x32 .f32) (x1 : Vec F S1x4000x1 .i32) (xs0 : Vec F S512x32 .f32) (xs1 : Vec F S4000x512 .i32) : Vec F S512x32 .f32 :=
  VS1_0.read (Elt F) (VS1_0.writes (Elt F) VS1_0.junk (kernelRun1_B c i arg2 harg2 arg3 harg3 arg4 harg4 arg5 harg5 arg6 harg6 hc0 hc1 x0 x1 xs0 xs1).1)

theorem cover1_C_2 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i) (x0 : Vec F S1x4000x32 .f32) (x1 : Vec F S1x4000x1 .i32) (xs0 : Vec F S512x32 .f32) (xs1 : Vec F S4000x512 .i32) (y : S1x512x32.Idx) :
    ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S1x512x32.size (by sl_kernel_rfl) y
theorem scover1_C_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i) (x0 : Vec F S1x4000x32 .f32) (x1 : Vec F S1x4000x1 .i32) (xs0 : Vec F S512x32 .f32) (xs1 : Vec F S4000x512 .i32) (y : S512x32.Idx) :
    ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S512x32.size (by sl_kernel_rfl) y
/-- The output block a last point writes. -/
def out1_C_2 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i) (x0 : Vec F S1x4000x32 .f32) (x1 : Vec F S1x4000x1 .i32) (xs0 : Vec F S512x32 .f32) (xs1 : Vec F S4000x512 .i32) : Vec F S1x512x32 .f32 :=
  VO1_2.read (Elt F) (VO1_2.writes (Elt F) VO1_2.junk (kernelRun1_C c i arg2 harg2 arg3 harg3 arg4 harg4 arg5 harg5 arg6 harg6 hc0 hc1 x0 x1 xs0 xs1).1)
/-- The accumulator after a last point. -/
def sout1_C_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i) (x0 : Vec F S1x4000x32 .f32) (x1 : Vec F S1x4000x1 .i32) (xs0 : Vec F S512x32 .f32) (xs1 : Vec F S4000x512 .i32) : Vec F S512x32 .f32 :=
  VS1_0.read (Elt F) (VS1_0.writes (Elt F) VS1_0.junk (kernelRun1_C c i arg2 harg2 arg3 harg3 arg4 harg4 arg5 harg5 arg6 harg6 hc0 hc1 x0 x1 xs0 xs1).2.1)

/-! ## The scratch buffers point by point -/

theorem notLast_of_first1 (t : Fin cfg1.N) (h0 : t.val % 200 = 0) : ¬cond1_1 (grid1.coords t) :=
  fun h => by have := (hcond1_1 t).mp h; omega
theorem notFirst_of_last1 (t : Fin cfg1.N) (h1 : t.val % 200 = 199) : ¬cond1_0 (grid1.coords t) :=
  fun h => by have := (hcond1_0 t).mp h; omega

/-- (accumulator, index table) after a step-0 point. -/
def accA1 (c : Dev nD) (t : Fin cfg1.N) (h0 : t.val % 200 = 0) : Vec F S512x32 .f32 × Vec F S4000x512 .i32 :=
  (sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (notLast_of_first1 t h0) (iblk1 V c 0 t) (iblk1 V c 1 t),
   sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (notLast_of_first1 t h0) (iblk1 V c 0 t) (iblk1 V c 1 t))
/-- after a middle point, over the pair `p` the point before left. -/
def accB1 (c : Dev nD) (t : Fin cfg1.N) (h0 : ¬t.val % 200 = 0) (h1 : ¬t.val % 200 = 199) (p : Vec F S512x32 .f32 × Vec F S4000x512 .i32) :
    Vec F S512x32 .f32 × Vec F S4000x512 .i32 :=
  (sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) p.1 p.2, p.2)
/-- after a last point. -/
def accC1 (c : Dev nD) (t : Fin cfg1.N) (h1 : t.val % 200 = 199) (p : Vec F S512x32 .f32 × Vec F S4000x512 .i32) :
    Vec F S512x32 .f32 × Vec F S4000x512 .i32 :=
  (sout1_C_0 c (grid1.coords t) (ms1_0 t) (hs1_0 t) (ms1_1 t) (hs1_1 t) (ms1_2 t) (hs1_2 t) scM1_0 (Memref.isWhole_whole _) scM1_1 (Memref.isWhole_whole _) (notFirst_of_last1 t h1) ((hcond1_1 t).mpr h1) (iblk1 V c 0 t) (iblk1 V c 1 t) p.1 p.2, p.2)

/-- THE ACCUMULATION: the two scratch buffers after the body at position `n`, by recursion on the point. -/
def scAt1 (c : Dev nD) : (n : ℕ) → n < cfg1.N → Vec F S512x32 .f32 × Vec F S4000x512 .i32
  | 0, hn => accA1 V c ⟨0, hn⟩ (Nat.zero_mod _)
  | n + 1, hn =>
    if h0 : (n + 1) % 200 = 0 then accA1 V c ⟨n + 1, hn⟩ h0
    else if h1 : (n + 1) % 200 = 199 then accC1 V c ⟨n + 1, hn⟩ h1 (scAt1 c n (Nat.lt_of_succ_lt hn))
    else accB1 V c ⟨n + 1, hn⟩ h0 h1 (scAt1 c n (Nat.lt_of_succ_lt hn))

theorem scAt1_A (c : Dev nD) (t : Fin cfg1.N) (h0 : t.val % 200 = 0) : scAt1 V c t.val t.isLt = accA1 V c t h0 := by
  obtain ⟨n, hn⟩ := t
  cases n with
  | zero => rfl
  | succ n => exact dif_pos h0
theorem scAt1_B (c : Dev nD) (t : Fin cfg1.N) (h0 : ¬t.val % 200 = 0) (h1 : ¬t.val % 200 = 199) :
    scAt1 V c t.val t.isLt = accB1 V c t h0 h1 (scAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem scAt1_C (c : Dev nD) (t : Fin cfg1.N) (h0 : ¬t.val % 200 = 0) (h1 : t.val % 200 = 199) :
    scAt1 V c t.val t.isLt = accC1 V c t h1 (scAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's buffer holds after the body: at a last point the block it wrote; elsewhere the window
    is idle and this value is never consulted. -/
def out2At1 (c : Dev nD) (t : Fin cfg1.N) : Vec F S1x512x32 .f32 :=
  if h1 : t.val % 200 = 199 then
    out1_C_2 c (grid1.coords t) (ms1_0 t) (hs1_0 t) (ms1_1 t) (hs1_1 t) (ms1_2 t) (hs1_2 t) scM1_0 (Memref.isWhole_whole _) scM1_1 (Memref.isWhole_whole _) (notFirst_of_last1 t h1) ((hcond1_1 t).mpr h1) (iblk1 V c 0 t) (iblk1 V c 1 t)
      (scAt1 V c (t.val - 1) (Nat.lt_of_le_of_lt (Nat.sub_le _ _) t.isLt)).1 (scAt1 V c (t.val - 1) (Nat.lt_of_le_of_lt (Nat.sub_le _ _) t.isLt)).2
  else VO1_2.read (Elt F) (VO1_2.writes (Elt F) VO1_2.junk [])

theorem out2At1_C (c : Dev nD) (t : Fin cfg1.N) (h1 : t.val % 200 = 199) :
    out2At1 V c t = out1_C_2 c (grid1.coords t) (ms1_0 t) (hs1_0 t) (ms1_1 t) (hs1_1 t) (ms1_2 t) (hs1_2 t) scM1_0 (Memref.isWhole_whole _) scM1_1 (Memref.isWhole_whole _) (notFirst_of_last1 t h1) ((hcond1_1 t).mpr h1) (iblk1 V c 0 t) (iblk1 V c 1 t)
      (scAt1 V c (t.val - 1) (Nat.lt_of_le_of_lt (Nat.sub_le _ _) t.isLt)).1 (scAt1 V c (t.val - 1) (Nat.lt_of_le_of_lt (Nat.sub_le _ _) t.isLt)).2 := by
  unfold out2At1; exact dif_pos h1

/-! ## The invariant -/

/-- Before position `n`: at the region's entry the class invariant; afterwards the two scratch buffers at what the
    point before left, the untouched scoped buffers and the generator register. -/
def PhiS1 (c : Dev nD) : (n : ℕ) → n ≤ cfg1.N → sProp 𝕄
  | 0, _ => Pipeline.ΦA spec1 c
  | n + 1, hn => iprop(owns (c : Thread nD τ) scM1_0 fullShare (scAt1 V c n hn).1 ∗ owns (c : Thread nD τ) scM1_1 fullShare (scAt1 V c n hn).2
      ∗ rest1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare (scAt1 V c n hn).1 ∗ owns (c : Thread nD τ) scM1_1 fullShare (scAt1 V c n hn).2
      ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1_0 fullShare (scAt1 V c (n - 1) (by omega)).1 ∗ owns (c : Thread nD τ) scM1_1 fullShare (scAt1 V c (n - 1) (by omega)).2
      ∗ rest1 (F := F) c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out2At1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out2At1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms of the two conditions say which case the point is in; the invariant hands
    the run the scratch buffers (at anything at the region's first point, at what the point before left afterwards) and
    takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 400 := lt_of_lt_of_eq t.isLt (show cfg1.N = 400 from N_1)
  by_cases h0 : t.val % 200 = 0
  · have hn1 : ¬cond1_1 (grid1.coords t) := notLast_of_first1 t h0
    rw [Dat.leavesExact_idle (dat1 V c) 2 t (idleAt1_2 t hn1) (noFlush1_2 t hn1)]
    rw [scAt1_A V c t h0]
    unfold accA1 sout1_A_0 sout1_A_1; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_split (F := F) c) $$ HΦ
      icases HΦ' with ⟨HS0, HS1, Hr, Hg⟩
      iapply ((kernelRun1_A c (grid1.coords t) _ _ _ _ _ _ _ _ _ _ ((hcond1_0 t).mpr h0) hn1 (iblk1 V c 0 t) (iblk1 V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover1_A_0 c _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨HS0, HS1, Hr, Hg⟩, Ho, ⟨%d0, H0⟩, ⟨%d1, H1⟩, ⟨%d2, H2⟩⟩
      iapply ((kernelRun1_A c (grid1.coords t) _ _ _ _ _ _ _ _ _ _ ((hcond1_0 t).mpr h0) hn1 (iblk1 V c 0 t) (iblk1 V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover1_A_0 c _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun hz => h0 (by rw [hz])
    by_cases h1 : t.val % 200 = 199
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, out2At1_C V c t h1]
      rw [scAt1_C V c t h0 h1]
      unfold accC1 out1_C_2 sout1_C_0; (try dsimp only)
      rw [PhiS1_castSucc V c t, PhiS1_pos V c _ _ hz]
      iintro ⟨⟨HS0, HS1, Hr, Hg⟩, Ho, ⟨%d0, H0⟩, ⟨%d1, H1⟩, ⟨%d2, H2⟩⟩
      iapply ((kernelRun1_C c (grid1.coords t) _ _ _ _ _ _ _ _ _ _ (notFirst_of_last1 t h1) hc1 (iblk1 V c 0 t) (iblk1 V c 1 t) _ _).2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, HS1⟩
      isplitl [HS0 HS1 Hr Hg]
      · isplitl [HS0]
        · unfold owns; iexists _; isplitr
          swap; · iexact HS0
          ipureintro; exact View.read_writes_of_cover _ _ _ _ _ (scover1_C_0 c _ _ _ _ _ _ _ _ _ _ _ _ _ _ _ _ _)
        isplitl [HS1]; · iexact HS1
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _)
    · have hn1 : ¬cond1_1 (grid1.coords t) := fun h => h1 ((hcond1_1 t).mp h)
      rw [Dat.leavesExact_idle (dat1 V c) 2 t (idleAt1_2 t hn1) (noFlush1_2 t hn1)]
      rw [scAt1_B V c t h0 h1]
      unfold accB1 sout1_B_0; (try dsimp only)
      rw [PhiS1_castSucc V c t, PhiS1_pos V c _ _ hz]
      iintro ⟨⟨HS0, HS1, Hr, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) hn1 (iblk1 V c 0 t) (iblk1 V c 1 t) _ _).2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, HS1⟩
      isplitl [HS0 HS1 Hr Hg]
      · isplitl [HS0]
        · unfold owns; iexists _; isplitr
          swap; · iexact HS0
          ipureintro; exact View.read_writes_of_cover _ _ _ _ _ (scover1_B_0 c _ _ _ _ _ _ _ _ _ _ _ _ _ _ _ _ _)
        isplitl [HS1]; · iexact HS1
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 400 := N_1; omega)]
  iintro ⟨HS0, HS1, Hr, Hg⟩
  iapply (PhiA1_join (F := F) c)
  isplitl [HS0]; · iexists _; iexact HS0
  isplitl [HS1]; · iexists _; iexact HS1
  isplitl [Hr]; · iexact Hr
  iexact Hg

end Cert.Kernel.Fr

end
-- ==== Proof.Kb.Run.lean ====
/-
  The whole program: the contents of every unscoped buffer at each boundary of @main (three stretches of host
  operations, the two kernel regions, a last stretch of host operations), the two regions as segments over their
  proof data, and the run: every weakly fair execution terminates with every unscoped buffer at the last boundary's
  contents.
-/
import proofs.«423693_j10393820857014_2_alg».proof.Proof.Kb.R0Frame
import proofs.«423693_j10393820857014_2_alg».proof.Proof.Kb.R1Frame
import proofs.«423693_j10393820857014_2_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Before region 0: the launch contents after the three host stretches, read at the TensorCore's references. -/
abbrev U3 : (c : Dev nD) → (b : Ref sig .tc) → Buf (Elt F) ((c : Thread nD τ).loc b) := fun c b => V3 m c b
/-- After region 0: its arrays at what the pipeline leaves, every other buffer as entered. -/
def W4 (c : Dev nD) : Valuation τ sig (Elt F) :=
  Pipeline.withArrays spec0 c (V3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb
abbrev U4 : (c : Dev nD) → (b : Ref sig .tc) → Buf (Elt F) ((c : Thread nD τ).loc b) := fun c b => W4 m c b
theorem hF0 (c : Dev nD) (w : Fin cfg0.W) : (dat0 (U3 m) c).arrAt w cfg0.N = U4 m c (Pipeline.arrRef spec0 w) :=
  (W4_arr m c w).symm
theorem hrest0 (c : Dev nD) : ∀ b, b ∉ Finset.univ.image (Pipeline.arrRef spec0) → U4 m c b = U3 m c b :=
  fun b hb => W4_of_ne m c b fun w e => hb (Finset.mem_image.mpr ⟨w, Finset.mem_univ _, e⟩)

/-- After region 1. -/
def W5 (c : Dev nD) : Valuation τ sig (Elt F) :=
  Pipeline.withArrays spec1 c (W4 m c) fun w => (dat1 (U4 m) c).arrAt w cfg1.N
theorem W5_arr (c : Dev nD) (w : Fin cfg1.W) :
    W5 m c (Proc.devRef .tc (Pipeline.arrRef spec1 w)) = (dat1 (U4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev U5 : (c : Dev nD) → (b : Ref sig .tc) → Buf (Elt F) ((c : Thread nD τ).loc b) := fun c b => W5 m c b
theorem hF1 (c : Dev nD) (w : Fin cfg1.W) : (dat1 (U4 m) c).arrAt w cfg1.N = U5 m c (Pipeline.arrRef spec1 w) :=
  (W5_arr m c w).symm
theorem hrest1 (c : Dev nD) : ∀ b, b ∉ Finset.univ.image (Pipeline.arrRef spec1) → U5 m c b = U4 m c b :=
  fun b hb => W5_of_ne m c b fun w e => hb (Finset.mem_image.mpr ⟨w, Finset.mem_univ _, e⟩)

/-- After the last host stretch: the contents the program ends with. -/
abbrev W6 : Dev nD → Valuation τ sig (Elt F) := fun c => StableHlo.after hostOps2 (W5 m c)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U4 m) c
abbrev 𝒱₀ : Variants := Variants.none
abbrev L : GSem nD τ sig → Finset Unit := fun _ => ∅
abbrev lv : GSem nD τ sig → Unit → ℕ := fun _ _ => 0
/-- What rides beside the buffers through every segment: the generator register and the core's debts, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered with every unscoped buffer at the contents before it, left with its
    arrays at what the pipeline wrote back and every other buffer as entered. The generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (U3 m) c
    unfold Pipeline.ΦA at h
    rw [show (pdats m 0 c).Φ 0 = (dat0 (U3 m) c).Φ 0 from rfl]
    iintro ⟨Hp, -, Hr⟩
    iapply h
    isplitl [Hr]; · iexact Hr
    iexact Hp
  hout c := by
    rw [Pipeline.ownSems0_none, show (pdats m 0 c).Φ (Fin.last _) = (dat0 (U3 m) c).Φ (Fin.last cfg0.N) from rfl]
    have h := hout0 (U3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with its
    arrays at what the pipeline wrote back and every other buffer as entered. The generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U4 m) c
    unfold Pipeline.ΦA at h
    rw [show (pdats m 1 c).Φ 0 = (dat1 (U4 m) c).Φ 0 from rfl]
    iintro ⟨Hp, -, Hr⟩
    iapply h
    isplitl [Hr]; · iexact Hr
    iexact Hp
  hout c := by
    rw [Pipeline.ownSems0_none, show (pdats m 1 c).Φ (Fin.last _) = (dat1 (U4 m) c).Φ (Fin.last cfg1.N) from rfl]
    have h := hout1 (U4 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U4 m c) (U5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .region (reg1 m),
    .host (hseg hostOps2 hostOps2_sub hostOps2_fresh (W5 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Fr

end
-- ==== Proof.Kb.Claims.lean ====
/-
  The frame claim read off the run: no host operation writes an argument array and no region's window stages one as
  an output, so each argument's buffer at the last boundary is its launch contents.
-/
import proofs.«423693_j10393820857014_2_alg».proof.Proof.Kb.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W6_of (c : Dev nD) (r : Ref sig .tc) (h : r ∉ hostOps2_W) : W6 m c r = W5 m c r :=
  StableHlo.after_of_writes_sub hostOps2 _ hostOps2_writes h

/-- A buffer no host stretch writes and no window of either region stages ends as launched. -/
theorem W6_arg (c : Dev nD) (r : Ref sig .tc) (h2 : r ∉ hostOps2_W) (h1 : ∀ w, Pipeline.arrRef spec1 w ≠ r) (h0 : ∀ w, Pipeline.arrRef spec0 w ≠ r)
    (h02 : r ∉ hostOps0_2_W) (h01 : r ∉ hostOps0_1_W) (h00 : r ∉ hostOps0_W) : W6 m c r = m ((c : Thread nD τ).loc r) :=
  (W6_of m c r h2).trans <| (W5_of_ne m c r h1).trans <| (W4_of_ne m c r h0).trans <| (V3_of m c r h02).trans <|
    (V2_of m c r h01).trans <| (V1_of m c r h00).trans rfl

/-- Every weakly fair execution terminates, nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W6_arg m c main_arg0 (by decide) (by decide) (by decide) (by decide) (by decide) (by decide)),
    (h c _ (mem_uc main_arg1 (by decide))).trans (W6_arg m c main_arg1 (by decide) (by decide) (by decide) (by decide) (by decide) (by decide)),
    (h c _ (mem_uc main_arg2 (by decide))).trans (W6_arg m c main_arg2 (by decide) (by decide) (by decide) (by decide) (by decide) (by decide)),
    (h c _ (mem_uc main_arg3 (by decide))).trans (W6_arg m c main_arg3 (by decide) (by decide) (by decide) (by decide) (by decide) (by decide)),
    (h c _ (mem_uc main_arg4 (by decide))).trans (W6_arg m c main_arg4 (by decide) (by decide) (by decide) (by decide) (by decide) (by decide)),
    (h c _ (mem_uc main_arg5 (by decide))).trans (W6_arg m c main_arg5 (by decide) (by decide) (by decide) (by decide) (by decide) (by decide)),
    (h c _ (mem_uc main_arg6 (by decide))).trans (W6_arg m c main_arg6 (by decide) (by decide) (by decide) (by decide) (by decide) (by decide))⟩) (run_all m ρ)

end Cert.Kernel.Fr

end
-- ==== Proof.Ki.R0Shared.lean ====
/-
  Region 0 (the node aggregation): what the three control cases of its body share. The grid is 2 x 10, row-major:
  point t has half t / 10 and step t % 10. The body resets its two scratch buffers (the accumulator and the cached
  column-index table) at step 0, adds one tile's one-hot product into the accumulator at every step, and copies the
  accumulator into the output block at step 9.
-/
import proofs.«423693_j10393820857014_2_alg».proof.Proof.Gen.KernelIdeal.Skeleton
import proofs.«423693_j10393820857014_2_alg».proof.Proof.Gen.KernelIdeal.Launch
import proofs.«423693_j10393820857014_2_alg».proof.Proof.Gen.KernelIdeal.Points
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions of the body, over the grid coordinates -/

/-- "this is step 0 of its half": the scalar chain the first `scf.if` tests. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "this is the last step of its half". -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
/-- The accumulator scratch and the column-index scratch, whole scoped buffers of the kernel's own. -/
abbrev scM0_0 : Memref sig .tc .vmem S512x128 .f32 := Memref.whole cc0_scratch0
abbrev scM0_1 : Memref sig .tc .vmem S5000x512 .i32 := Memref.whole cc0_scratch1
abbrev VS0_0 : View sig .tc .vmem S512x128 .f32 := scM0_0.view
abbrev VS0_1 : View sig .tc .vmem S5000x512 .i32 := scM0_1.view
abbrev VO0_2 : View sig .tc .vmem S1x512x128 .f32 := (Memref.whole cc0_stg2_0 : Memref sig .tc .vmem S1x512x128 .f32).view

end Cert.KernelIdeal.Fr

end
-- ==== Proof.Ki.R0RunA.lean ====
/-
  Region 0, case A (step 0 of a half): both scratch buffers are overwritten whole before they are read, so the
  body runs from ANY contents of them; the output block is not touched.
-/
import proofs.«423693_j10393820857014_2_alg».proof.Proof.Ki.R0Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a step-0 point: from the two input blocks `x0` (the tile of rows) and `x1` (the tile of graph ids),
    the output's staging buffer at anything (`xi2`, handed back untouched) and the two scratch buffers at anything, it
    runs, and leaves in each scratch the pieces its stores wrote (found by the run). -/
noncomputable def kernelRun0_A (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i)
    (x0 : Vec F S1x5000x128 .f32) (x1 : Vec F S1x5000x1 .i32) :
    Σ' (LS0 : List (View.Piece (Elt F) S512x128 .f32)), { LS1 : List (View.Piece (Elt F) S5000x512 .i32) //
      ∀ (xi2 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__node_agg_kernel i arg2 harg2 arg3 harg3 arg4 harg4 arg5 harg5 arg6 harg6) K } := by
  refine ⟨?_, ?_, fun xi2 E K => ?run⟩
  case run =>
    simp only [cc0__node_agg_kernel_eq_skeleton]; unfold cc0__node_agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.KernelIdeal.Fr

end
-- ==== Proof.Ki.R0RunB.lean ====
/-
  Region 0, case B (a middle step of a half): the accumulator is read and overwritten whole, the column-index table
  only read; the output block is not touched.
-/
import proofs.«423693_j10393820857014_2_alg».proof.Proof.Ki.R0Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a middle point: the accumulator comes in at `xs0` and the index table at `xs1` (what the point before
    left); the accumulator goes out with the pieces the one store wrote, the table as it came. -/
noncomputable def kernelRun0_B (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : ¬cond0_1 i)
    (x0 : Vec F S1x5000x128 .f32) (x1 : Vec F S1x5000x1 .i32) (xs0 : Vec F S512x128 .f32) (xs1 : Vec F S5000x512 .i32) :
    { LS0 : List (View.Piece (Elt F) S512x128 .f32) //
      ∀ (xi2 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__node_agg_kernel i arg2 harg2 arg3 harg3 arg4 harg4 arg5 harg5 arg6 harg6) K } := by
  refine ⟨?_, fun xi2 E K => ?run⟩
  case run =>
    simp only [cc0__node_agg_kernel_eq_skeleton]; unfold cc0__node_agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; isplitr; · ipureintro; exact harg6.read_unread _
    iexact HS1

end Cert.KernelIdeal.Fr

end
-- ==== Proof.Ki.R0RunC.lean ====
/-
  Region 0, case C (the last step of a half): as a middle step, and then the accumulator is copied whole into the
  output block.
-/
import proofs.«423693_j10393820857014_2_alg».proof.Proof.Ki.R0Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a last point: as case B, and the output's staging buffer (at anything before) goes out with the
    pieces the one store wrote. -/
noncomputable def kernelRun0_C (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i)
    (x0 : Vec F S1x5000x128 .f32) (x1 : Vec F S1x5000x1 .i32) (xs0 : Vec F S512x128 .f32) (xs1 : Vec F S5000x512 .i32) :
    Σ' (L2 : List (View.Piece (Elt F) S1x512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc0__node_agg_kernel i arg2 harg2 arg3 harg3 arg4 harg4 arg5 harg5 arg6 harg6) K } := by
  refine ⟨?_, ?_, fun E K => ?run⟩
  case run =>
    simp only [cc0__node_agg_kernel_eq_skeleton]; unfold cc0__node_agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    iexists _; isplitr; · ipureintro; exact harg6.read_unread _
    iexact HS1

end Cert.KernelIdeal.Fr

end
-- ==== Proof.Ki.R0Rest.lean ====
/-
  Region 0: the class invariant (every scoped buffer no window stages, whole at some contents, and the generator
  register) split into the two scratch buffers this kernel names and the rest, which it never touches.
-/
import proofs.«423693_j10393820857014_2_alg».proof.Proof.Ki.R0Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers of the core that region 0 neither stages nor names (they are region 1's), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_split (c : Dev nD) :
    (Pipeline.ΦA spec0 c : sProp 𝕄) ⊢ iprop((∃ d, owns (c : Thread nD τ) scM0_0 fullShare d) ∗ (∃ d, owns (c : Thread nD τ) scM0_1 fullShare d) ∗ rest0 (F := F) c ∗ (∃ r, prngReg c r)) := by
  unfold Pipeline.ΦA rest0; rw [scopedRest0_eq]; simp only [scM0_0, scM0_1, owns_whole]
  iintro ⟨⟨H0, H1, Hr⟩, Hg⟩
  isplitl [H0]; · iexact H0
  isplitl [H1]; · iexact H1
  isplitl [Hr]; · iexact Hr
  iexact Hg

theorem PhiA0_join (c : Dev nD) :
    iprop((∃ d, owns (c : Thread nD τ) scM0_0 fullShare d) ∗ (∃ d, owns (c : Thread nD τ) scM0_1 fullShare d) ∗ rest0 (F := F) c ∗ (∃ r, prngReg c r)) ⊢ (Pipeline.ΦA spec0 c : sProp 𝕄) := by
  unfold Pipeline.ΦA rest0; rw [scopedRest0_eq]; simp only [scM0_0, scM0_1, owns_whole]
  iintro ⟨H0, H1, Hr, Hg⟩
  isplitr [Hg]
  · isplitl [H0]; · iexact H0
    isplitl [H1]; · iexact H1
    iexact Hr
  iexact Hg

end Cert.KernelIdeal.Fr

end
-- ==== Proof.Ki.R0Frame.lean ====
/-
  Region 0 (the node aggregation): what its scratch buffers and its output block hold point by point, the proof data
  of its pipeline, and the body obligation at every point.

  The grid is 2 x 10. Before a point that is not step 0 of its half the accumulator scratch holds the sum of the
  one-hot products of the half's earlier tiles and the index scratch the column-index table; at step 0 both are
  overwritten before they are read, so nothing is asked of them there. The output block of a half is written at its
  last step only, from the accumulator; at every other point the window is idle and its buffer handed back untouched.
-/
import proofs.«423693_j10393820857014_2_alg».proof.Proof.Ki.R0RunA
import proofs.«423693_j10393820857014_2_alg».proof.Proof.Ki.R0RunB
import proofs.«423693_j10393820857014_2_alg».proof.Proof.Ki.R0RunC
import proofs.«423693_j10393820857014_2_alg».proof.Proof.Ki.R0Rest
import Idealize.ShloMosaic.Lib.Pipeline.FrameBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the pieces its stores wrote, read back -/

theorem scover0_A_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i) (x0 : Vec F S1x5000x128 .f32) (x1 : Vec F S1x5000x1 .i32) (y : S512x128.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S512x128.size (by sl_kernel_rfl) y
theorem scover0_A_1 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i) (x0 : Vec F S1x5000x128 .f32) (x1 : Vec F S1x5000x1 .i32) (y : S5000x512.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S5000x512.size (by sl_kernel_rfl) y
/-- The accumulator after a step-0 point. -/
def sout0_A_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i) (x0 : Vec F S1x5000x128 .f32) (x1 : Vec F S1x5000x1 .i32) : Vec F S512x128 .f32 :=
  VS0_0.read (Elt F) (VS0_0.writes (Elt F) VS0_0.junk (kernelRun0_A c i arg2 harg2 arg3 harg3 arg4 harg4 arg5 harg5 arg6 harg6 hc0 hc1 x0 x1).1)
/-- The column-index table after a step-0 point. -/
def sout0_A_1 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i) (x0 : Vec F S1x5000x128 .f32) (x1 : Vec F S1x5000x1 .i32) : Vec F S5000x512 .i32 :=
  VS0_1.read (Elt F) (VS0_1.writes (Elt F) VS0_1.junk (kernelRun0_A c i arg2 harg2 arg3 harg3 arg4 harg4 arg5 harg5 arg6 harg6 hc0 hc1 x0 x1).2.1)

theorem scover0_B_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : ¬cond0_1 i) (x0 : Vec F S1x5000x128 .f32) (x1 : Vec F S1x5000x1 .i32) (xs0 : Vec F S512x128 .f32) (xs1 : Vec F S5000x512 .i32) (y : S512x128.Idx) :
    ∃ pc ∈ (kernelRun0_B c i arg2 harg2 arg3 harg3 arg4 harg4 arg5 harg5 arg6 harg6 hc0 hc1 x0 x1 xs0 xs1).1, y ∈ pc.1.set :=
  View.cover_of_tiledL (kernelRun0_B c i arg2 harg2 arg3 harg3 arg4 harg4 arg5 harg5 arg6 harg6 hc0 hc1 x0 x1 xs0 xs1).1 S512x128.size (by sl_kernel_rfl) y
/-- The accumulator after a middle point, over what the point before left. -/
def sout0_B_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : ¬cond0_1 i) (x0 : Vec F S1x5000x128 .f32) (x1 : Vec F S1x5000x1 .i32) (xs0 : Vec F S512x128 .f32) (xs1 : Vec F S5000x512 .i32) : Vec F S512x128 .f32 :=
  VS0_0.read (Elt F) (VS0_0.writes (Elt F) VS0_0.junk (kernelRun0_B c i arg2 harg2 arg3 harg3 arg4 harg4 arg5 harg5 arg6 harg6 hc0 hc1 x0 x1 xs0 xs1).1)

theorem cover0_C_2 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i) (x0 : Vec F S1x5000x128 .f32) (x1 : Vec F S1x5000x1 .i32) (xs0 : Vec F S512x128 .f32) (xs1 : Vec F S5000x512 .i32) (y : S1x512x128.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1x512x128.size (by sl_kernel_rfl) y
theorem scover0_C_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i) (x0 : Vec F S1x5000x128 .f32) (x1 : Vec F S1x5000x1 .i32) (xs0 : Vec F S512x128 .f32) (xs1 : Vec F S5000x512 .i32) (y : S512x128.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S512x128.size (by sl_kernel_rfl) y
/-- The output block a last point writes. -/
def out0_C_2 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i) (x0 : Vec F S1x5000x128 .f32) (x1 : Vec F S1x5000x1 .i32) (xs0 : Vec F S512x128 .f32) (xs1 : Vec F S5000x512 .i32) : Vec F S1x512x128 .f32 :=
  VO0_2.read (Elt F) (VO0_2.writes (Elt F) VO0_2.junk (kernelRun0_C c i arg2 harg2 arg3 harg3 arg4 harg4 arg5 harg5 arg6 harg6 hc0 hc1 x0 x1 xs0 xs1).1)
/-- The accumulator after a last point. -/
def sout0_C_0 (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i) (x0 : Vec F S1x5000x128 .f32) (x1 : Vec F S1x5000x1 .i32) (xs0 : Vec F S512x128 .f32) (xs1 : Vec F S5000x512 .i32) : Vec F S512x128 .f32 :=
  VS0_0.read (Elt F) (VS0_0.writes (Elt F) VS0_0.junk (kernelRun0_C c i arg2 harg2 arg3 harg3 arg4 harg4 arg5 harg5 arg6 harg6 hc0 hc1 x0 x1 xs0 xs1).2.1)

/-! ## The scratch buffers point by point -/

theorem notLast_of_first (t : Fin cfg0.N) (h0 : t.val % 10 = 0) : ¬cond0_1 (grid0.coords t) :=
  fun h => by have := (hcond0_1 t).mp h; omega
theorem notFirst_of_last (t : Fin cfg0.N) (h1 : t.val % 10 = 9) : ¬cond0_0 (grid0.coords t) :=
  fun h => by have := (hcond0_0 t).mp h; omega

/-- (accumulator, index table) after a step-0 point. -/
def accA0 (c : Dev nD) (t : Fin cfg0.N) (h0 : t.val % 10 = 0) : Vec F S512x128 .f32 × Vec F S5000x512 .i32 :=
  (sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notLast_of_first t h0) (iblk0 V c 0 t) (iblk0 V c 1 t),
   sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (notLast_of_first t h0) (iblk0 V c 0 t) (iblk0 V c 1 t))
/-- after a middle point, over the pair `p` the point before left. -/
def accB0 (c : Dev nD) (t : Fin cfg0.N) (h0 : ¬t.val % 10 = 0) (h1 : ¬t.val % 10 = 9) (p : Vec F S512x128 .f32 × Vec F S5000x512 .i32) :
    Vec F S512x128 .f32 × Vec F S5000x512 .i32 :=
  (sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) p.1 p.2, p.2)
/-- after a last point. -/
def accC0 (c : Dev nD) (t : Fin cfg0.N) (h1 : t.val % 10 = 9) (p : Vec F S512x128 .f32 × Vec F S5000x512 .i32) :
    Vec F S512x128 .f32 × Vec F S5000x512 .i32 :=
  (sout0_C_0 c (grid0.coords t) (ms0_0 t) (hs0_0 t) (ms0_1 t) (hs0_1 t) (ms0_2 t) (hs0_2 t) scM0_0 (Memref.isWhole_whole _) scM0_1 (Memref.isWhole_whole _) (notFirst_of_last t h1) ((hcond0_1 t).mpr h1) (iblk0 V c 0 t) (iblk0 V c 1 t) p.1 p.2, p.2)

/-- THE ACCUMULATION: the two scratch buffers after the body at position `n`, by recursion on the point. -/
def scAt0 (c : Dev nD) : (n : ℕ) → n < cfg0.N → Vec F S512x128 .f32 × Vec F S5000x512 .i32
  | 0, hn => accA0 V c ⟨0, hn⟩ (Nat.zero_mod _)
  | n + 1, hn =>
    if h0 : (n + 1) % 10 = 0 then accA0 V c ⟨n + 1, hn⟩ h0
    else if h1 : (n + 1) % 10 = 9 then accC0 V c ⟨n + 1, hn⟩ h1 (scAt0 c n (Nat.lt_of_succ_lt hn))
    else accB0 V c ⟨n + 1, hn⟩ h0 h1 (scAt0 c n (Nat.lt_of_succ_lt hn))

theorem scAt0_A (c : Dev nD) (t : Fin cfg0.N) (h0 : t.val % 10 = 0) : scAt0 V c t.val t.isLt = accA0 V c t h0 := by
  obtain ⟨n, hn⟩ := t
  cases n with
  | zero => rfl
  | succ n => exact dif_pos h0
theorem scAt0_B (c : Dev nD) (t : Fin cfg0.N) (h0 : ¬t.val % 10 = 0) (h1 : ¬t.val % 10 = 9) :
    scAt0 V c t.val t.isLt = accB0 V c t h0 h1 (scAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem scAt0_C (c : Dev nD) (t : Fin cfg0.N) (h0 : ¬t.val % 10 = 0) (h1 : t.val % 10 = 9) :
    scAt0 V c t.val t.isLt = accC0 V c t h1 (scAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's buffer holds after the body: at a last point the block it wrote; elsewhere the window
    is idle and this value is never consulted. -/
def out2At0 (c : Dev nD) (t : Fin cfg0.N) : Vec F S1x512x128 .f32 :=
  if h1 : t.val % 10 = 9 then
    out0_C_2 c (grid0.coords t) (ms0_0 t) (hs0_0 t) (ms0_1 t) (hs0_1 t) (ms0_2 t) (hs0_2 t) scM0_0 (Memref.isWhole_whole _) scM0_1 (Memref.isWhole_whole _) (notFirst_of_last t h1) ((hcond0_1 t).mpr h1) (iblk0 V c 0 t) (iblk0 V c 1 t)
      (scAt0 V c (t.val - 1) (Nat.lt_of_le_of_lt (Nat.sub_le _ _) t.isLt)).1 (scAt0 V c (t.val - 1) (Nat.lt_of_le_of_lt (Nat.sub_le _ _) t.isLt)).2
  else VO0_2.read (Elt F) (VO0_2.writes (Elt F) VO0_2.junk [])

theorem out2At0_C (c : Dev nD) (t : Fin cfg0.N) (h1 : t.val % 10 = 9) :
    out2At0 V c t = out0_C_2 c (grid0.coords t) (ms0_0 t) (hs0_0 t) (ms0_1 t) (hs0_1 t) (ms0_2 t) (hs0_2 t) scM0_0 (Memref.isWhole_whole _) scM0_1 (Memref.isWhole_whole _) (notFirst_of_last t h1) ((hcond0_1 t).mpr h1) (iblk0 V c 0 t) (iblk0 V c 1 t)
      (scAt0 V c (t.val - 1) (Nat.lt_of_le_of_lt (Nat.sub_le _ _) t.isLt)).1 (scAt0 V c (t.val - 1) (Nat.lt_of_le_of_lt (Nat.sub_le _ _) t.isLt)).2 := by
  unfold out2At0; exact dif_pos h1

/-! ## The invariant -/

/-- Before position `n`: at the region's entry the class invariant; afterwards the two scratch buffers at what the
    point before left, the untouched scoped buffers and the generator register. -/
def PhiS0 (c : Dev nD) : (n : ℕ) → n ≤ cfg0.N → sProp 𝕄
  | 0, _ => Pipeline.ΦA spec0 c
  | n + 1, hn => iprop(owns (c : Thread nD τ) scM0_0 fullShare (scAt0 V c n hn).1 ∗ owns (c : Thread nD τ) scM0_1 fullShare (scAt0 V c n hn).2
      ∗ rest0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (scAt0 V c n hn).1 ∗ owns (c : Thread nD τ) scM0_1 fullShare (scAt0 V c n hn).2
      ∗ rest0 (F := F) c ∗ (∃ r, prngReg c r)) := rfl
theorem PhiS0_pos (c : Dev nD) (n : ℕ) (h : n ≤ cfg0.N) (hz : n ≠ 0) :
    PhiS0 V c n h = iprop(owns (c : Thread nD τ) scM0_0 fullShare (scAt0 V c (n - 1) (by omega)).1 ∗ owns (c : Thread nD τ) scM0_1 fullShare (scAt0 V c (n - 1) (by omega)).2
      ∗ rest0 (F := F) c ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out2At0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out2At0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms of the two conditions say which case the point is in; the invariant hands
    the run the scratch buffers (at anything at the region's first point, at what the point before left afterwards) and
    takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 20 := lt_of_lt_of_eq t.isLt (show cfg0.N = 20 from N_0)
  by_cases h0 : t.val % 10 = 0
  · have hn1 : ¬cond0_1 (grid0.coords t) := notLast_of_first t h0
    rw [Dat.leavesExact_idle (dat0 V c) 2 t (idleAt0_2 t hn1) (noFlush0_2 t hn1)]
    rw [scAt0_A V c t h0]
    unfold accA0 sout0_A_0 sout0_A_1; (try dsimp only)
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA0_split (F := F) c) $$ HΦ
      icases HΦ' with ⟨HS0, HS1, Hr, Hg⟩
      iapply ((kernelRun0_A c (grid0.coords t) _ _ _ _ _ _ _ _ _ _ ((hcond0_0 t).mpr h0) hn1 (iblk0 V c 0 t) (iblk0 V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover0_A_0 c _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨HS0, HS1, Hr, Hg⟩, Ho, ⟨%d0, H0⟩, ⟨%d1, H1⟩, ⟨%d2, H2⟩⟩
      iapply ((kernelRun0_A c (grid0.coords t) _ _ _ _ _ _ _ _ _ _ ((hcond0_0 t).mpr h0) hn1 (iblk0 V c 0 t) (iblk0 V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover0_A_0 c _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun hz => h0 (by rw [hz])
    by_cases h1 : t.val % 10 = 9
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, out2At0_C V c t h1]
      rw [scAt0_C V c t h0 h1]
      unfold accC0 out0_C_2 sout0_C_0; (try dsimp only)
      rw [PhiS0_castSucc V c t, PhiS0_pos V c _ _ hz]
      iintro ⟨⟨HS0, HS1, Hr, Hg⟩, Ho, ⟨%d0, H0⟩, ⟨%d1, H1⟩, ⟨%d2, H2⟩⟩
      iapply ((kernelRun0_C c (grid0.coords t) _ _ _ _ _ _ _ _ _ _ (notFirst_of_last t h1) hc1 (iblk0 V c 0 t) (iblk0 V c 1 t) _ _).2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, HS1⟩
      isplitl [HS0 HS1 Hr Hg]
      · isplitl [HS0]
        · unfold owns; iexists _; isplitr
          swap; · iexact HS0
          ipureintro; exact View.read_writes_of_cover _ _ _ _ _ (scover0_C_0 c _ _ _ _ _ _ _ _ _ _ _ _ _ _ _ _ _)
        isplitl [HS1]; · iexact HS1
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · have hn1 : ¬cond0_1 (grid0.coords t) := fun h => h1 ((hcond0_1 t).mp h)
      rw [Dat.leavesExact_idle (dat0 V c) 2 t (idleAt0_2 t hn1) (noFlush0_2 t hn1)]
      rw [scAt0_B V c t h0 h1]
      unfold accB0 sout0_B_0; (try dsimp only)
      rw [PhiS0_castSucc V c t, PhiS0_pos V c _ _ hz]
      iintro ⟨⟨HS0, HS1, Hr, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) hn1 (iblk0 V c 0 t) (iblk0 V c 1 t) _ _).2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, HS1⟩
      isplitl [HS0 HS1 Hr Hg]
      · isplitl [HS0]
        · unfold owns; iexists _; isplitr
          swap; · iexact HS0
          ipureintro; exact View.read_writes_of_cover _ _ _ _ _ (scover0_B_0 c _ _ _ _ _ _ _ _ _ _ _ _ _ _ _ _ _)
        isplitl [HS1]; · iexact HS1
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 20 := N_0; omega)]
  iintro ⟨HS0, HS1, Hr, Hg⟩
  iapply (PhiA0_join (F := F) c)
  isplitl [HS0]; · iexists _; iexact HS0
  isplitl [HS1]; · iexists _; iexact HS1
  isplitl [Hr]; · iexact Hr
  iexact Hg

end Cert.KernelIdeal.Fr

end
-- ==== Proof.Ki.R1Shared.lean ====
/-
  Region 1 (the edge aggregation): what the three control cases of its body share. The grid is 2 x 200, row-major:
  point t has half t / 200 and step t % 200. The body resets its two scratch buffers (the accumulator and the cached
  column-index table) at step 0, adds one tile's one-hot product into the accumulator at every step, and copies the
  accumulator into the output block at step 199.
-/
import proofs.«423693_j10393820857014_2_alg».proof.Proof.Gen.KernelIdeal.Skeleton
import proofs.«423693_j10393820857014_2_alg».proof.Proof.Gen.KernelIdeal.Launch
import proofs.«423693_j10393820857014_2_alg».proof.Proof.Gen.KernelIdeal.Points
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions of the body, over the grid coordinates -/

/-- "this is step 0 of its half": the scalar chain the first `scf.if` tests. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 200 = 0 :=
  (by decide +kernel : ∀ t : Fin grid1.N, cond1_0 (grid1.coords t) ↔ t.val % 200 = 0)

/-- "this is the last step of its half". -/
abbrev cond1_1 (i : grid1.Coords) : Prop := k1_cond2 i = 1#1
theorem hcond1_1 : ∀ t : Fin cfg1.N, cond1_1 (grid1.coords t) ↔ t.val % 200 = 199 :=
  (by decide +kernel : ∀ t : Fin grid1.N, cond1_1 (grid1.coords t) ↔ t.val % 200 = 199)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1x4000x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x32 .f32 := win1_2.stage (cfg1.slots t 2)
abbrev hs1_2 (t : Fin cfg1.N) : (ms1_2 t).IsWhole := hstage1_2 ((cfg1.slots t 2).cast nbuf1_2)
/-- The accumulator scratch and the column-index scratch, whole scoped buffers of the kernel's own. -/
abbrev scM1_0 : Memref sig .tc .vmem S512x32 .f32 := Memref.whole cc1_scratch0
abbrev scM1_1 : Memref sig .tc .vmem S4000x512 .i32 := Memref.whole cc1_scratch1
abbrev VS1_0 : View sig .tc .vmem S512x32 .f32 := scM1_0.view
abbrev VS1_1 : View sig .tc .vmem S4000x512 .i32 := scM1_1.view
abbrev VO1_2 : View sig .tc .vmem S1x512x32 .f32 := (Memref.whole cc1_stg2_0 : Memref sig .tc .vmem S1x512x32 .f32).view

end Cert.KernelIdeal.Fr

end
-- ==== Proof.Ki.R1RunA.lean ====
/-
  Region 1, case A (step 0 of a half): both scratch buffers are overwritten whole before they are read, so the
  body runs from ANY contents of them; the output block is not touched.
-/
import proofs.«423693_j10393820857014_2_alg».proof.Proof.Ki.R1Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a step-0 point: from the two input blocks `x0` (the tile of rows) and `x1` (the tile of graph ids),
    the output's staging buffer at anything (`xi2`, handed back untouched) and the two scratch buffers at anything, it
    runs, and leaves in each scratch the pieces its stores wrote (found by the run). -/
noncomputable def kernelRun1_A (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i)
    (x0 : Vec F S1x4000x32 .f32) (x1 : Vec F S1x4000x1 .i32) :
    Σ' (LS0 : List (View.Piece (Elt F) S512x32 .f32)), { LS1 : List (View.Piece (Elt F) S4000x512 .i32) //
      ∀ (xi2 : Vec F S1x512x32 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__edge_agg_kernel i arg2 harg2 arg3 harg3 arg4 harg4 arg5 harg5 arg6 harg6) K } := by
  refine ⟨?_, ?_, fun xi2 E K => ?run⟩
  case run =>
    simp only [cc1__edge_agg_kernel_eq_skeleton]; unfold cc1__edge_agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.KernelIdeal.Fr

end
-- ==== Proof.Ki.R1RunB.lean ====
/-
  Region 1, case B (a middle step of a half): the accumulator is read and overwritten whole, the column-index table
  only read; the output block is not touched.
-/
import proofs.«423693_j10393820857014_2_alg».proof.Proof.Ki.R1Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a middle point: the accumulator comes in at `xs0` and the index table at `xs1` (what the point before
    left); the accumulator goes out with the pieces the one store wrote, the table as it came. -/
noncomputable def kernelRun1_B (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : ¬cond1_1 i)
    (x0 : Vec F S1x4000x32 .f32) (x1 : Vec F S1x4000x1 .i32) (xs0 : Vec F S512x32 .f32) (xs1 : Vec F S4000x512 .i32) :
    { LS0 : List (View.Piece (Elt F) S512x32 .f32) //
      ∀ (xi2 : Vec F S1x512x32 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc1__edge_agg_kernel i arg2 harg2 arg3 harg3 arg4 harg4 arg5 harg5 arg6 harg6) K } := by
  refine ⟨?_, fun xi2 E K => ?run⟩
  case run =>
    simp only [cc1__edge_agg_kernel_eq_skeleton]; unfold cc1__edge_agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; isplitr; · ipureintro; exact harg6.read_unread _
    iexact HS1

end Cert.KernelIdeal.Fr

end
-- ==== Proof.Ki.R1RunC.lean ====
/-
  Region 1, case C (the last step of a half): as a middle step, and then the accumulator is copied whole into the
  output block.
-/
import proofs.«423693_j10393820857014_2_alg».proof.Proof.Ki.R1Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a last point: as case B, and the output's staging buffer (at anything before) goes out with the
    pieces the one store wrote. -/
noncomputable def kernelRun1_C (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i)
    (x0 : Vec F S1x4000x32 .f32) (x1 : Vec F S1x4000x1 .i32) (xs0 : Vec F S512x32 .f32) (xs1 : Vec F S4000x512 .i32) :
    Σ' (L2 : List (View.Piece (Elt F) S1x512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ owns (c : Thread nD τ) arg6 fullShare xs1) -∗ K ⟨⟩))
          ⊢ wp frame (wpE (defs₀ (F := F)) Variants.none c none) E (cc1__edge_agg_kernel i arg2 harg2 arg3 harg3 arg4 harg4 arg5 harg5 arg6 harg6) K } := by
  refine ⟨?_, ?_, fun E K => ?run⟩
  case run =>
    simp only [cc1__edge_agg_kernel_eq_skeleton]; unfold cc1__edge_agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    iexists _; isplitr; · ipureintro; exact harg6.read_unread _
    iexact HS1

end Cert.KernelIdeal.Fr

end
-- ==== Proof.Ki.R1Rest.lean ====
/-
  Region 1: the class invariant split into the two scratch buffers this kernel names and the rest (region 0's scoped
  buffers), which it never touches. The two scratch buffers come last in the list of the core's scoped buffers.
-/
import proofs.«423693_j10393820857014_2_alg».proof.Proof.Ki.R1Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers of the core that region 1 neither stages nor names (they are region 0's), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ rest1 (F := F) c ∗ (∃ r, prngReg c r)) := by
  unfold Pipeline.ΦA rest1; rw [scopedRest1_eq]; simp only [scM1_0, scM1_1, owns_whole]
  iintro ⟨⟨R1, R2, R3, R4, R5, R6, R7, R8, H0, H1⟩, Hg⟩
  isplitl [H0]; · iexact H0
  isplitl [H1]; · iexact H1
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg

theorem PhiA1_join (c : Dev nD) :
    iprop((∃ d, owns (c : Thread nD τ) scM1_0 fullShare d) ∗ (∃ d, owns (c : Thread nD τ) scM1_1 fullShare d) ∗ rest1 (F := F) c ∗ (∃ r, prngReg c r)) ⊢ (Pipeline.ΦA spec1 c : sProp 𝕄) := by
  unfold Pipeline.ΦA rest1; rw [scopedRest1_eq]; simp only [scM1_0, scM1_1, owns_whole]
  iintro ⟨H0, H1, ⟨R1, R2, R3, R4, R5, R6, R7, R8⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [H0]; · iexact H0
    iexact H1
  iexact Hg

end Cert.KernelIdeal.Fr

end
-- ==== Proof.Ki.R1Frame.lean ====
/-
  Region 1 (the edge aggregation): what its scratch buffers and its output block hold point by point, the proof data
  of its pipeline, and the body obligation at every point.

  The grid is 2 x 200. Before a point that is not step 0 of its half the accumulator scratch holds the sum of the
  one-hot products of the half's earlier tiles and the index scratch the column-index table; at step 0 both are
  overwritten before they are read, so nothing is asked of them there. The output block of a half is written at its
  last step only, from the accumulator; at every other point the window is idle and its buffer handed back untouched.
-/
import proofs.«423693_j10393820857014_2_alg».proof.Proof.Ki.R1RunA
import proofs.«423693_j10393820857014_2_alg».proof.Proof.Ki.R1RunB
import proofs.«423693_j10393820857014_2_alg».proof.Proof.Ki.R1RunC
import proofs.«423693_j10393820857014_2_alg».proof.Proof.Ki.R1Rest
import Idealize.ShloMosaic.Lib.Pipeline.FrameBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the pieces its stores wrote, read back -/

theorem scover1_A_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i) (x0 : Vec F S1x4000x32 .f32) (x1 : Vec F S1x4000x1 .i32) (y : S512x32.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S512x32.size (by sl_kernel_rfl) y
theorem scover1_A_1 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i) (x0 : Vec F S1x4000x32 .f32) (x1 : Vec F S1x4000x1 .i32) (y : S4000x512.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S4000x512.size (by sl_kernel_rfl) y
/-- The accumulator after a step-0 point. -/
def sout1_A_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i) (x0 : Vec F S1x4000x32 .f32) (x1 : Vec F S1x4000x1 .i32) : Vec F S512x32 .f32 :=
  VS1_0.read (Elt F) (VS1_0.writes (Elt F) VS1_0.junk (kernelRun1_A c i arg2 harg2 arg3 harg3 arg4 harg4 arg5 harg5 arg6 harg6 hc0 hc1 x0 x1).1)
/-- The column-index table after a step-0 point. -/
def sout1_A_1 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i) (x0 : Vec F S1x4000x32 .f32) (x1 : Vec F S1x4000x1 .i32) : Vec F S4000x512 .i32 :=
  VS1_1.read (Elt F) (VS1_1.writes (Elt F) VS1_1.junk (kernelRun1_A c i arg2 harg2 arg3 harg3 arg4 harg4 arg5 harg5 arg6 harg6 hc0 hc1 x0 x1).2.1)

theorem scover1_B_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : ¬cond1_1 i) (x0 : Vec F S1x4000x32 .f32) (x1 : Vec F S1x4000x1 .i32) (xs0 : Vec F S512x32 .f32) (xs1 : Vec F S4000x512 .i32) (y : S512x32.Idx) :
    ∃ pc ∈ (kernelRun1_B c i arg2 harg2 arg3 harg3 arg4 harg4 arg5 harg5 arg6 harg6 hc0 hc1 x0 x1 xs0 xs1).1, y ∈ pc.1.set :=
  View.cover_of_tiledL (kernelRun1_B c i arg2 harg2 arg3 harg3 arg4 harg4 arg5 harg5 arg6 harg6 hc0 hc1 x0 x1 xs0 xs1).1 S512x32.size (by sl_kernel_rfl) y
/-- The accumulator after a middle point, over what the point before left. -/
def sout1_B_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : ¬cond1_1 i) (x0 : Vec F S1x4000x32 .f32) (x1 : Vec F S1x4000x1 .i32) (xs0 : Vec F S512x32 .f32) (xs1 : Vec F S4000x512 .i32) : Vec F S512x32 .f32 :=
  VS1_0.read (Elt F) (VS1_0.writes (Elt F) VS1_0.junk (kernelRun1_B c i arg2 harg2 arg3 harg3 arg4 harg4 arg5 harg5 arg6 harg6 hc0 hc1 x0 x1 xs0 xs1).1)

theorem cover1_C_2 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i) (x0 : Vec F S1x4000x32 .f32) (x1 : Vec F S1x4000x1 .i32) (xs0 : Vec F S512x32 .f32) (xs1 : Vec F S4000x512 .i32) (y : S1x512x32.Idx) :
    ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S1x512x32.size (by sl_kernel_rfl) y
theorem scover1_C_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i) (x0 : Vec F S1x4000x32 .f32) (x1 : Vec F S1x4000x1 .i32) (xs0 : Vec F S512x32 .f32) (xs1 : Vec F S4000x512 .i32) (y : S512x32.Idx) :
    ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S512x32.size (by sl_kernel_rfl) y
/-- The output block a last point writes. -/
def out1_C_2 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i) (x0 : Vec F S1x4000x32 .f32) (x1 : Vec F S1x4000x1 .i32) (xs0 : Vec F S512x32 .f32) (xs1 : Vec F S4000x512 .i32) : Vec F S1x512x32 .f32 :=
  VO1_2.read (Elt F) (VO1_2.writes (Elt F) VO1_2.junk (kernelRun1_C c i arg2 harg2 arg3 harg3 arg4 harg4 arg5 harg5 arg6 harg6 hc0 hc1 x0 x1 xs0 xs1).1)
/-- The accumulator after a last point. -/
def sout1_C_0 (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i) (x0 : Vec F S1x4000x32 .f32) (x1 : Vec F S1x4000x1 .i32) (xs0 : Vec F S512x32 .f32) (xs1 : Vec F S4000x512 .i32) : Vec F S512x32 .f32 :=
  VS1_0.read (Elt F) (VS1_0.writes (Elt F) VS1_0.junk (kernelRun1_C c i arg2 harg2 arg3 harg3 arg4 harg4 arg5 harg5 arg6 harg6 hc0 hc1 x0 x1 xs0 xs1).2.1)

/-! ## The scratch buffers point by point -/

theorem notLast_of_first1 (t : Fin cfg1.N) (h0 : t.val % 200 = 0) : ¬cond1_1 (grid1.coords t) :=
  fun h => by have := (hcond1_1 t).mp h; omega
theorem notFirst_of_last1 (t : Fin cfg1.N) (h1 : t.val % 200 = 199) : ¬cond1_0 (grid1.coords t) :=
  fun h => by have := (hcond1_0 t).mp h; omega

/-- (accumulator, index table) after a step-0 point. -/
def accA1 (c : Dev nD) (t : Fin cfg1.N) (h0 : t.val % 200 = 0) : Vec F S512x32 .f32 × Vec F S4000x512 .i32 :=
  (sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (notLast_of_first1 t h0) (iblk1 V c 0 t) (iblk1 V c 1 t),
   sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (notLast_of_first1 t h0) (iblk1 V c 0 t) (iblk1 V c 1 t))
/-- after a middle point, over the pair `p` the point before left. -/
def accB1 (c : Dev nD) (t : Fin cfg1.N) (h0 : ¬t.val % 200 = 0) (h1 : ¬t.val % 200 = 199) (p : Vec F S512x32 .f32 × Vec F S4000x512 .i32) :
    Vec F S512x32 .f32 × Vec F S4000x512 .i32 :=
  (sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) p.1 p.2, p.2)
/-- after a last point. -/
def accC1 (c : Dev nD) (t : Fin cfg1.N) (h1 : t.val % 200 = 199) (p : Vec F S512x32 .f32 × Vec F S4000x512 .i32) :
    Vec F S512x32 .f32 × Vec F S4000x512 .i32 :=
  (sout1_C_0 c (grid1.coords t) (ms1_0 t) (hs1_0 t) (ms1_1 t) (hs1_1 t) (ms1_2 t) (hs1_2 t) scM1_0 (Memref.isWhole_whole _) scM1_1 (Memref.isWhole_whole _) (notFirst_of_last1 t h1) ((hcond1_1 t).mpr h1) (iblk1 V c 0 t) (iblk1 V c 1 t) p.1 p.2, p.2)

/-- THE ACCUMULATION: the two scratch buffers after the body at position `n`, by recursion on the point. -/
def scAt1 (c : Dev nD) : (n : ℕ) → n < cfg1.N → Vec F S512x32 .f32 × Vec F S4000x512 .i32
  | 0, hn => accA1 V c ⟨0, hn⟩ (Nat.zero_mod _)
  | n + 1, hn =>
    if h0 : (n + 1) % 200 = 0 then accA1 V c ⟨n + 1, hn⟩ h0
    else if h1 : (n + 1) % 200 = 199 then accC1 V c ⟨n + 1, hn⟩ h1 (scAt1 c n (Nat.lt_of_succ_lt hn))
    else accB1 V c ⟨n + 1, hn⟩ h0 h1 (scAt1 c n (Nat.lt_of_succ_lt hn))

theorem scAt1_A (c : Dev nD) (t : Fin cfg1.N) (h0 : t.val % 200 = 0) : scAt1 V c t.val t.isLt = accA1 V c t h0 := by
  obtain ⟨n, hn⟩ := t
  cases n with
  | zero => rfl
  | succ n => exact dif_pos h0
theorem scAt1_B (c : Dev nD) (t : Fin cfg1.N) (h0 : ¬t.val % 200 = 0) (h1 : ¬t.val % 200 = 199) :
    scAt1 V c t.val t.isLt = accB1 V c t h0 h1 (scAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem scAt1_C (c : Dev nD) (t : Fin cfg1.N) (h0 : ¬t.val % 200 = 0) (h1 : t.val % 200 = 199) :
    scAt1 V c t.val t.isLt = accC1 V c t h1 (scAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's buffer holds after the body: at a last point the block it wrote; elsewhere the window
    is idle and this value is never consulted. -/
def out2At1 (c : Dev nD) (t : Fin cfg1.N) : Vec F S1x512x32 .f32 :=
  if h1 : t.val % 200 = 199 then
    out1_C_2 c (grid1.coords t) (ms1_0 t) (hs1_0 t) (ms1_1 t) (hs1_1 t) (ms1_2 t) (hs1_2 t) scM1_0 (Memref.isWhole_whole _) scM1_1 (Memref.isWhole_whole _) (notFirst_of_last1 t h1) ((hcond1_1 t).mpr h1) (iblk1 V c 0 t) (iblk1 V c 1 t)
      (scAt1 V c (t.val - 1) (Nat.lt_of_le_of_lt (Nat.sub_le _ _) t.isLt)).1 (scAt1 V c (t.val - 1) (Nat.lt_of_le_of_lt (Nat.sub_le _ _) t.isLt)).2
  else VO1_2.read (Elt F) (VO1_2.writes (Elt F) VO1_2.junk [])

theorem out2At1_C (c : Dev nD) (t : Fin cfg1.N) (h1 : t.val % 200 = 199) :
    out2At1 V c t = out1_C_2 c (grid1.coords t) (ms1_0 t) (hs1_0 t) (ms1_1 t) (hs1_1 t) (ms1_2 t) (hs1_2 t) scM1_0 (Memref.isWhole_whole _) scM1_1 (Memref.isWhole_whole _) (notFirst_of_last1 t h1) ((hcond1_1 t).mpr h1) (iblk1 V c 0 t) (iblk1 V c 1 t)
      (scAt1 V c (t.val - 1) (Nat.lt_of_le_of_lt (Nat.sub_le _ _) t.isLt)).1 (scAt1 V c (t.val - 1) (Nat.lt_of_le_of_lt (Nat.sub_le _ _) t.isLt)).2 := by
  unfold out2At1; exact dif_pos h1

/-! ## The invariant -/

/-- Before position `n`: at the region's entry the class invariant; afterwards the two scratch buffers at what the
    point before left, the untouched scoped buffers and the generator register. -/
def PhiS1 (c : Dev nD) : (n : ℕ) → n ≤ cfg1.N → sProp 𝕄
  | 0, _ => Pipeline.ΦA spec1 c
  | n + 1, hn => iprop(owns (c : Thread nD τ) scM1_0 fullShare (scAt1 V c n hn).1 ∗ owns (c : Thread nD τ) scM1_1 fullShare (scAt1 V c n hn).2
      ∗ rest1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare (scAt1 V c n hn).1 ∗ owns (c : Thread nD τ) scM1_1 fullShare (scAt1 V c n hn).2
      ∗ rest1 (F := F) c ∗ (∃ r, prngReg c r)) := rfl
theorem PhiS1_pos (c : Dev nD) (n : ℕ) (h : n ≤ cfg1.N) (hz : n ≠ 0) :
    PhiS1 V c n h = iprop(owns (c : Thread nD τ) scM1_0 fullShare (scAt1 V c (n - 1) (by omega)).1 ∗ owns (c : Thread nD τ) scM1_1 fullShare (scAt1 V c (n - 1) (by omega)).2
      ∗ rest1 (F := F) c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out2At1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out2At1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms of the two conditions say which case the point is in; the invariant hands
    the run the scratch buffers (at anything at the region's first point, at what the point before left afterwards) and
    takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 400 := lt_of_lt_of_eq t.isLt (show cfg1.N = 400 from N_1)
  by_cases h0 : t.val % 200 = 0
  · have hn1 : ¬cond1_1 (grid1.coords t) := notLast_of_first1 t h0
    rw [Dat.leavesExact_idle (dat1 V c) 2 t (idleAt1_2 t hn1) (noFlush1_2 t hn1)]
    rw [scAt1_A V c t h0]
    unfold accA1 sout1_A_0 sout1_A_1; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_split (F := F) c) $$ HΦ
      icases HΦ' with ⟨HS0, HS1, Hr, Hg⟩
      iapply ((kernelRun1_A c (grid1.coords t) _ _ _ _ _ _ _ _ _ _ ((hcond1_0 t).mpr h0) hn1 (iblk1 V c 0 t) (iblk1 V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover1_A_0 c _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨HS0, HS1, Hr, Hg⟩, Ho, ⟨%d0, H0⟩, ⟨%d1, H1⟩, ⟨%d2, H2⟩⟩
      iapply ((kernelRun1_A c (grid1.coords t) _ _ _ _ _ _ _ _ _ _ ((hcond1_0 t).mpr h0) hn1 (iblk1 V c 0 t) (iblk1 V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover1_A_0 c _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun hz => h0 (by rw [hz])
    by_cases h1 : t.val % 200 = 199
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, out2At1_C V c t h1]
      rw [scAt1_C V c t h0 h1]
      unfold accC1 out1_C_2 sout1_C_0; (try dsimp only)
      rw [PhiS1_castSucc V c t, PhiS1_pos V c _ _ hz]
      iintro ⟨⟨HS0, HS1, Hr, Hg⟩, Ho, ⟨%d0, H0⟩, ⟨%d1, H1⟩, ⟨%d2, H2⟩⟩
      iapply ((kernelRun1_C c (grid1.coords t) _ _ _ _ _ _ _ _ _ _ (notFirst_of_last1 t h1) hc1 (iblk1 V c 0 t) (iblk1 V c 1 t) _ _).2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, HS1⟩
      isplitl [HS0 HS1 Hr Hg]
      · isplitl [HS0]
        · unfold owns; iexists _; isplitr
          swap; · iexact HS0
          ipureintro; exact View.read_writes_of_cover _ _ _ _ _ (scover1_C_0 c _ _ _ _ _ _ _ _ _ _ _ _ _ _ _ _ _)
        isplitl [HS1]; · iexact HS1
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _)
    · have hn1 : ¬cond1_1 (grid1.coords t) := fun h => h1 ((hcond1_1 t).mp h)
      rw [Dat.leavesExact_idle (dat1 V c) 2 t (idleAt1_2 t hn1) (noFlush1_2 t hn1)]
      rw [scAt1_B V c t h0 h1]
      unfold accB1 sout1_B_0; (try dsimp only)
      rw [PhiS1_castSucc V c t, PhiS1_pos V c _ _ hz]
      iintro ⟨⟨HS0, HS1, Hr, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) hn1 (iblk1 V c 0 t) (iblk1 V c 1 t) _ _).2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, HS1⟩
      isplitl [HS0 HS1 Hr Hg]
      · isplitl [HS0]
        · unfold owns; iexists _; isplitr
          swap; · iexact HS0
          ipureintro; exact View.read_writes_of_cover _ _ _ _ _ (scover1_B_0 c _ _ _ _ _ _ _ _ _ _ _ _ _ _ _ _ _)
        isplitl [HS1]; · iexact HS1
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 400 := N_1; omega)]
  iintro ⟨HS0, HS1, Hr, Hg⟩
  iapply (PhiA1_join (F := F) c)
  isplitl [HS0]; · iexists _; iexact HS0
  isplitl [HS1]; · iexists _; iexact HS1
  isplitl [Hr]; · iexact Hr
  iexact Hg

end Cert.KernelIdeal.Fr

end
-- ==== Proof.Ki.Run.lean ====
/-
  The whole program: the contents of every unscoped buffer at each boundary of @main (three stretches of host
  operations, the two kernel regions, a last stretch of host operations), the two regions as segments over their
  proof data, and the run: every weakly fair execution terminates with every unscoped buffer at the last boundary's
  contents.
-/
import proofs.«423693_j10393820857014_2_alg».proof.Proof.Ki.R0Frame
import proofs.«423693_j10393820857014_2_alg».proof.Proof.Ki.R1Frame
import proofs.«423693_j10393820857014_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Before region 0: the launch contents after the three host stretches, read at the TensorCore's references. -/
abbrev U3 : (c : Dev nD) → (b : Ref sig .tc) → Buf (Elt F) ((c : Thread nD τ).loc b) := fun c b => V3 m c b
/-- After region 0: its arrays at what the pipeline leaves, every other buffer as entered. -/
def W4 (c : Dev nD) : Valuation τ sig (Elt F) :=
  Pipeline.withArrays spec0 c (V3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb
abbrev U4 : (c : Dev nD) → (b : Ref sig .tc) → Buf (Elt F) ((c : Thread nD τ).loc b) := fun c b => W4 m c b
theorem hF0 (c : Dev nD) (w : Fin cfg0.W) : (dat0 (U3 m) c).arrAt w cfg0.N = U4 m c (Pipeline.arrRef spec0 w) :=
  (W4_arr m c w).symm
theorem hrest0 (c : Dev nD) : ∀ b, b ∉ Finset.univ.image (Pipeline.arrRef spec0) → U4 m c b = U3 m c b :=
  fun b hb => W4_of_ne m c b fun w e => hb (Finset.mem_image.mpr ⟨w, Finset.mem_univ _, e⟩)

/-- After region 1. -/
def W5 (c : Dev nD) : Valuation τ sig (Elt F) :=
  Pipeline.withArrays spec1 c (W4 m c) fun w => (dat1 (U4 m) c).arrAt w cfg1.N
theorem W5_arr (c : Dev nD) (w : Fin cfg1.W) :
    W5 m c (Proc.devRef .tc (Pipeline.arrRef spec1 w)) = (dat1 (U4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev U5 : (c : Dev nD) → (b : Ref sig .tc) → Buf (Elt F) ((c : Thread nD τ).loc b) := fun c b => W5 m c b
theorem hF1 (c : Dev nD) (w : Fin cfg1.W) : (dat1 (U4 m) c).arrAt w cfg1.N = U5 m c (Pipeline.arrRef spec1 w) :=
  (W5_arr m c w).symm
theorem hrest1 (c : Dev nD) : ∀ b, b ∉ Finset.univ.image (Pipeline.arrRef spec1) → U5 m c b = U4 m c b :=
  fun b hb => W5_of_ne m c b fun w e => hb (Finset.mem_image.mpr ⟨w, Finset.mem_univ _, e⟩)

/-- After the last host stretch: the contents the program ends with. -/
abbrev W6 : Dev nD → Valuation τ sig (Elt F) := fun c => StableHlo.after hostOps2 (W5 m c)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U4 m) c
abbrev 𝒱₀ : Variants := Variants.none
abbrev L : GSem nD τ sig → Finset Unit := fun _ => ∅
abbrev lv : GSem nD τ sig → Unit → ℕ := fun _ _ => 0
/-- What rides beside the buffers through every segment: the generator register and the core's debts, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered with every unscoped buffer at the contents before it, left with its
    arrays at what the pipeline wrote back and every other buffer as entered. The generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (U3 m) c
    unfold Pipeline.ΦA at h
    rw [show (pdats m 0 c).Φ 0 = (dat0 (U3 m) c).Φ 0 from rfl]
    iintro ⟨Hp, -, Hr⟩
    iapply h
    isplitl [Hr]; · iexact Hr
    iexact Hp
  hout c := by
    rw [Pipeline.ownSems0_none, show (pdats m 0 c).Φ (Fin.last _) = (dat0 (U3 m) c).Φ (Fin.last cfg0.N) from rfl]
    have h := hout0 (U3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with its
    arrays at what the pipeline wrote back and every other buffer as entered. The generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U4 m) c
    unfold Pipeline.ΦA at h
    rw [show (pdats m 1 c).Φ 0 = (dat1 (U4 m) c).Φ 0 from rfl]
    iintro ⟨Hp, -, Hr⟩
    iapply h
    isplitl [Hr]; · iexact Hr
    iexact Hp
  hout c := by
    rw [Pipeline.ownSems0_none, show (pdats m 1 c).Φ (Fin.last _) = (dat1 (U4 m) c).Φ (Fin.last cfg1.N) from rfl]
    have h := hout1 (U4 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U4 m c) (U5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .region (reg1 m),
    .host (hseg hostOps2 hostOps2_sub hostOps2_fresh (W5 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Fr

end
-- ==== Proof.Ki.Claims.lean ====
/-
  The frame claim read off the run: no host operation writes an argument array and no region's window stages one as
  an output, so each argument's buffer at the last boundary is its launch contents.
-/
import proofs.«423693_j10393820857014_2_alg».proof.Proof.Ki.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W6_of (c : Dev nD) (r : Ref sig .tc) (h : r ∉ hostOps2_W) : W6 m c r = W5 m c r :=
  StableHlo.after_of_writes_sub hostOps2 _ hostOps2_writes h

/-- A buffer no host stretch writes and no window of either region stages ends as launched. -/
theorem W6_arg (c : Dev nD) (r : Ref sig .tc) (h2 : r ∉ hostOps2_W) (h1 : ∀ w, Pipeline.arrRef spec1 w ≠ r) (h0 : ∀ w, Pipeline.arrRef spec0 w ≠ r)
    (h02 : r ∉ hostOps0_2_W) (h01 : r ∉ hostOps0_1_W) (h00 : r ∉ hostOps0_W) : W6 m c r = m ((c : Thread nD τ).loc r) :=
  (W6_of m c r h2).trans <| (W5_of_ne m c r h1).trans <| (W4_of_ne m c r h0).trans <| (V3_of m c r h02).trans <|
    (V2_of m c r h01).trans <| (V1_of m c r h00).trans rfl

/-- Every weakly fair execution terminates, nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W6_arg m c main_arg0 (by decide) (by decide) (by decide) (by decide) (by decide) (by decide)),
    (h c _ (mem_uc main_arg1 (by decide))).trans (W6_arg m c main_arg1 (by decide) (by decide) (by decide) (by decide) (by decide) (by decide)),
    (h c _ (mem_uc main_arg2 (by decide))).trans (W6_arg m c main_arg2 (by decide) (by decide) (by decide) (by decide) (by decide) (by decide)),
    (h c _ (mem_uc main_arg3 (by decide))).trans (W6_arg m c main_arg3 (by decide) (by decide) (by decide) (by decide) (by decide) (by decide)),
    (h c _ (mem_uc main_arg4 (by decide))).trans (W6_arg m c main_arg4 (by decide) (by decide) (by decide) (by decide) (by decide) (by decide)),
    (h c _ (mem_uc main_arg5 (by decide))).trans (W6_arg m c main_arg5 (by decide) (by decide) (by decide) (by decide) (by decide) (by decide)),
    (h c _ (mem_uc main_arg6 (by decide))).trans (W6_arg m c main_arg6 (by decide) (by decide) (by decide) (by decide) (by decide) (by decide))⟩) (run_all m ρ)

end Cert.KernelIdeal.Fr

end
-- ==== Proof.Ki.Take.lean ====
/-
  The index take of the host program, read as a plain gather. The program takes row 1 of the edge table as a vector of
  1600000 words, wraps a negative word by adding 100000, tests the wrapped word against [0, 99999], gathers the batch
  table at the wrapped words and keeps the gathered word where the test holds (the smallest 32-bit integer elsewhere).
  Under the precondition every word of row 1 has signed value in [-100000, 100000); the wrapped word then has signed
  value in [0, 99999], the test holds at every position, and the take is the gather at the wrapped words.
-/
import proofs.«423693_j10393820857014_2_alg».proof.KernelIdeal
import proofs.«423693_j10393820857014_2_alg».proof.Pre_finite_inputs
import proofs.«423693_j10393820857014_2_alg».proof.Proof.Gen.Pre_finite_inputs
import Idealize.ShloMosaic.Lib.StableHlo.Predicate
import Idealize.ShloMosaic.Lib.ReduceAll
import Idealize.ShloMosaic.Lib.Affine
import Idealize.ShloMosaic.Lib.ValueIdx
import Idealize.ShloMosaic.Lib.ValueLayout

noncomputable section

namespace Cert.KernelIdeal.Val

open Idealize.ShloMosaic Idealize.ShloMosaic.ValueIdx Cert.KernelIdeal

/-! ## Words -/

/-- A 32-bit word with signed value in [-100000, 100000), wrapped by adding 100000 when it is negative, has signed
    value in [0, 99999]: a negative one moves up into [0, 99999] with no carry out of the signed range, a
    nonnegative one is already there. -/
theorem wrap_word_range (w : BitVec 32) (h1 : -100000 ≤ w.toInt) (h2 : w.toInt < 100000) :
    0 ≤ (Scalar.select (IntOp.cmpi .slt w 0#32) (IntOp.addi w 100000#32) w).toInt ∧
      (Scalar.select (IntOp.cmpi .slt w 0#32) (IntOp.addi w 100000#32) w).toInt ≤ 99999 := by
  have h0 : (0#32 : BitVec 32).toInt = 0 := by decide
  by_cases hneg : w.toInt < 0
  · have hc : IntOp.cmpi .slt w 0#32 = 1#1 := IntOp.cmpi_slt.2 (by rw [h0]; exact hneg)
    rw [hc, select_one]
    show 0 ≤ (w + 100000#32).toInt ∧ (w + 100000#32).toInt ≤ 99999
    have hk : (100000#32 : BitVec 32).toInt = 100000 := by decide
    rw [BitVec.toInt_add, hk, Int.bmod_eq_of_le_mul_two (by omega) (by omega)]
    omega
  · have hc : IntOp.cmpi .slt w 0#32 = 0#1 :=
      eq_zero_of_ne_one (fun h => hneg (by have := IntOp.cmpi_slt.1 h; rw [h0] at this; exact this))
    rw [hc, select_zero]
    omega

/-! ## An and-reduction of ones -/

/-- A left fold by and over one-bit words that starts at 1 and meets only 1s is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], init, hi, _ => hi
  | a :: l, init, hi, hl => by
    rw [List.foldl_cons]
    refine foldl_andi_of_all_one f l _ ?_ (fun n hn => hl n (List.mem_cons_of_mem _ hn))
    rw [hi, hl a List.mem_cons_self]
    decide

/-- An and-reduction, from an initial value 1, of a one-bit array that is 1 at every index is 1 at every index. -/
theorem reduce_andi_of_all_one {s t u : Shape} {axes : List (Fin s.rank)} (x : s.Idx → BitVec 1)
    (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact foldl_andi_of_all_one x _ _ hinit (fun i _ => hx i)

/-! ## Row 1 of the edge table as a vector -/

/-- Row 1 of a [2, 1600000] table, cut out as a [1, 1600000] slice and recast as a vector, reads at e the table's
    entry (1, e). -/
theorem col_apply {α : Type} (a1 : S2x1600000.Idx → α) (hs : S2x1600000.Slices ![1, 0] S1x1600000)
    (hc : S1x1600000.ShapeCasts S1600000) (e : Fin 1600000) :
    shapeCast S1600000 (extractStridedSlice S1x1600000 ![1, 0] a1 hs) hc (ix1 e) = a1 (ix2 1 e) :=
  (shapeCast_1a_a_apply _ hc e).trans (slice2_axis0_apply 1 a1 hs (0 : Fin 1) e (1 : Fin 2) rfl)

/-- The precondition's last conjunct read back: every word of row 1 of the edge table has signed value in
    [-100000, 100000). The conjunct is an and-reduction over the whole vector of the two comparisons
    "-100000 ≤ word" and "word < 100000", so each holds at every position. -/
theorem col_range [Cert.Pre_finite_inputs.Facts] {F : FTy → Type} [FloatOps F]
    (a0 : FVec F Cert.Pre_finite_inputs.S100000x128 .f32) (a1 : IVec Cert.Pre_finite_inputs.S2x1600000 32)
    (a2 : FVec F Cert.Pre_finite_inputs.S1600000x32 .f32) (a3 : FVec F Cert.Pre_finite_inputs.S512x64 .f32)
    (a4 : IVec Cert.Pre_finite_inputs.S100000 32) (a5 : FVec F Cert.Pre_finite_inputs.S160x64 .f32)
    (a6 : FVec F Cert.Pre_finite_inputs.S64 .f32)
    (h : Cert.Pre_finite_inputs.fn (F := F) a0 a1 a2 a3 a4 a5 a6 = fun _ => 1#1) :
    ∀ e : Fin 1600000, -100000 ≤ (a1 (ix2 1 e)).toInt ∧ (a1 (ix2 1 e)).toInt < 100000 := by
  intro e
  haveI : Subsingleton Cert.Pre_finite_inputs.S_.Idx := ⟨fun a b => funext fun d => d.elim0⟩
  have h0 := congrFun h ix0
  dsimp only [Cert.Pre_finite_inputs.fn, Cert.Pre_finite_inputs.fn_part1] at h0
  have h33 := (IntOp.andi_eq_one.1 h0).2
  have he := Host.reduce_andi_all _ _ _ _ _ h33 (ix1 e)
  obtain ⟨hge, hlt⟩ := IntOp.andi_eq_one.1 he
  have hge' := IntOp.cmpi_sge.1 hge
  have hlt' := IntOp.cmpi_slt.1 hlt
  rw [col_apply] at hge' hlt'
  have hm : (4294867296#32 : BitVec 32).toInt = -100000 := by decide
  have hk : (100000#32 : BitVec 32).toInt = 100000 := by decide
  exact ⟨hm ▸ hge', hk ▸ hlt'⟩

/-! ## The take -/

variable [Facts]
open Facts₀ Facts

/-- The wrapped index vector: a negative word moved up by 100000, any other word kept. -/
def wrapIdx (col : IVec S1600000 32) : IVec S1600000 32 :=
  select (cmpi .slt col (broadcastInDim S1600000 ![] bcast_S_S1600000 (constantI S_ 32 0#32)))
    (addi col (broadcastInDim S1600000 ![] bcast_S_S1600000 (constantI S_ 32 100000#32))) col

/-- The take as the host program computes it from the index vector and the table: the wrapped indices as a
    [1600000, 1] column, the test 0 ≤ index ≤ 99999 and-reduced along the unit axis, the gather of the table at the
    column, and the select between the gathered word and the smallest 32-bit integer. -/
def takeK (col : IVec S1600000 32) (batch : IVec S100000 32) : IVec S1600000 32 :=
  select
    (Host.reduce IntOp.andi
      (andi
        (cmpi .sge (broadcastInDim S1600000x1 ![0] bcast_S1600000_S1600000x1_0 (wrapIdx col))
          (broadcastInDim S1600000x1 ![] bcast_S_S1600000x1 (constantI S_ 32 0#32)))
        (cmpi .sle (broadcastInDim S1600000x1 ![0] bcast_S1600000_S1600000x1_0 (wrapIdx col))
          (broadcastInDim S1600000x1 ![0, 1] bcast_S1x1_S1600000x1_0_1
            (broadcastInDim S1x1 ![1] bcast_S1_S1x1_1 (constantI S1 32 99999#32)))))
      (constantI S_ 1 1#1) reducesTo_S1600000x1_S1600000_d1 h_S_)
    (Host.gather gather_S100000_S1600000x1_S1600000_n_0_n_n_0_1_1 batch
      (broadcastInDim S1600000x1 ![0] bcast_S1600000_S1600000x1_0 (wrapIdx col)))
    (broadcastInDim S1600000 ![] bcast_S_S1600000 (constantI S_ 32 2147483648#32))

/-- Every wrapped index has signed value in [0, 99999] when every index word has signed value in
    [-100000, 100000). -/
theorem wrapIdx_range (col : IVec S1600000 32)
    (hr : ∀ e : Fin 1600000, -100000 ≤ (col (ix1 e)).toInt ∧ (col (ix1 e)).toInt < 100000) (k : S1600000.Idx) :
    0 ≤ (wrapIdx col k).toInt ∧ (wrapIdx col k).toInt ≤ 99999 := by
  have hk : col (ix1 (k 0)) = col k := congrArg col (eq_ix1 k).symm
  obtain ⟨h1, h2⟩ := hr (k 0)
  rw [hk] at h1 h2
  exact wrap_word_range (col k) h1 h2

/-- With every index word in [-100000, 100000) the range test holds at every position, so the select keeps the
    gathered word everywhere: the take is the gather of the table at the wrapped indices. -/
theorem takeK_eq_gather (col : IVec S1600000 32) (batch : IVec S100000 32)
    (hr : ∀ e : Fin 1600000, -100000 ≤ (col (ix1 e)).toInt ∧ (col (ix1 e)).toInt < 100000) :
    takeK col batch = Host.gather gather_S100000_S1600000x1_S1600000_n_0_n_n_0_1_1 batch
      (broadcastInDim S1600000x1 ![0] bcast_S1600000_S1600000x1_0 (wrapIdx col)) := by
  funext j
  have key : ∀ (m : IVec S1600000 1) (a b : IVec S1600000 32), m j = 1#1 → select m a b j = a j :=
    fun m a b hm => by rw [select_apply, hm, select_one]
  refine key _ _ _ (reduce_andi_of_all_one _ _ _ _ rfl (fun i => ?_) j)
  have h0 : (0#32 : BitVec 32).toInt = 0 := by decide
  have h9 : (99999#32 : BitVec 32).toInt = 99999 := by decide
  show IntOp.andi (IntOp.cmpi .sge (wrapIdx col _) 0#32) (IntOp.cmpi .sle (wrapIdx col _) 99999#32) = 1#1
  obtain ⟨h1, h2⟩ := wrapIdx_range col hr _
  rw [IntOp.andi_eq_one, IntOp.cmpi_sge, IntOp.cmpi_sle, h0, h9]
  exact ⟨h1, h2⟩

end Cert.KernelIdeal.Val

end
-- ==== Proof.Ki.Host.lean ====
/-
  The host operations around the two regions, read as values: what the regions find in their windows' arrays (the
  two data arrays and the two id vectors, each reshaped into two halves; the edge ids being the take of the node ids
  at the edges' target nodes), and the program's result as the shared tail (concatenate, matrix product, bias) of the
  two regions' outputs summed over their halves.
-/
import proofs.«423693_j10393820857014_2_alg».proof.Proof.Ki.Claims
import proofs.«423693_j10393820857014_2_alg».proof.Proof.Ki.Take
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo Cert.KernelIdeal.Val

variable (m : (ℓ : Loc nD τ sig) → Buf (Elt F) ℓ)

/-! ## Buffers the stretches before the regions do not write -/

theorem V3_keep (c : Dev nD) (r : Ref sig .tc) (h02 : r ∉ hostOps0_2_W) (h01 : r ∉ hostOps0_1_W) (h00 : r ∉ hostOps0_W) :
    V3 m c r = m ((c : Thread nD τ).loc r) :=
  (V3_of m c r h02).trans <| (V2_of m c r h01).trans <| (V1_of m c r h00).trans rfl
theorem V2_keep (c : Dev nD) (r : Ref sig .tc) (h01 : r ∉ hostOps0_1_W) (h00 : r ∉ hostOps0_W) :
    V2 m c r = m ((c : Thread nD τ).loc r) :=
  (V2_of m c r h01).trans <| (V1_of m c r h00).trans rfl
theorem V1_keep (c : Dev nD) (r : Ref sig .tc) (h00 : r ∉ hostOps0_W) : V1 m c r = m ((c : Thread nD τ).loc r) :=
  (V1_of m c r h00).trans rfl

/-! ## The edges' target column, and the take -/

/-- Row 1 of the edge index, as a vector: the target node of every edge. -/
theorem V1_v1 (c : Dev nD) :
    V1 m c main_v1 = shapeCast S1600000 (extractStridedSlice S1x1600000 ![1, 0] (m ((c : Thread nD τ).loc main_arg1)) slices_S2x1600000_S1x1600000_1_0) shapeCasts_S1x1600000_S1600000 := by
  show StableHlo.after hostOps0 (V0 m c) (Proc.devRef .tc main_v1) = _
  after_results <;> rfl

/-- Moving a value to a typed reference's own buffer type and back is the identity. -/
theorem ofBuf_toBuf_id {sig : RefSig} {Val : EltTy → Type} {T : BufTy} (x : StableHlo.TRef sig T) (v : T.Contents Val) :
    x.ofBuf (x.toBuf v) = v := by
  obtain ⟨r, h, a, b⟩ := x
  subst h
  rfl
/-- At the three buffers the take reads and writes, the move between a buffer's contents and the value's own type is
    the identity (the buffer's type is the value's by evaluation). -/
theorem leaf_v1 (Vx : Valuation τ sig (Elt F)) :
    (StableHlo.TRef.of main_v1 : StableHlo.TRef sig ⟨S1600000, .i32⟩).ofBuf (Vx (Proc.devRef .tc main_v1)) = (Vx (Proc.devRef .tc main_v1) : IVec S1600000 32) := rfl
theorem leaf_a4 (Vx : Valuation τ sig (Elt F)) :
    (StableHlo.TRef.of main_arg4 : StableHlo.TRef sig ⟨S100000, .i32⟩).ofBuf (Vx (Proc.devRef .tc main_arg4)) = (Vx (Proc.devRef .tc main_arg4) : IVec S100000 32) := rfl
theorem root_v2 (X : IVec S1600000 32) :
    ((StableHlo.TRef.of main_v2 : StableHlo.TRef sig ⟨S1600000, .i32⟩).toBuf (Val := Elt F) X : IVec S1600000 32) = X := rfl

set_option maxHeartbeats 4000000 in
/-- The graph id of every edge's target node: the take of the node ids at the target column. -/
theorem V2_v2 (c : Dev nD) : V2 m c main_v2 = takeK (V1 m c main_v1) (V1 m c main_arg4) := by
  show StableHlo.after hostOps0_1 (V1 m c) (Proc.devRef .tc main_v2) = _
  generalize V1 m c = Vx
  after_results_simp
  simp only [ofBuf_toBuf_id, leaf_v1, leaf_a4]
  refine (root_v2 _).trans ?_
  unfold takeK wrapIdx
  rfl

/-! ## What the regions find in their windows' arrays -/

theorem V3_v3 (c : Dev nD) : V3 m c main_v3 = shapeCast S2x50000x128 (V2 m c main_arg0) shapeCasts_S100000x128_S2x50000x128 := by
  show StableHlo.after hostOps0_2 (V2 m c) (Proc.devRef .tc main_v3) = _
  generalize V2 m c = Vx
  after_results <;> rfl
theorem V3_v4 (c : Dev nD) : V3 m c main_v4 = shapeCast S2x50000x1 (V2 m c main_arg4) shapeCasts_S100000_S2x50000x1 := by
  show StableHlo.after hostOps0_2 (V2 m c) (Proc.devRef .tc main_v4) = _
  generalize V2 m c = Vx
  after_results <;> rfl
theorem V3_v5 (c : Dev nD) : V3 m c main_v5 = shapeCast S2x800000x32 (V2 m c main_arg2) shapeCasts_S1600000x32_S2x800000x32 := by
  show StableHlo.after hostOps0_2 (V2 m c) (Proc.devRef .tc main_v5) = _
  generalize V2 m c = Vx
  after_results <;> rfl
theorem V3_v6 (c : Dev nD) : V3 m c main_v6 = shapeCast S2x800000x1 (V2 m c main_v2) shapeCasts_S1600000_S2x800000x1 := by
  show StableHlo.after hostOps0_2 (V2 m c) (Proc.devRef .tc main_v6) = _
  generalize V2 m c = Vx
  after_results <;> rfl

/-! ## The result buffer -/

/-- The shared tail: the two per-graph sums side by side, times the weight matrix, plus the bias row. -/
def tail {F : FTy → Type} [FloatOps F] (A : FVec F S512x128 .f32) (E : FVec F S512x32 .f32) (W : FVec F S160x64 .f32) (b : FVec F S64 .f32) :
    FVec F S512x64 .f32 :=
  addf
    (Host.dotGeneral dot_S512x160_S160x64_S512x64_1_0_0_1_n_n none
      (concatenate S512x160 1 [⟨S512x128, A⟩, ⟨S512x32, E⟩] concatenates_S512x128_S512x32_S512x160_d1) W)
    (broadcastInDim S512x64 ![0, 1] bcast_S1x64_S512x64_0_1 (broadcastInDim S1x64 ![1] bcast_S64_S1x64_1 b))

/-- The program's result: the tail applied to the two regions' output arrays, each summed over its two halves. -/
theorem W6_v15 (c : Dev nD) :
    W6 m c main_v15 = tail
      (Host.reduceAdd (W5 m c main_v7) (constant S_ .f32 0x00000000#32) reducesTo_S2x512x128_S512x128_d0 h_S_)
      (Host.reduceAdd (W5 m c main_v8) (constant S_ .f32 0x00000000#32) reducesTo_S2x512x32_S512x32_d0 h_S_)
      (W5 m c main_arg5) (W5 m c main_arg6) := by
  show StableHlo.after hostOps2 (W5 m c) (Proc.devRef .tc main_v15) = _
  generalize W5 m c = Vx
  after_results <;> rfl

/-- The regions' output arrays at the last host stretch. -/
theorem W5_v7 (c : Dev nD) : W5 m c main_v7 = (dat0 (U3 m) c).arrAt 2 cfg0.N :=
  (W5_of_ne m c main_v7 (by decide)).trans (W4_arr m c 2)
theorem W5_v8 (c : Dev nD) : W5 m c main_v8 = (dat1 (U4 m) c).arrAt 2 cfg1.N := W5_arr m c 2
/-- A buffer neither region writes and no earlier stretch writes reaches the last stretch as launched. -/
theorem W5_keep (c : Dev nD) (r : Ref sig .tc) (h1 : ∀ w, Pipeline.arrRef spec1 w ≠ r) (h0 : ∀ w, Pipeline.arrRef spec0 w ≠ r)
    (h02 : r ∉ hostOps0_2_W) (h01 : r ∉ hostOps0_1_W) (h00 : r ∉ hostOps0_W) : W5 m c r = m ((c : Thread nD τ).loc r) :=
  (W5_of_ne m c r h1).trans <| (W4_of_ne m c r h0).trans <| V3_keep m c r h02 h01 h00
/-- Region 1 finds its input arrays as region 0 found the buffers: region 0 writes only its own output. -/
theorem U4_in (c : Dev nD) (r : Ref sig .tc) (h0 : ∀ w, Pipeline.arrRef spec0 w ≠ r) : U4 m c r = V3 m c r := W4_of_ne m c r h0

end Cert.KernelIdeal.Fr

end
-- ==== Proof.Ki.R0Sout.lean ====
/-
  Region 0: what each case leaves, as the body's own arithmetic. The pieces the run found are whole-buffer stores, so
  reading them back gives the last store's payload; a load that follows a store in the same run reads that store's
  payload. Hence: after a step-0 point the index table is the column-index table and the accumulator is one
  accumulation step over zeros; after any other point the accumulator is one step over what came in; the output block
  of a last point is the accumulator just written.
-/
import proofs.«423693_j10393820857014_2_alg».proof.Proof.Ki.R0Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2_0 : (![0, 0] : Fin 2 → ℕ) = fun _ => 0 := by funext a; fin_cases a <;> rfl
theorem hz3_0 : (![0, 0, 0] : Fin 3 → ℕ) = fun _ => 0 := by funext a; fin_cases a <;> rfl

theorem sout0_B_0_eq (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : ¬cond0_1 i)
    (x0 : Vec F S1x5000x128 .f32) (x1 : Vec F S1x5000x1 .i32) (xs0 : Vec F S512x128 .f32) (xs1 : Vec F S5000x512 .i32) :
    sout0_B_0 c i arg2 harg2 arg3 harg3 arg4 harg4 arg5 harg5 arg6 harg6 hc0 hc1 x0 x1 xs0 xs1 = k0_pay3 x0 x1 xs1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S512x128) hz2_0]
  simp only [View.readAt_eq_ld, harg2.read_unread, harg3.read_unread, harg5.read_unread, harg6.read_unread,
    View.ld_unit_zero (S := S1x5000x128) hz3_0, View.ld_unit_zero (S := S1x5000x1) hz3_0, View.ld_unit_zero (S := S5000x512) hz2_0, View.ld_unit_zero (S := S512x128) hz2_0]

theorem sout0_C_0_eq (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i)
    (x0 : Vec F S1x5000x128 .f32) (x1 : Vec F S1x5000x1 .i32) (xs0 : Vec F S512x128 .f32) (xs1 : Vec F S5000x512 .i32) :
    sout0_C_0 c i arg2 harg2 arg3 harg3 arg4 harg4 arg5 harg5 arg6 harg6 hc0 hc1 x0 x1 xs0 xs1 = k0_pay3 x0 x1 xs1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero (S := S512x128) hz2_0]
  simp only [View.readAt_eq_ld, harg2.read_unread, harg3.read_unread, harg5.read_unread, harg6.read_unread,
    View.ld_unit_zero (S := S1x5000x128) hz3_0, View.ld_unit_zero (S := S1x5000x1) hz3_0, View.ld_unit_zero (S := S5000x512) hz2_0, View.ld_unit_zero (S := S512x128) hz2_0]

theorem out0_C_2_eq (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : ¬cond0_0 i) (hc1 : cond0_1 i)
    (x0 : Vec F S1x5000x128 .f32) (x1 : Vec F S1x5000x1 .i32) (xs0 : Vec F S512x128 .f32) (xs1 : Vec F S5000x512 .i32) :
    out0_C_2 c i arg2 harg2 arg3 harg3 arg4 harg4 arg5 harg5 arg6 harg6 hc0 hc1 x0 x1 xs0 xs1 = k0_pay4 (k0_pay3 x0 x1 xs1 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S1x512x128) hz3_0, View.readCov_unit_zero (S := S512x128) _ hz2_0]
  simp only [View.readAt_eq_ld, harg2.read_unread, harg3.read_unread, harg5.read_unread, harg6.read_unread,
    View.ld_unit_zero (S := S1x5000x128) hz3_0, View.ld_unit_zero (S := S1x5000x1) hz3_0, View.ld_unit_zero (S := S5000x512) hz2_0, View.ld_unit_zero (S := S512x128) hz2_0]

theorem sout0_A_1_eq (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i)
    (x0 : Vec F S1x5000x128 .f32) (x1 : Vec F S1x5000x1 .i32) :
    sout0_A_1 c i arg2 harg2 arg3 harg3 arg4 harg4 arg5 harg5 arg6 harg6 hc0 hc1 x0 x1 = k0_pay2 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_unit_zero (S := S5000x512) hz2_0]

theorem sout0_A_0_eq (c : Dev nD) (i : grid0.Coords) (arg2 : Memref sig .tc .vmem S1x5000x128 .f32) (harg2 : arg2.IsWhole) (arg3 : Memref sig .tc .vmem S1x5000x1 .i32) (harg3 : arg3.IsWhole) (arg4 : Memref sig .tc .vmem S1x512x128 .f32) (harg4 : arg4.IsWhole) (arg5 : Memref sig .tc .vmem S512x128 .f32) (harg5 : arg5.IsWhole) (arg6 : Memref sig .tc .vmem S5000x512 .i32) (harg6 : arg6.IsWhole) (hc0 : cond0_0 i) (hc1 : ¬cond0_1 i)
    (x0 : Vec F S1x5000x128 .f32) (x1 : Vec F S1x5000x1 .i32) :
    sout0_A_0 c i arg2 harg2 arg3 harg3 arg4 harg4 arg5 harg5 arg6 harg6 hc0 hc1 x0 x1 = k0_pay3 x0 x1 k0_pay2 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x128) hz2_0, View.readCov_unit_zero (S := S5000x512) _ hz2_0, View.readCov_unit_zero (S := S512x128) _ hz2_0]
  simp only [View.readAt_eq_ld, harg2.read_unread, harg3.read_unread, View.ld_unit_zero (S := S1x5000x128) hz3_0, View.ld_unit_zero (S := S1x5000x1) hz3_0]

end Cert.KernelIdeal.Fr

end
-- ==== Proof.Ki.Pay.lean ====
/-
  The payloads of the two aggregation kernels, read at an index, at the ideal values.

  Each kernel body keeps an accumulator of shape [512, w] (w = 128 for the node kernel, 32 for the edge kernel) and a
  cached table of column numbers. At every step it loads a tile of n rows (n = 5000, resp. 4000) of features x and the
  tile's segment ids, compares the ids, broadcast along 512 columns, with the column numbers, turns the comparison bit
  into 0.0 / 1.0, and adds to the accumulator the product of that one-hot matrix, transposed, with the tile:
      acc[g, d] + sum over the tile's rows r of [ids r = column number of (r, g)] * x[r, d].
  At the ideal values the format changes are the identity and the product into a zero accumulator is the plain sum.
-/
import proofs.«423693_j10393820857014_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen
open scoped BigOperators

/-! ## Words: the comparison bit, widened and converted, is the indicator of equality -/

/-- `cmpi eq` gives the bit 1 exactly on equal words; zero-extended to 32 bits and read as a signed integer that
    bit is the number 1 or 0. -/
theorem onehot_word (x y : BitVec 32) :
    ((((IntOp.cmpi .eq x y).setWidth 32).toInt : ℝ) : EReal) = if x = y then (1 : EReal) else 0 := by
  by_cases h : x = y
  · subst h
    simp [IntOp.cmpi]
  · have hb : (x == y) = false := by simpa using h
    simp [IntOp.cmpi, hb, h]

/-! ## Layout: a column [n, 1] broadcast along the columns, and a block's unit axis dropped -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Region 0: the node kernel (tiles of 5000 rows, 128 features) -/

/-- The left operand (the one-hot matrix, [5000, 512]) is read at the contraction position on axis 0 … -/
theorem lhs0_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q

/-- … and at the result's row number on axis 1. -/
theorem lhs0_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide),
    dif_pos (show (1 : Fin S5000x512.rank) ∈ dot_S5000x512_S5000x128_S512x128_0_0_1_1_n_n.lhsNonContracting by decide)]
  rfl

/-- The right operand (the tile, [5000, 128]) is read at the contraction position on axis 0 … -/
theorem rhs0_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q

/-- … and at the result's column number on axis 1. -/
theorem rhs0_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide),
    dif_pos (show (1 : Fin S5000x128.rank) ∈ dot_S5000x512_S5000x128_S512x128_0_0_1_1_n_n.rhsNonContracting by decide)]
  rfl

/-- The value the accumulator is reset to at a half's first step: zero everywhere. -/
theorem pay1_apply (j : S512x128.Idx) : k0_pay1 (F := Ideal) j = 0 := by
  unfold k0_pay1
  rw [shapeCast_self, broadcast_apply]
  exact Ideal.ofBits_zero_f32

/-- The cached table: every entry is its own column number. -/
theorem pay2_apply (r : Fin 5000) (g : Fin 512) : k0_pay2 (ix2 r g) = BitVec.ofNat 32 g.val := by
  unfold k0_pay2
  rw [shapeCast_self, iota_single_apply]

/-- One step's new accumulator: the old one plus the one-hot matrix, transposed, times the tile. -/
theorem pay3_apply (v3 : Vec Ideal S1x5000x128 .f32) (v5 : Vec Ideal S1x5000x1 .i32) (v7 : Vec Ideal S5000x512 .i32)
    (v15 : Vec Ideal S512x128 .f32) (g : Fin 512) (d : Fin 128) :
    k0_pay3 (F := Ideal) v3 v5 v7 v15 (ix2 g d)
      = v15 (ix2 g d) + ∑ r : Fin 5000, (if v7 (ix2 r g) = v5 (ix3 0 r 0) then (1 : EReal) else 0) * v3 (ix3 0 r d) := by
  unfold k0_pay3
  rw [shapeCast_self, addf_apply]
  refine congrArg (v15 (ix2 g d) + ·) ?_
  simp only [matmul]
  rw [Ideal.matmul_constant_zero_apply,
    ← Equiv.sum_comp (contrEquiv1 dot_S5000x512_S5000x128_S512x128_0_0_1_1_n_n 5000 rfl rfl).symm]
  refine Finset.sum_congr rfl fun r _ => ?_
  have hk := contrEquiv1_symm_val dot_S5000x512_S5000x128_S512x128_0_0_1_1_n_n 5000 rfl rfl r
  have el : dot_S5000x512_S5000x128_S512x128_0_0_1_1_n_n.lhsIdx (ix2 g d)
      ((contrEquiv1 dot_S5000x512_S5000x128_S512x128_0_0_1_1_n_n 5000 rfl rfl).symm r) = ix2 r g :=
    funext fun a => Fin.ext (by
      match a with
      | ⟨0, _⟩ => exact (lhs0_0 _ _).trans hk
      | ⟨1, _⟩ => exact lhs0_1 _ _)
  have er : dot_S5000x512_S5000x128_S512x128_0_0_1_1_n_n.rhsIdx (ix2 g d)
      ((contrEquiv1 dot_S5000x512_S5000x128_S512x128_0_0_1_1_n_n 5000 rfl rfl).symm r) = ix2 r d :=
    funext fun a => Fin.ext (by
      match a with
      | ⟨0, _⟩ => exact (rhs0_0 _ _).trans hk
      | ⟨1, _⟩ => exact rhs0_1 _ _)
  rw [el, er]
  have hids : broadcastTo S5000x512 (shapeCast S5000x1 v5 shapeCasts_S1x5000x1_S5000x1) broadcasts_S5000x1_S5000x512
      (ix2 r g) = v5 (ix3 0 r 0) := by
    rw [broadcastTo_a1_ab_apply, shapeCast_1ab_ab_apply]
  have hx : shapeCast S5000x128 v3 shapeCasts_S1x5000x128_S5000x128 (ix2 r d) = v3 (ix3 0 r d) :=
    shapeCast_1ab_ab_apply v3 _ r d
  show ((((IntOp.cmpi .eq (v7 (ix2 r g))
        (broadcastTo S5000x512 (shapeCast S5000x1 v5 shapeCasts_S1x5000x1_S5000x1) broadcasts_S5000x1_S5000x512
          (ix2 r g))).setWidth 32).toInt : ℝ) : EReal)
      * shapeCast S5000x128 v3 shapeCasts_S1x5000x128_S5000x128 (ix2 r d) = _
  rw [hids, hx, onehot_word]

/-- The output block is the accumulator under a leading unit axis. -/
theorem pay4_apply (v : Vec Ideal S512x128 .f32) (g : Fin 512) (d : Fin 128) :
    k0_pay4 (F := Ideal) v (ix3 0 g d) = v (ix2 g d) := by
  unfold k0_pay4
  exact shapeCast_ab_1ab_apply v _ 0 g d

/-! ## Region 1: the edge kernel (tiles of 4000 rows, 32 features) -/

namespace R1

/-- The left operand (the one-hot matrix, [4000, 512]) is read at the contraction position on axis 0 … -/
theorem lhs1_0 (i : S512x32.Idx) (q : dot_S4000x512_S4000x32_S512x32_0_0_1_1_n_n.contr.Idx) :
    (dot_S4000x512_S4000x32_S512x32_0_0_1_1_n_n.lhsIdx i q 0).val = (q ⟨0, by decide⟩).val :=
  dot_S4000x512_S4000x32_S512x32_0_0_1_1_n_n.lhsIdx_val_of_single rfl i q

/-- … and at the result's row number on axis 1. -/
theorem lhs1_1 (i : S512x32.Idx) (q : dot_S4000x512_S4000x32_S512x32_0_0_1_1_n_n.contr.Idx) :
    (dot_S4000x512_S4000x32_S512x32_0_0_1_1_n_n.lhsIdx i q 1).val = (i 0).val := by
  unfold DotDims.lhsIdx
  rw [dif_neg (show ¬(1 : Fin S4000x512.rank) ∈ dot_S4000x512_S4000x32_S512x32_0_0_1_1_n_n.lhsBatch by decide),
    dif_pos (show (1 : Fin S4000x512.rank) ∈ dot_S4000x512_S4000x32_S512x32_0_0_1_1_n_n.lhsNonContracting by decide)]
  rfl

/-- The right operand (the tile, [4000, 32]) is read at the contraction position on axis 0 … -/
theorem rhs1_0 (i : S512x32.Idx) (q : dot_S4000x512_S4000x32_S512x32_0_0_1_1_n_n.contr.Idx) :
    (dot_S4000x512_S4000x32_S512x32_0_0_1_1_n_n.rhsIdx i q 0).val = (q ⟨0, by decide⟩).val :=
  dot_S4000x512_S4000x32_S512x32_0_0_1_1_n_n.rhsIdx_val_of_single rfl i q

/-- … and at the result's column number on axis 1. -/
theorem rhs1_1 (i : S512x32.Idx) (q : dot_S4000x512_S4000x32_S512x32_0_0_1_1_n_n.contr.Idx) :
    (dot_S4000x512_S4000x32_S512x32_0_0_1_1_n_n.rhsIdx i q 1).val = (i 1).val := by
  unfold DotDims.rhsIdx
  rw [dif_neg (show ¬(1 : Fin S4000x32.rank) ∈ dot_S4000x512_S4000x32_S512x32_0_0_1_1_n_n.rhsBatch by decide),
    dif_pos (show (1 : Fin S4000x32.rank) ∈ dot_S4000x512_S4000x32_S512x32_0_0_1_1_n_n.rhsNonContracting by decide)]
  rfl

/-- The value the accumulator is reset to at a half's first step: zero everywhere. -/
theorem pay1_apply (j : S512x32.Idx) : k1_pay1 (F := Ideal) j = 0 := by
  unfold k1_pay1
  rw [shapeCast_self, broadcast_apply]
  exact Ideal.ofBits_zero_f32

/-- The cached table: every entry is its own column number. -/
theorem pay2_apply (r : Fin 4000) (g : Fin 512) : k1_pay2 (ix2 r g) = BitVec.ofNat 32 g.val := by
  unfold k1_pay2
  rw [shapeCast_self, iota_single_apply]

/-- One step's new accumulator: the old one plus the one-hot matrix, transposed, times the tile. -/
theorem pay3_apply (v3 : Vec Ideal S1x4000x32 .f32) (v5 : Vec Ideal S1x4000x1 .i32) (v7 : Vec Ideal S4000x512 .i32)
    (v15 : Vec Ideal S512x32 .f32) (g : Fin 512) (d : Fin 32) :
    k1_pay3 (F := Ideal) v3 v5 v7 v15 (ix2 g d)
      = v15 (ix2 g d) + ∑ r : Fin 4000, (if v7 (ix2 r g) = v5 (ix3 0 r 0) then (1 : EReal) else 0) * v3 (ix3 0 r d) := by
  unfold k1_pay3
  rw [shapeCast_self, addf_apply]
  refine congrArg (v15 (ix2 g d) + ·) ?_
  simp only [matmul]
  rw [Ideal.matmul_constant_zero_apply,
    ← Equiv.sum_comp (contrEquiv1 dot_S4000x512_S4000x32_S512x32_0_0_1_1_n_n 4000 rfl rfl).symm]
  refine Finset.sum_congr rfl fun r _ => ?_
  have hk := contrEquiv1_symm_val dot_S4000x512_S4000x32_S512x32_0_0_1_1_n_n 4000 rfl rfl r
  have el : dot_S4000x512_S4000x32_S512x32_0_0_1_1_n_n.lhsIdx (ix2 g d)
      ((contrEquiv1 dot_S4000x512_S4000x32_S512x32_0_0_1_1_n_n 4000 rfl rfl).symm r) = ix2 r g :=
    funext fun a => Fin.ext (by
      match a with
      | ⟨0, _⟩ => exact (lhs1_0 _ _).trans hk
      | ⟨1, _⟩ => exact lhs1_1 _ _)
  have er : dot_S4000x512_S4000x32_S512x32_0_0_1_1_n_n.rhsIdx (ix2 g d)
      ((contrEquiv1 dot_S4000x512_S4000x32_S512x32_0_0_1_1_n_n 4000 rfl rfl).symm r) = ix2 r d :=
    funext fun a => Fin.ext (by
      match a with
      | ⟨0, _⟩ => exact (rhs1_0 _ _).trans hk
      | ⟨1, _⟩ => exact rhs1_1 _ _)
  rw [el, er]
  have hids : broadcastTo S4000x512 (shapeCast S4000x1 v5 shapeCasts_S1x4000x1_S4000x1) broadcasts_S4000x1_S4000x512
      (ix2 r g) = v5 (ix3 0 r 0) := by
    rw [broadcastTo_a1_ab_apply, shapeCast_1ab_ab_apply]
  have hx : shapeCast S4000x32 v3 shapeCasts_S1x4000x32_S4000x32 (ix2 r d) = v3 (ix3 0 r d) :=
    shapeCast_1ab_ab_apply v3 _ r d
  show ((((IntOp.cmpi .eq (v7 (ix2 r g))
        (broadcastTo S4000x512 (shapeCast S4000x1 v5 shapeCasts_S1x4000x1_S4000x1) broadcasts_S4000x1_S4000x512
          (ix2 r g))).setWidth 32).toInt : ℝ) : EReal)
      * shapeCast S4000x32 v3 shapeCasts_S1x4000x32_S4000x32 (ix2 r d) = _
  rw [hids, hx, onehot_word]

/-- The output block is the accumulator under a leading unit axis. -/
theorem pay4_apply (v : Vec Ideal S512x32 .f32) (g : Fin 512) (d : Fin 32) :
    k1_pay4 (F := Ideal) v (ix3 0 g d) = v (ix2 g d) := by
  unfold k1_pay4
  exact shapeCast_ab_1ab_apply v _ 0 g d

end R1

end Cert.KernelIdeal.Val

end
-- ==== Proof.Ki.R0Blocks.lean ====
/-
  Region 0 (the node aggregation): its windows' blocks as parts of their arrays, by coordinates.

  The grid is 2 x 10, row-major: point t has half t / 10 and step t % 10. Window 0 stages the features
  [2, 50000, 128] in blocks [1, 5000, 128] at block index (half, step, 0), window 1 the segment ids [2, 50000, 1] in
  blocks [1, 5000, 1] at (half, step, 0), and window 2 writes the output [2, 512, 128] in blocks [1, 512, 128] at
  (half, 0, 0), at the last step of each half only. An element of a block sits in the array, axis by axis, at the
  block index times the block's size plus its own coordinate. So row r of the input block at point t is row
  (t % 10) * 5000 + r of half t / 10, and the two output blocks written at t = 9 and t = 19 are the two halves of the
  output array, which they cover.
-/
import proofs.«423693_j10393820857014_2_alg».proof.Proof.Ki.R0Frame
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The index maps, decided over the grid -/

/-- Window 0's block index at point t is (half, step, 0). -/
theorem idx0_0 : ∀ t : Fin cfg0.N, win0_0.index t (0 : Fin 3) = t.val / 10 ∧ win0_0.index t (1 : Fin 3) = t.val % 10
    ∧ win0_0.index t (2 : Fin 3) = 0 :=
  (by decide +kernel : ∀ t : Fin grid0.N, win0_0.index t (0 : Fin 3) = t.val / 10 ∧ win0_0.index t (1 : Fin 3) = t.val % 10
    ∧ win0_0.index t (2 : Fin 3) = 0)

/-- Window 1's block index at point t is (half, step, 0). -/
theorem idx0_1 : ∀ t : Fin cfg0.N, win0_1.index t (0 : Fin 3) = t.val / 10 ∧ win0_1.index t (1 : Fin 3) = t.val % 10
    ∧ win0_1.index t (2 : Fin 3) = 0 :=
  (by decide +kernel : ∀ t : Fin grid0.N, win0_1.index t (0 : Fin 3) = t.val / 10 ∧ win0_1.index t (1 : Fin 3) = t.val % 10
    ∧ win0_1.index t (2 : Fin 3) = 0)

/-- Window 2's block index at point t is (half, 0, 0). -/
theorem idx0_2 : ∀ t : Fin cfg0.N, win0_2.index t (0 : Fin 3) = t.val / 10 ∧ win0_2.index t (1 : Fin 3) = 0
    ∧ win0_2.index t (2 : Fin 3) = 0 :=
  (by decide +kernel : ∀ t : Fin grid0.N, win0_2.index t (0 : Fin 3) = t.val / 10 ∧ win0_2.index t (1 : Fin 3) = 0
    ∧ win0_2.index t (2 : Fin 3) = 0)

/-! ## The input blocks, by coordinates -/

/-- Row r, column d of window 0's block at point t is row (t % 10) * 5000 + r, column d of half t / 10. -/
theorem iblk0_0_apply (c : Dev nD) (t : Fin cfg0.N) (r : Fin 5000) (d : Fin 128) :
    iblk0 V c 0 t (ix3 (0 : Fin 1) r d)
      = V c main_v3 (ix3 (⟨t.val / 10, by have := t.isLt; have : cfg0.N = 20 := N_0; omega⟩ : Fin 2)
          (⟨t.val % 10 * 5000 + r.val, by have := r.isLt; omega⟩ : Fin 50000) d) := by
  unfold iblk0
  rw [View.read_apply]
  obtain ⟨e0, e1, e2⟩ := idx0_0 t
  show V c main_v3 (((cfg0.win 0).blk t).view.emb (ix3 (0 : Fin 1) r d)) = _
  refine congrArg (V c main_v3) (funext fun a => Fin.ext ?_)
  match a with
  | ⟨0, _⟩ => show win0_0.index t (0 : Fin 3) * 1 + 1 * 0 = t.val / 10; omega
  | ⟨1, _⟩ => show win0_0.index t (1 : Fin 3) * 5000 + 1 * r.val = t.val % 10 * 5000 + r.val; omega
  | ⟨2, _⟩ => show win0_0.index t (2 : Fin 3) * 128 + 1 * d.val = d.val; omega

/-- Row r of window 1's block at point t is row (t % 10) * 5000 + r of half t / 10. -/
theorem iblk0_1_apply (c : Dev nD) (t : Fin cfg0.N) (r : Fin 5000) :
    iblk0 V c 1 t (ix3 (0 : Fin 1) r (0 : Fin 1))
      = V c main_v4 (ix3 (⟨t.val / 10, by have := t.isLt; have : cfg0.N = 20 := N_0; omega⟩ : Fin 2)
          (⟨t.val % 10 * 5000 + r.val, by have := r.isLt; omega⟩ : Fin 50000) (0 : Fin 1)) := by
  unfold iblk0
  rw [View.read_apply]
  obtain ⟨e0, e1, e2⟩ := idx0_1 t
  show V c main_v4 (((cfg0.win 1).blk t).view.emb (ix3 (0 : Fin 1) r (0 : Fin 1))) = _
  refine congrArg (V c main_v4) (funext fun a => Fin.ext ?_)
  match a with
  | ⟨0, _⟩ => show win0_1.index t (0 : Fin 3) * 1 + 1 * 0 = t.val / 10; omega
  | ⟨1, _⟩ => show win0_1.index t (1 : Fin 3) * 5000 + 1 * r.val = t.val % 10 * 5000 + r.val; omega
  | ⟨2, _⟩ => show win0_1.index t (2 : Fin 3) * 1 + 1 * 0 = 0; omega

/-! ## The output array after the region -/

/-- The output array after the region: if at every last point the block the body wrote is the matching block of one
    whole-array function G, the array ends holding G. The two last points t = 9 and t = 19 write the halves 0 and 1,
    and index (h, g, d) lies in the block of point h * 10 + 9. -/
theorem arrAt0_2 (c : Dev nD) (G : S2x512x128.Idx → Elt F .f32)
    (hG : ∀ t : Fin cfg0.N, t.val % 10 = 9 → ∀ (g : Fin 512) (d : Fin 128),
      out2At0 V c t (ix3 (0 : Fin 1) g d)
        = G (ix3 (⟨t.val / 10, by have := t.isLt; have : cfg0.N = 20 := N_0; omega⟩ : Fin 2) g d)) :
    (dat0 V c).arrAt 2 cfg0.N = G := by
  refine (dat0 V c).arrAt_eq_of_cover 2 G (fun t hf => ?_) (fun i => ?_)
  · -- what a last point writes back is its block of G
    have h9 : t.val % 10 = 9 := (flush0_2 t).mp hf
    obtain ⟨e0, e1, e2⟩ := idx0_2 t
    show (cfg0.win 2).cut (grid0.coords t) ((dat0 V c).after 2 t) = _
    rw [after0_2]
    funext j
    obtain ⟨u, g, d, rfl⟩ : ∃ (u : Fin 1) (g : Fin 512) (d : Fin 128), j = ix3 u g d :=
      ⟨j 0, j 1, j 2, eq_ix3 (n0 := 1) (n1 := 512) (n2 := 128) j⟩
    have hu : u = 0 := Subsingleton.elim _ _
    subst hu
    rw [View.read_apply]
    show out2At0 V c t (ix3 (0 : Fin 1) g d) = G (((cfg0.win 2).blk t).view.emb (ix3 (0 : Fin 1) g d))
    rw [hG t h9 g d]
    refine congrArg G (funext fun a => Fin.ext ?_)
    match a with
    | ⟨0, _⟩ => show t.val / 10 = win0_2.index t (0 : Fin 3) * 1 + 1 * 0; omega
    | ⟨1, _⟩ => show g.val = win0_2.index t (1 : Fin 3) * 512 + 1 * g.val; omega
    | ⟨2, _⟩ => show d.val = win0_2.index t (2 : Fin 3) * 128 + 1 * d.val; omega
  · -- every index of the array is in a last point's block
    obtain ⟨h, g, d, rfl⟩ : ∃ (h : Fin 2) (g : Fin 512) (d : Fin 128), i = ix3 h g d :=
      ⟨i 0, i 1, i 2, eq_ix3 (n0 := 2) (n1 := 512) (n2 := 128) i⟩
    have hN : cfg0.N = 20 := N_0
    have hh : h.val < 2 := h.isLt
    have hg : g.val < 512 := g.isLt
    have hd : d.val < 128 := d.isLt
    have ht : h.val * 10 + 9 < cfg0.N := by omega
    obtain ⟨e0, e1, e2⟩ := idx0_2 ⟨h.val * 10 + 9, ht⟩
    have e0' : win0_2.index ⟨h.val * 10 + 9, ht⟩ (0 : Fin 3) = (h.val * 10 + 9) / 10 := e0
    refine ⟨⟨h.val * 10 + 9, ht⟩, (flush0_2 _).mpr (by show (h.val * 10 + 9) % 10 = 9; omega), ?_⟩
    show ix3 h g d ∈ ((View.whole main_v7).slice (win0_2.rect ⟨h.val * 10 + 9, ht⟩)).set
    rw [View.set_slice_whole, Rect.mem_set_unit]
    intro a
    match a with
    | ⟨0, _⟩ =>
      show win0_2.index ⟨h.val * 10 + 9, ht⟩ (0 : Fin 3) * 1 ≤ h.val
        ∧ h.val < win0_2.index ⟨h.val * 10 + 9, ht⟩ (0 : Fin 3) * 1 + 1
      omega
    | ⟨1, _⟩ =>
      show win0_2.index ⟨h.val * 10 + 9, ht⟩ (1 : Fin 3) * 512 ≤ g.val
        ∧ g.val < win0_2.index ⟨h.val * 10 + 9, ht⟩ (1 : Fin 3) * 512 + 512
      omega
    | ⟨2, _⟩ =>
      show win0_2.index ⟨h.val * 10 + 9, ht⟩ (2 : Fin 3) * 128 ≤ d.val
        ∧ d.val < win0_2.index ⟨h.val * 10 + 9, ht⟩ (2 : Fin 3) * 128 + 128
      omega

end Cert.KernelIdeal.Fr

end
-- ==== Proof.Spec.lean ====
/-
  The specification both programs are compared against: a segment sum written as a one-hot sum. Row r of the data
  contributes to graph g exactly when its id word is g (an id outside 0..511 matches no graph and is dropped).
-/
import Idealize.ShloMosaic.PureOps.Ideal
import Idealize.ShloMosaic.Lib.ValueIdx

noncomputable section

namespace Cert.Spec

open Idealize.ShloMosaic Idealize.ShloMosaic.ValueIdx

/-- Node features summed per graph: out[g, d] = Σ_r [ids r = g] · x[r, d], over the extended reals. -/
def segX (x : (⟨2, ![100000, 128]⟩ : Shape).Idx → EReal) (ids : (⟨1, ![100000]⟩ : Shape).Idx → BitVec 32) :
    (⟨2, ![512, 128]⟩ : Shape).Idx → EReal :=
  fun j => ∑ r : Fin 100000, if ids (ix1 r) = BitVec.ofNat 32 (j 0).val then x (ix2 r (j 1)) else 0

/-- Edge features summed per graph: out[g, d] = Σ_r [ids r = g] · e[r, d]. -/
def segE (e : (⟨2, ![1600000, 32]⟩ : Shape).Idx → EReal) (ids : (⟨1, ![1600000]⟩ : Shape).Idx → BitVec 32) :
    (⟨2, ![512, 32]⟩ : Shape).Idx → EReal :=
  fun j => ∑ r : Fin 1600000, if ids (ix1 r) = BitVec.ofNat 32 (j 0).val then e (ix2 r (j 1)) else 0

end Cert.Spec

end
-- ==== Proof.SpecParts.lean ====
/-
  The kernel's intermediate result: each half of the rows summed separately, per graph. Half h of the node features is
  rows h*50000 .. h*50000+49999 (of the edge features: h*800000 ..); the two halves add up to the whole segment sum.
-/
import proofs.«423693_j10393820857014_2_alg».proof.Proof.Spec
import Mathlib.Algebra.BigOperators.Intervals
import Mathlib.Algebra.BigOperators.Fin

noncomputable section

namespace Cert.Spec

open Idealize.ShloMosaic Idealize.ShloMosaic.ValueIdx

/-- One half of the node segment sum: graph g, feature d, over the 50000 rows of half h. -/
def partX (X2 : (⟨3, ![2, 50000, 128]⟩ : Shape).Idx → EReal) (B2 : (⟨3, ![2, 50000, 1]⟩ : Shape).Idx → BitVec 32)
    (h : Fin 2) (g : Fin 512) (d : Fin 128) : EReal :=
  ∑ r : Fin 50000, if B2 (ix3 h r 0) = BitVec.ofNat 32 g.val then X2 (ix3 h r d) else 0

/-- One half of the edge segment sum. -/
def partE (E2 : (⟨3, ![2, 800000, 32]⟩ : Shape).Idx → EReal) (B2 : (⟨3, ![2, 800000, 1]⟩ : Shape).Idx → BitVec 32)
    (h : Fin 2) (g : Fin 512) (d : Fin 32) : EReal :=
  ∑ r : Fin 800000, if B2 (ix3 h r 0) = BitVec.ofNat 32 g.val then E2 (ix3 h r d) else 0

/-- A sum over 2·n rows is the sum over the first n plus the sum over the last n. -/
theorem sum_two_halves (n : ℕ) (f : ℕ → EReal) :
    ∑ r : Fin (n + n), f r.val = (∑ r : Fin n, f r.val) + ∑ r : Fin n, f (n + r.val) := by
  rw [← Finset.sum_range (fun i => f i), ← Finset.sum_range (fun i => f i), ← Finset.sum_range (fun i => f (n + i))]
  exact Finset.sum_range_add f n n

end Cert.Spec

end
-- ==== Proof.Ki.R0Acc.lean ====
/-
  Region 0 at the ideal instance: what the accumulator holds after each point, in closed form, and hence what the
  region leaves in its output array.

  Write h = t / 10 for the half and s = t % 10 for the step of point t. After point t the column-index scratch holds
  the column-index table and the accumulator holds, at (g, d), the sum over the first (s+1)*5000 rows n of half h of
  [id(h, n) = g] * x(h, n, d): step 0 starts from zeros, every later step adds its tile's 5000 rows to what the point
  before left. At the last step of a half this is the half's whole per-graph sum, and that is what the point writes to
  the output block.
-/
import proofs.«423693_j10393820857014_2_alg».proof.Proof.Ki.R0Sout
import proofs.«423693_j10393820857014_2_alg».proof.Proof.Ki.Pay
import proofs.«423693_j10393820857014_2_alg».proof.Proof.Ki.R0Blocks
import proofs.«423693_j10393820857014_2_alg».proof.Proof.SpecParts
import Mathlib.Algebra.BigOperators.Intervals

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Cert.KernelIdeal.Val

variable (V : (c : Dev nD) → (b : Ref sig .tc) → Buf (Elt Ideal) ((c : Thread nD τ).loc b))

/-- Row n of half h, as a summand for graph g and feature d (zero outside the half's 50000 rows). -/
def term0 (c : Dev nD) (h : ℕ) (g : Fin 512) (d : Fin 128) (n : ℕ) : EReal :=
  if hh : h < 2 then
    if hn : n < 50000 then
      (if (V c main_v4 : S2x50000x1.Idx → BitVec 32) (ix3 (⟨h, hh⟩ : Fin 2) (⟨n, hn⟩ : Fin 50000) (0 : Fin 1)) = BitVec.ofNat 32 g.val
        then (V c main_v3 : S2x50000x128.Idx → EReal) (ix3 (⟨h, hh⟩ : Fin 2) (⟨n, hn⟩ : Fin 50000) d) else 0)
    else 0
  else 0

/-- A one-hot factor times a value is the value where the words agree and zero elsewhere. -/
theorem onehot_mul (a b : BitVec 32) (x : EReal) : (if a = b then (1 : EReal) else 0) * x = if b = a then x else 0 := by
  by_cases h : a = b
  · rw [if_pos h, if_pos h.symm, one_mul]
  · rw [if_neg h, if_neg (fun e => h e.symm), zero_mul]

/-- One accumulation step at point t: the tile's 5000 rows, as rows s*5000 .. s*5000+4999 of the half. -/
theorem step0 (c : Dev nD) (t : Fin cfg0.N) (g : Fin 512) (d : Fin 128) :
    (∑ r : Fin 5000, (if (k0_pay2 : IVec S5000x512 32) (ix2 r g) = (iblk0 V c 1 t : Vec Ideal S1x5000x1 .i32) (ix3 (0 : Fin 1) r (0 : Fin 1)) then (1 : EReal) else 0)
        * (iblk0 V c 0 t : Vec Ideal S1x5000x128 .f32) (ix3 (0 : Fin 1) r d))
      = ∑ r ∈ Finset.range 5000, term0 V c (t.val / 10) g d (t.val % 10 * 5000 + r) := by
  have hN : t.val < 20 := lt_of_lt_of_eq t.isLt (show cfg0.N = 20 from N_0)
  rw [Finset.sum_range (fun r => term0 V c (t.val / 10) g d (t.val % 10 * 5000 + r))]
  refine Finset.sum_congr rfl fun r _ => ?_
  have hr := r.isLt
  rw [pay2_apply, iblk0_0_apply V c t r d, iblk0_1_apply V c t r, onehot_mul]
  unfold term0
  rw [dif_pos (by omega : t.val / 10 < 2), dif_pos (by omega : t.val % 10 * 5000 + r.val < 50000)]

/-- THE INVARIANT, by induction on the point. -/
theorem scAt0_inv (c : Dev nD) : ∀ (n : ℕ) (hn : n < cfg0.N),
    (scAt0 V c n hn).2 = k0_pay2 ∧
    ∀ (g : Fin 512) (d : Fin 128), (scAt0 V c n hn).1 (ix2 g d) = ∑ k ∈ Finset.range ((n % 10 + 1) * 5000), term0 V c (n / 10) g d k := by
  intro n
  induction n with
  | zero =>
    intro hn
    have e : scAt0 V c 0 hn = accA0 V c ⟨0, hn⟩ (Nat.zero_mod _) := scAt0_A V c ⟨0, hn⟩ (Nat.zero_mod _)
    rw [e]; unfold accA0; dsimp only
    refine ⟨sout0_A_1_eq .., fun g d => ?_⟩
    rw [sout0_A_0_eq, pay3_apply, pay1_apply, zero_add, step0 V c ⟨0, hn⟩ g d]
    show ∑ r ∈ Finset.range 5000, term0 V c (0 / 10) g d (0 % 10 * 5000 + r) = ∑ k ∈ Finset.range ((0 % 10 + 1) * 5000), term0 V c (0 / 10) g d k
    simp only [Nat.zero_mod, Nat.zero_div, Nat.zero_mul, Nat.zero_add, Nat.one_mul]
  | succ n ih =>
    intro hn
    have hN : n + 1 < 20 := lt_of_lt_of_eq hn (show cfg0.N = 20 from N_0)
    obtain ⟨ih2, ih1⟩ := ih (Nat.lt_of_succ_lt hn)
    by_cases h0 : (n + 1) % 10 = 0
    · have e : scAt0 V c (n + 1) hn = accA0 V c ⟨n + 1, hn⟩ h0 := scAt0_A V c ⟨n + 1, hn⟩ h0
      rw [e]; unfold accA0; dsimp only
      refine ⟨sout0_A_1_eq .., fun g d => ?_⟩
      rw [sout0_A_0_eq, pay3_apply, pay1_apply, zero_add, step0 V c ⟨n + 1, hn⟩ g d]
      show ∑ r ∈ Finset.range 5000, term0 V c ((n + 1) / 10) g d ((n + 1) % 10 * 5000 + r) = _
      rw [h0]; simp only [Nat.zero_mul, Nat.zero_add, Nat.one_mul]
    · have hdiv : (n + 1) / 10 = n / 10 := by omega
      have hmod : (n + 1) % 10 = n % 10 + 1 := by omega
      by_cases h1 : (n + 1) % 10 = 9
      · have e : scAt0 V c (n + 1) hn = accC0 V c ⟨n + 1, hn⟩ h1 (scAt0 V c n (Nat.lt_of_succ_lt hn)) := scAt0_C V c ⟨n + 1, hn⟩ h0 h1
        rw [e]; unfold accC0; dsimp only
        refine ⟨ih2, fun g d => ?_⟩
        rw [sout0_C_0_eq, pay3_apply, ih2, ih1 g d, step0 V c ⟨n + 1, hn⟩ g d]
        show _ + ∑ r ∈ Finset.range 5000, term0 V c ((n + 1) / 10) g d ((n + 1) % 10 * 5000 + r) = _
        rw [hdiv, hmod, show (n % 10 + 1 + 1) * 5000 = (n % 10 + 1) * 5000 + 5000 from by ring, Finset.sum_range_add]
      · have e : scAt0 V c (n + 1) hn = accB0 V c ⟨n + 1, hn⟩ h0 h1 (scAt0 V c n (Nat.lt_of_succ_lt hn)) := scAt0_B V c ⟨n + 1, hn⟩ h0 h1
        rw [e]; unfold accB0; dsimp only
        refine ⟨ih2, fun g d => ?_⟩
        rw [sout0_B_0_eq, pay3_apply, ih2, ih1 g d, step0 V c ⟨n + 1, hn⟩ g d]
        show _ + ∑ r ∈ Finset.range 5000, term0 V c ((n + 1) / 10) g d ((n + 1) % 10 * 5000 + r) = _
        rw [hdiv, hmod, show (n % 10 + 1 + 1) * 5000 = (n % 10 + 1) * 5000 + 5000 from by ring, Finset.sum_range_add]

/-- All 50000 rows of a half: the half's per-graph sum. -/
theorem sum_term0_all (c : Dev nD) (h : Fin 2) (g : Fin 512) (d : Fin 128) :
    ∑ k ∈ Finset.range 50000, term0 V c h.val g d k
      = Cert.Spec.partX (V c main_v3 : S2x50000x128.Idx → EReal) (V c main_v4 : S2x50000x1.Idx → BitVec 32) h g d := by
  rw [Finset.sum_range (fun k => term0 V c h.val g d k)]
  unfold Cert.Spec.partX
  refine Finset.sum_congr rfl fun r _ => ?_
  unfold term0
  rw [dif_pos h.isLt, dif_pos r.isLt]

/-- The block a last point writes is the half's per-graph sum. -/
theorem out2At0_last (c : Dev nD) (t : Fin cfg0.N) (h1 : t.val % 10 = 9) (g : Fin 512) (d : Fin 128) :
    out2At0 V c t (ix3 (0 : Fin 1) g d)
      = Cert.Spec.partX (V c main_v3 : S2x50000x128.Idx → EReal) (V c main_v4 : S2x50000x1.Idx → BitVec 32)
          (⟨t.val / 10, by have := t.isLt; have : cfg0.N = 20 := N_0; omega⟩ : Fin 2) g d := by
  have hN : t.val < 20 := lt_of_lt_of_eq t.isLt (show cfg0.N = 20 from N_0)
  have h0 : ¬t.val % 10 = 0 := by omega
  rw [out2At0_C V c t h1, out0_C_2_eq, pay4_apply]
  have e := scAt0_C V c t h0 h1
  have hinv := (scAt0_inv V c t.val t.isLt).2 g d
  rw [e] at hinv
  unfold accC0 at hinv
  dsimp only at hinv
  rw [sout0_C_0_eq] at hinv
  rw [hinv, h1]
  exact sum_term0_all V c ⟨t.val / 10, by omega⟩ g d

/-- What region 0 leaves in its output array: at (h, g, d) the per-graph sum of half h. -/
theorem arr0_eq (c : Dev nD) :
    (dat0 V c).arrAt 2 cfg0.N
      = fun j : S2x512x128.Idx => Cert.Spec.partX (V c main_v3 : S2x50000x128.Idx → EReal) (V c main_v4 : S2x50000x1.Idx → BitVec 32) (j 0) (j 1) (j 2) :=
  arrAt0_2 V c _ fun t h1 g d => out2At0_last V c t h1 g d

end Cert.KernelIdeal.Fr

end
-- ==== Proof.Ki.R1Sout.lean ====
/-
  Region 1: what each case leaves, as the body's own arithmetic. The pieces the run found are whole-buffer stores, so
  reading them back gives the last store's payload; a load that follows a store in the same run reads that store's
  payload. Hence: after a step-0 point the index table is the column-index table and the accumulator is one
  accumulation step over zeros; after any other point the accumulator is one step over what came in; the output block
  of a last point is the accumulator just written.
-/
import proofs.«423693_j10393820857014_2_alg».proof.Proof.Ki.R1Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2_1 : (![0, 0] : Fin 2 → ℕ) = fun _ => 0 := by funext a; fin_cases a <;> rfl
theorem hz3_1 : (![0, 0, 0] : Fin 3 → ℕ) = fun _ => 0 := by funext a; fin_cases a <;> rfl

theorem sout1_B_0_eq (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : ¬cond1_1 i)
    (x0 : Vec F S1x4000x32 .f32) (x1 : Vec F S1x4000x1 .i32) (xs0 : Vec F S512x32 .f32) (xs1 : Vec F S4000x512 .i32) :
    sout1_B_0 c i arg2 harg2 arg3 harg3 arg4 harg4 arg5 harg5 arg6 harg6 hc0 hc1 x0 x1 xs0 xs1 = k1_pay3 x0 x1 xs1 xs0 := by
  unfold sout1_B_0
  rw [View.read_writes_eq_canon _ _ _ (scover1_B_0 c i arg2 harg2 arg3 harg3 arg4 harg4 arg5 harg5 arg6 harg6 hc0 hc1 x0 x1 xs0 xs1)]
  unfold kernelRun1_B
  dsimp only
  sl_unfold_words
  rw [View.canon_unit_zero (S := S512x32) hz2_1]
  simp only [View.readAt_eq_ld, harg2.read_unread, harg3.read_unread, harg5.read_unread, harg6.read_unread,
    View.ld_unit_zero (S := S1x4000x32) hz3_1, View.ld_unit_zero (S := S1x4000x1) hz3_1, View.ld_unit_zero (S := S4000x512) hz2_1, View.ld_unit_zero (S := S512x32) hz2_1]

theorem sout1_C_0_eq (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i)
    (x0 : Vec F S1x4000x32 .f32) (x1 : Vec F S1x4000x1 .i32) (xs0 : Vec F S512x32 .f32) (xs1 : Vec F S4000x512 .i32) :
    sout1_C_0 c i arg2 harg2 arg3 harg3 arg4 harg4 arg5 harg5 arg6 harg6 hc0 hc1 x0 x1 xs0 xs1 = k1_pay3 x0 x1 xs1 xs0 := by
  unfold sout1_C_0
  rw [View.read_writes_eq_canon _ _ _ (scover1_C_0 c i arg2 harg2 arg3 harg3 arg4 harg4 arg5 harg5 arg6 harg6 hc0 hc1 x0 x1 xs0 xs1)]
  unfold kernelRun1_C
  dsimp only
  sl_unfold_words
  rw [View.canon_unit_zero (S := S512x32) hz2_1]
  simp only [View.readAt_eq_ld, harg2.read_unread, harg3.read_unread, harg5.read_unread, harg6.read_unread,
    View.ld_unit_zero (S := S1x4000x32) hz3_1, View.ld_unit_zero (S := S1x4000x1) hz3_1, View.ld_unit_zero (S := S4000x512) hz2_1, View.ld_unit_zero (S := S512x32) hz2_1]

theorem out1_C_2_eq (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : ¬cond1_0 i) (hc1 : cond1_1 i)
    (x0 : Vec F S1x4000x32 .f32) (x1 : Vec F S1x4000x1 .i32) (xs0 : Vec F S512x32 .f32) (xs1 : Vec F S4000x512 .i32) :
    out1_C_2 c i arg2 harg2 arg3 harg3 arg4 harg4 arg5 harg5 arg6 harg6 hc0 hc1 x0 x1 xs0 xs1 = k1_pay4 (k1_pay3 x0 x1 xs1 xs0) := by
  unfold out1_C_2
  rw [View.read_writes_eq_canon _ _ _ (cover1_C_2 c i arg2 harg2 arg3 harg3 arg4 harg4 arg5 harg5 arg6 harg6 hc0 hc1 x0 x1 xs0 xs1)]
  unfold kernelRun1_C
  dsimp only
  sl_unfold_words
  rw [View.canon_unit_zero (S := S1x512x32) hz3_1, View.readCov_unit_zero (S := S512x32) _ hz2_1]
  simp only [View.readAt_eq_ld, harg2.read_unread, harg3.read_unread, harg5.read_unread, harg6.read_unread,
    View.ld_unit_zero (S := S1x4000x32) hz3_1, View.ld_unit_zero (S := S1x4000x1) hz3_1, View.ld_unit_zero (S := S4000x512) hz2_1, View.ld_unit_zero (S := S512x32) hz2_1]

theorem sout1_A_1_eq (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i)
    (x0 : Vec F S1x4000x32 .f32) (x1 : Vec F S1x4000x1 .i32) :
    sout1_A_1 c i arg2 harg2 arg3 harg3 arg4 harg4 arg5 harg5 arg6 harg6 hc0 hc1 x0 x1 = k1_pay2 := by
  unfold sout1_A_1
  rw [View.read_writes_eq_canon _ _ _ (scover1_A_1 c i arg2 harg2 arg3 harg3 arg4 harg4 arg5 harg5 arg6 harg6 hc0 hc1 x0 x1)]
  unfold kernelRun1_A
  dsimp only
  sl_unfold_words
  rw [View.canon_unit_zero (S := S4000x512) hz2_1]

theorem sout1_A_0_eq (c : Dev nD) (i : grid1.Coords) (arg2 : Memref sig .tc .vmem S1x4000x32 .f32) (harg2 : arg2.IsWhole) (arg3 : Memref sig .tc .vmem S1x4000x1 .i32) (harg3 : arg3.IsWhole) (arg4 : Memref sig .tc .vmem S1x512x32 .f32) (harg4 : arg4.IsWhole) (arg5 : Memref sig .tc .vmem S512x32 .f32) (harg5 : arg5.IsWhole) (arg6 : Memref sig .tc .vmem S4000x512 .i32) (harg6 : arg6.IsWhole) (hc0 : cond1_0 i) (hc1 : ¬cond1_1 i)
    (x0 : Vec F S1x4000x32 .f32) (x1 : Vec F S1x4000x1 .i32) :
    sout1_A_0 c i arg2 harg2 arg3 harg3 arg4 harg4 arg5 harg5 arg6 harg6 hc0 hc1 x0 x1 = k1_pay3 x0 x1 k1_pay2 (k1_pay1 (F := F)) := by
  unfold sout1_A_0
  rw [View.read_writes_eq_canon _ _ _ (scover1_A_0 c i arg2 harg2 arg3 harg3 arg4 harg4 arg5 harg5 arg6 harg6 hc0 hc1 x0 x1)]
  unfold kernelRun1_A
  dsimp only
  sl_unfold_words
  rw [View.canon_cons_unit_zero (S := S512x32) hz2_1, View.readCov_unit_zero (S := S4000x512) _ hz2_1, View.readCov_unit_zero (S := S512x32) _ hz2_1]
  simp only [View.readAt_eq_ld, harg2.read_unread, harg3.read_unread, View.ld_unit_zero (S := S1x4000x32) hz3_1, View.ld_unit_zero (S := S1x4000x1) hz3_1]

end Cert.KernelIdeal.Fr

end
-- ==== Proof.Ki.R1Blocks.lean ====
/-
  Region 1 (the edge aggregation): its windows' blocks as parts of their arrays, by coordinates.

  The grid is 2 x 200, row-major: point t has half t / 200 and step t % 200. Window 0 stages the features
  [2, 800000, 32] in blocks [1, 4000, 32] at block index (half, step, 0), window 1 the segment ids [2, 800000, 1] in
  blocks [1, 4000, 1] at (half, step, 0), and window 2 writes the output [2, 512, 32] in blocks [1, 512, 32] at
  (half, 0, 0), at the last step of each half only. An element of a block sits in the array, axis by axis, at the
  block index times the block's size plus its own coordinate. So row r of the input block at point t is row
  (t % 200) * 4000 + r of half t / 200, and the two output blocks written at t = 199 and t = 399 are the two halves of
  the output array, which they cover.
-/
import proofs.«423693_j10393820857014_2_alg».proof.Proof.Ki.R1Frame
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The index maps, decided over the grid -/

/-- Window 0's block index at point t is (half, step, 0). -/
theorem idx1_0 : ∀ t : Fin cfg1.N, win1_0.index t (0 : Fin 3) = t.val / 200 ∧ win1_0.index t (1 : Fin 3) = t.val % 200
    ∧ win1_0.index t (2 : Fin 3) = 0 :=
  (by decide +kernel : ∀ t : Fin grid1.N, win1_0.index t (0 : Fin 3) = t.val / 200 ∧ win1_0.index t (1 : Fin 3) = t.val % 200
    ∧ win1_0.index t (2 : Fin 3) = 0)

/-- Window 1's block index at point t is (half, step, 0). -/
theorem idx1_1 : ∀ t : Fin cfg1.N, win1_1.index t (0 : Fin 3) = t.val / 200 ∧ win1_1.index t (1 : Fin 3) = t.val % 200
    ∧ win1_1.index t (2 : Fin 3) = 0 :=
  (by decide +kernel : ∀ t : Fin grid1.N, win1_1.index t (0 : Fin 3) = t.val / 200 ∧ win1_1.index t (1 : Fin 3) = t.val % 200
    ∧ win1_1.index t (2 : Fin 3) = 0)

/-- Window 2's block index at point t is (half, 0, 0). -/
theorem idx1_2 : ∀ t : Fin cfg1.N, win1_2.index t (0 : Fin 3) = t.val / 200 ∧ win1_2.index t (1 : Fin 3) = 0
    ∧ win1_2.index t (2 : Fin 3) = 0 :=
  (by decide +kernel : ∀ t : Fin grid1.N, win1_2.index t (0 : Fin 3) = t.val / 200 ∧ win1_2.index t (1 : Fin 3) = 0
    ∧ win1_2.index t (2 : Fin 3) = 0)

/-! ## The input blocks, by coordinates -/

/-- Row r, column d of window 0's block at point t is row (t % 200) * 4000 + r, column d of half t / 200. -/
theorem iblk1_0_apply (c : Dev nD) (t : Fin cfg1.N) (r : Fin 4000) (d : Fin 32) :
    iblk1 V c 0 t (ix3 (0 : Fin 1) r d)
      = V c main_v5 (ix3 (⟨t.val / 200, by have := t.isLt; have : cfg1.N = 400 := N_1; omega⟩ : Fin 2)
          (⟨t.val % 200 * 4000 + r.val, by have := r.isLt; omega⟩ : Fin 800000) d) := by
  unfold iblk1
  rw [View.read_apply]
  obtain ⟨e0, e1, e2⟩ := idx1_0 t
  show V c main_v5 (((cfg1.win 0).blk t).view.emb (ix3 (0 : Fin 1) r d)) = _
  refine congrArg (V c main_v5) (funext fun a => Fin.ext ?_)
  match a with
  | ⟨0, _⟩ => show win1_0.index t (0 : Fin 3) * 1 + 1 * 0 = t.val / 200; omega
  | ⟨1, _⟩ => show win1_0.index t (1 : Fin 3) * 4000 + 1 * r.val = t.val % 200 * 4000 + r.val; omega
  | ⟨2, _⟩ => show win1_0.index t (2 : Fin 3) * 32 + 1 * d.val = d.val; omega

/-- Row r of window 1's block at point t is row (t % 200) * 4000 + r of half t / 200. -/
theorem iblk1_1_apply (c : Dev nD) (t : Fin cfg1.N) (r : Fin 4000) :
    iblk1 V c 1 t (ix3 (0 : Fin 1) r (0 : Fin 1))
      = V c main_v6 (ix3 (⟨t.val / 200, by have := t.isLt; have : cfg1.N = 400 := N_1; omega⟩ : Fin 2)
          (⟨t.val % 200 * 4000 + r.val, by have := r.isLt; omega⟩ : Fin 800000) (0 : Fin 1)) := by
  unfold iblk1
  rw [View.read_apply]
  obtain ⟨e0, e1, e2⟩ := idx1_1 t
  show V c main_v6 (((cfg1.win 1).blk t).view.emb (ix3 (0 : Fin 1) r (0 : Fin 1))) = _
  refine congrArg (V c main_v6) (funext fun a => Fin.ext ?_)
  match a with
  | ⟨0, _⟩ => show win1_1.index t (0 : Fin 3) * 1 + 1 * 0 = t.val / 200; omega
  | ⟨1, _⟩ => show win1_1.index t (1 : Fin 3) * 4000 + 1 * r.val = t.val % 200 * 4000 + r.val; omega
  | ⟨2, _⟩ => show win1_1.index t (2 : Fin 3) * 1 + 1 * 0 = 0; omega

/-! ## The output array after the region -/

/-- The output array after the region: if at every last point the block the body wrote is the matching block of one
    whole-array function G, the array ends holding G. The two last points t = 199 and t = 399 write the halves 0 and
    1, and index (h, g, d) lies in the block of point h * 200 + 199. -/
theorem arrAt1_2 (c : Dev nD) (G : S2x512x32.Idx → Elt F .f32)
    (hG : ∀ t : Fin cfg1.N, t.val % 200 = 199 → ∀ (g : Fin 512) (d : Fin 32),
      out2At1 V c t (ix3 (0 : Fin 1) g d)
        = G (ix3 (⟨t.val / 200, by have := t.isLt; have : cfg1.N = 400 := N_1; omega⟩ : Fin 2) g d)) :
    (dat1 V c).arrAt 2 cfg1.N = G := by
  refine (dat1 V c).arrAt_eq_of_cover 2 G (fun t hf => ?_) (fun i => ?_)
  · -- what a last point writes back is its block of G
    have h9 : t.val % 200 = 199 := (flush1_2 t).mp hf
    obtain ⟨e0, e1, e2⟩ := idx1_2 t
    show (cfg1.win 2).cut (grid1.coords t) ((dat1 V c).after 2 t) = _
    rw [after1_2]
    funext j
    obtain ⟨u, g, d, rfl⟩ : ∃ (u : Fin 1) (g : Fin 512) (d : Fin 32), j = ix3 u g d :=
      ⟨j 0, j 1, j 2, eq_ix3 (n0 := 1) (n1 := 512) (n2 := 32) j⟩
    have hu : u = 0 := Subsingleton.elim _ _
    subst hu
    rw [View.read_apply]
    show out2At1 V c t (ix3 (0 : Fin 1) g d) = G (((cfg1.win 2).blk t).view.emb (ix3 (0 : Fin 1) g d))
    rw [hG t h9 g d]
    refine congrArg G (funext fun a => Fin.ext ?_)
    match a with
    | ⟨0, _⟩ => show t.val / 200 = win1_2.index t (0 : Fin 3) * 1 + 1 * 0; omega
    | ⟨1, _⟩ => show g.val = win1_2.index t (1 : Fin 3) * 512 + 1 * g.val; omega
    | ⟨2, _⟩ => show d.val = win1_2.index t (2 : Fin 3) * 32 + 1 * d.val; omega
  · -- every index of the array is in a last point's block
    obtain ⟨h, g, d, rfl⟩ : ∃ (h : Fin 2) (g : Fin 512) (d : Fin 32), i = ix3 h g d :=
      ⟨i 0, i 1, i 2, eq_ix3 (n0 := 2) (n1 := 512) (n2 := 32) i⟩
    have hN : cfg1.N = 400 := N_1
    have hh : h.val < 2 := h.isLt
    have hg : g.val < 512 := g.isLt
    have hd : d.val < 32 := d.isLt
    have ht : h.val * 200 + 199 < cfg1.N := by omega
    obtain ⟨e0, e1, e2⟩ := idx1_2 ⟨h.val * 200 + 199, ht⟩
    have e0' : win1_2.index ⟨h.val * 200 + 199, ht⟩ (0 : Fin 3) = (h.val * 200 + 199) / 200 := e0
    refine ⟨⟨h.val * 200 + 199, ht⟩, (flush1_2 _).mpr (by show (h.val * 200 + 199) % 200 = 199; omega), ?_⟩
    show ix3 h g d ∈ ((View.whole main_v8).slice (win1_2.rect ⟨h.val * 200 + 199, ht⟩)).set
    rw [View.set_slice_whole, Rect.mem_set_unit]
    intro a
    match a with
    | ⟨0, _⟩ =>
      show win1_2.index ⟨h.val * 200 + 199, ht⟩ (0 : Fin 3) * 1 ≤ h.val
        ∧ h.val < win1_2.index ⟨h.val * 200 + 199, ht⟩ (0 : Fin 3) * 1 + 1
      omega
    | ⟨1, _⟩ =>
      show win1_2.index ⟨h.val * 200 + 199, ht⟩ (1 : Fin 3) * 512 ≤ g.val
        ∧ g.val < win1_2.index ⟨h.val * 200 + 199, ht⟩ (1 : Fin 3) * 512 + 512
      omega
    | ⟨2, _⟩ =>
      show win1_2.index ⟨h.val * 200 + 199, ht⟩ (2 : Fin 3) * 32 ≤ d.val
        ∧ d.val < win1_2.index ⟨h.val * 200 + 199, ht⟩ (2 : Fin 3) * 32 + 32
      omega

end Cert.KernelIdeal.Fr

end
-- ==== Proof.Ki.R1Acc.lean ====
/-
  Region 1 at the ideal instance: what the accumulator holds after each point, in closed form, and hence what the
  region leaves in its output array.

  Write h = t / 200 for the half and s = t % 200 for the step of point t. After point t the column-index scratch holds
  the column-index table and the accumulator holds, at (g, d), the sum over the first (s+1)*4000 rows n of half h of
  [id(h, n) = g] * x(h, n, d): step 0 starts from zeros, every later step adds its tile's 4000 rows to what the point
  before left. At the last step of a half this is the half's whole per-graph sum, and that is what the point writes to
  the output block.
-/
import proofs.«423693_j10393820857014_2_alg».proof.Proof.Ki.R1Sout
import proofs.«423693_j10393820857014_2_alg».proof.Proof.Ki.Pay
import proofs.«423693_j10393820857014_2_alg».proof.Proof.Ki.R1Blocks
import proofs.«423693_j10393820857014_2_alg».proof.Proof.SpecParts
import Mathlib.Algebra.BigOperators.Intervals

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Cert.KernelIdeal.Val.R1

variable (V : (c : Dev nD) → (b : Ref sig .tc) → Buf (Elt Ideal) ((c : Thread nD τ).loc b))

/-- Row n of half h, as a summand for graph g and feature d (zero outside the half's 800000 rows). -/
def term1 (c : Dev nD) (h : ℕ) (g : Fin 512) (d : Fin 32) (n : ℕ) : EReal :=
  if hh : h < 2 then
    if hn : n < 800000 then
      (if (V c main_v6 : S2x800000x1.Idx → BitVec 32) (ix3 (⟨h, hh⟩ : Fin 2) (⟨n, hn⟩ : Fin 800000) (0 : Fin 1)) = BitVec.ofNat 32 g.val
        then (V c main_v5 : S2x800000x32.Idx → EReal) (ix3 (⟨h, hh⟩ : Fin 2) (⟨n, hn⟩ : Fin 800000) d) else 0)
    else 0
  else 0

/-- A one-hot factor times a value is the value where the words agree and zero elsewhere. -/
theorem onehot_mul1 (a b : BitVec 32) (x : EReal) : (if a = b then (1 : EReal) else 0) * x = if b = a then x else 0 := by
  by_cases h : a = b
  · rw [if_pos h, if_pos h.symm, one_mul]
  · rw [if_neg h, if_neg (fun e => h e.symm), zero_mul]

/-- One accumulation step at point t: the tile's 4000 rows, as rows s*4000 .. s*4000+4999 of the half. -/
theorem step1 (c : Dev nD) (t : Fin cfg1.N) (g : Fin 512) (d : Fin 32) :
    (∑ r : Fin 4000, (if (k1_pay2 : IVec S4000x512 32) (ix2 r g) = (iblk1 V c 1 t : Vec Ideal S1x4000x1 .i32) (ix3 (0 : Fin 1) r (0 : Fin 1)) then (1 : EReal) else 0)
        * (iblk1 V c 0 t : Vec Ideal S1x4000x32 .f32) (ix3 (0 : Fin 1) r d))
      = ∑ r ∈ Finset.range 4000, term1 V c (t.val / 200) g d (t.val % 200 * 4000 + r) := by
  have hN : t.val < 400 := lt_of_lt_of_eq t.isLt (show cfg1.N = 400 from N_1)
  rw [Finset.sum_range (fun r => term1 V c (t.val / 200) g d (t.val % 200 * 4000 + r))]
  refine Finset.sum_congr rfl fun r _ => ?_
  have hr := r.isLt
  rw [pay2_apply, iblk1_0_apply V c t r d, iblk1_1_apply V c t r, onehot_mul1]
  unfold term1
  rw [dif_pos (by omega : t.val / 200 < 2), dif_pos (by omega : t.val % 200 * 4000 + r.val < 800000)]

/-- THE INVARIANT, by induction on the point. -/
theorem scAt1_inv (c : Dev nD) : ∀ (n : ℕ) (hn : n < cfg1.N),
    (scAt1 V c n hn).2 = k1_pay2 ∧
    ∀ (g : Fin 512) (d : Fin 32), (scAt1 V c n hn).1 (ix2 g d) = ∑ k ∈ Finset.range ((n % 200 + 1) * 4000), term1 V c (n / 200) g d k := by
  intro n
  induction n with
  | zero =>
    intro hn
    have e : scAt1 V c 0 hn = accA1 V c ⟨0, hn⟩ (Nat.zero_mod _) := scAt1_A V c ⟨0, hn⟩ (Nat.zero_mod _)
    rw [e]; unfold accA1; dsimp only
    refine ⟨sout1_A_1_eq .., fun g d => ?_⟩
    rw [sout1_A_0_eq, pay3_apply, pay1_apply, zero_add, step1 V c ⟨0, hn⟩ g d]
    show ∑ r ∈ Finset.range 4000, term1 V c (0 / 200) g d (0 % 200 * 4000 + r) = ∑ k ∈ Finset.range ((0 % 200 + 1) * 4000), term1 V c (0 / 200) g d k
    simp only [Nat.zero_mod, Nat.zero_div, Nat.zero_mul, Nat.zero_add, Nat.one_mul]
  | succ n ih =>
    intro hn
    have hN : n + 1 < 400 := lt_of_lt_of_eq hn (show cfg1.N = 400 from N_1)
    obtain ⟨ih2, ih1⟩ := ih (Nat.lt_of_succ_lt hn)
    by_cases h0 : (n + 1) % 200 = 0
    · have e : scAt1 V c (n + 1) hn = accA1 V c ⟨n + 1, hn⟩ h0 := scAt1_A V c ⟨n + 1, hn⟩ h0
      rw [e]; unfold accA1; dsimp only
      refine ⟨sout1_A_1_eq .., fun g d => ?_⟩
      rw [sout1_A_0_eq, pay3_apply, pay1_apply, zero_add, step1 V c ⟨n + 1, hn⟩ g d]
      show ∑ r ∈ Finset.range 4000, term1 V c ((n + 1) / 200) g d ((n + 1) % 200 * 4000 + r) = _
      rw [h0]; simp only [Nat.zero_mul, Nat.zero_add, Nat.one_mul]
    · have hdiv : (n + 1) / 200 = n / 200 := by omega
      have hmod : (n + 1) % 200 = n % 200 + 1 := by omega
      by_cases h1 : (n + 1) % 200 = 199
      · have e : scAt1 V c (n + 1) hn = accC1 V c ⟨n + 1, hn⟩ h1 (scAt1 V c n (Nat.lt_of_succ_lt hn)) := scAt1_C V c ⟨n + 1, hn⟩ h0 h1
        rw [e]; unfold accC1; dsimp only
        refine ⟨ih2, fun g d => ?_⟩
        rw [sout1_C_0_eq, pay3_apply, ih2, ih1 g d, step1 V c ⟨n + 1, hn⟩ g d]
        show _ + ∑ r ∈ Finset.range 4000, term1 V c ((n + 1) / 200) g d ((n + 1) % 200 * 4000 + r) = _
        rw [hdiv, hmod, show (n % 200 + 1 + 1) * 4000 = (n % 200 + 1) * 4000 + 4000 from by ring, Finset.sum_range_add]
      · have e : scAt1 V c (n + 1) hn = accB1 V c ⟨n + 1, hn⟩ h0 h1 (scAt1 V c n (Nat.lt_of_succ_lt hn)) := scAt1_B V c ⟨n + 1, hn⟩ h0 h1
        rw [e]; unfold accB1; dsimp only
        refine ⟨ih2, fun g d => ?_⟩
        rw [sout1_B_0_eq, pay3_apply, ih2, ih1 g d, step1 V c ⟨n + 1, hn⟩ g d]
        show _ + ∑ r ∈ Finset.range 4000, term1 V c ((n + 1) / 200) g d ((n + 1) % 200 * 4000 + r) = _
        rw [hdiv, hmod, show (n % 200 + 1 + 1) * 4000 = (n % 200 + 1) * 4000 + 4000 from by ring, Finset.sum_range_add]

/-- All 800000 rows of a half: the half's per-graph sum. -/
theorem sum_term1_all (c : Dev nD) (h : Fin 2) (g : Fin 512) (d : Fin 32) :
    ∑ k ∈ Finset.range 800000, term1 V c h.val g d k
      = Cert.Spec.partE (V c main_v5 : S2x800000x32.Idx → EReal) (V c main_v6 : S2x800000x1.Idx → BitVec 32) h g d := by
  rw [Finset.sum_range (fun k => term1 V c h.val g d k)]
  unfold Cert.Spec.partE
  refine Finset.sum_congr rfl fun r _ => ?_
  unfold term1
  rw [dif_pos h.isLt, dif_pos r.isLt]

/-- The block a last point writes is the half's per-graph sum. -/
theorem out2At1_last (c : Dev nD) (t : Fin cfg1.N) (h1 : t.val % 200 = 199) (g : Fin 512) (d : Fin 32) :
    out2At1 V c t (ix3 (0 : Fin 1) g d)
      = Cert.Spec.partE (V c main_v5 : S2x800000x32.Idx → EReal) (V c main_v6 : S2x800000x1.Idx → BitVec 32)
          (⟨t.val / 200, by have := t.isLt; have : cfg1.N = 400 := N_1; omega⟩ : Fin 2) g d := by
  have hN : t.val < 400 := lt_of_lt_of_eq t.isLt (show cfg1.N = 400 from N_1)
  have h0 : ¬t.val % 200 = 0 := by omega
  rw [out2At1_C V c t h1, out1_C_2_eq, pay4_apply]
  have e := scAt1_C V c t h0 h1
  have hinv := (scAt1_inv V c t.val t.isLt).2 g d
  rw [e] at hinv
  unfold accC1 at hinv
  dsimp only at hinv
  rw [sout1_C_0_eq] at hinv
  rw [hinv, h1]
  exact sum_term1_all V c ⟨t.val / 200, by omega⟩ g d

/-- What region 1 leaves in its output array: at (h, g, d) the per-graph sum of half h. -/
theorem arr1_eq (c : Dev nD) :
    (dat1 V c).arrAt 2 cfg1.N
      = fun j : S2x512x32.Idx => Cert.Spec.partE (V c main_v5 : S2x800000x32.Idx → EReal) (V c main_v6 : S2x800000x1.Idx → BitVec 32) (j 0) (j 1) (j 2) :=
  arrAt1_2 V c _ fun t h1 g d => out2At1_last V c t h1 g d

end Cert.KernelIdeal.Fr

end
-- ==== Proof.SumLaws.lean ====
/-
  Laws of sums used to put the two halves of a segment sum back together: a reshape of the rows into two halves read
  at an index, a reduction over an axis of extent 2 as the sum of its two slices, and the sum of the two half segment
  sums as the whole segment sum.
-/
import proofs.«423693_j10393820857014_2_alg».proof.Proof.SpecParts
import Idealize.ShloMosaic.PureOps.Ideal
import Idealize.ShloMosaic.PureOps.Ideal.Laws
import Idealize.ShloMosaic.Lib.ValueIdx
import Idealize.ShloMosaic.Lib.Pipeline.Value
import Mathlib.Algebra.BigOperators.Fin

noncomputable section

namespace Cert.Spec

open Idealize.ShloMosaic Idealize.ShloMosaic.ValueIdx

/-! ## The two halves make the whole -/

/-- The node segment sum is the sum of its two halves: rows 0..49999 and rows 50000..99999. -/
theorem segX_of_parts (x : (⟨2, ![100000, 128]⟩ : Shape).Idx → EReal) (ids : (⟨1, ![100000]⟩ : Shape).Idx → BitVec 32)
    (X2 : (⟨3, ![2, 50000, 128]⟩ : Shape).Idx → EReal) (B2 : (⟨3, ![2, 50000, 1]⟩ : Shape).Idx → BitVec 32)
    (hX : ∀ (h : Fin 2) (r : Fin 50000) (d : Fin 128), X2 (ix3 h r d)
      = x (ix2 (⟨h.val * 50000 + r.val, by have := h.isLt; have := r.isLt; omega⟩ : Fin 100000) d))
    (hB : ∀ (h : Fin 2) (r : Fin 50000), B2 (ix3 h r (0 : Fin 1))
      = ids (ix1 (⟨h.val * 50000 + r.val, by have := h.isLt; have := r.isLt; omega⟩ : Fin 100000)))
    (g : Fin 512) (d : Fin 128) :
    partX X2 B2 0 g d + partX X2 B2 1 g d = segX x ids (ix2 g d) := by
  -- the summand as a total function of the row number: zero past the last row
  let f : ℕ → EReal := fun i =>
    if hi : i < 100000 then
      (if ids (ix1 (⟨i, hi⟩ : Fin 100000)) = BitVec.ofNat 32 g.val then x (ix2 (⟨i, hi⟩ : Fin 100000) d) else 0)
    else 0
  -- the whole sum, over 50000 + 50000 rows
  have hw : segX x ids (ix2 g d) = ∑ r : Fin (50000 + 50000), f r.val := by
    show (∑ r : Fin 100000, if ids (ix1 r) = BitVec.ofNat 32 g.val then x (ix2 r d) else 0)
      = ∑ r : Fin 100000, f r.val
    refine Finset.sum_congr rfl (fun r _ => ?_)
    show _ = dite _ _ _
    rw [dif_pos r.isLt]
  -- half 0 holds rows r, half 1 rows 50000 + r
  have h0 : partX X2 B2 0 g d = ∑ r : Fin 50000, f r.val := by
    unfold partX
    refine Finset.sum_congr rfl (fun r _ => ?_)
    have hr : r.val < 100000 := by have := r.isLt; omega
    show _ = dite _ _ _
    rw [dif_pos hr, hX 0 r d, hB 0 r]
    have he : (⟨(0 : Fin 2).val * 50000 + r.val, by have := r.isLt; show 0 * 50000 + r.val < 100000; omega⟩ : Fin 100000)
        = ⟨r.val, hr⟩ := Fin.ext (by show 0 * 50000 + r.val = r.val; omega)
    rw [he]
  have h1 : partX X2 B2 1 g d = ∑ r : Fin 50000, f (50000 + r.val) := by
    unfold partX
    refine Finset.sum_congr rfl (fun r _ => ?_)
    have hr : 50000 + r.val < 100000 := by have := r.isLt; omega
    show _ = dite _ _ _
    rw [dif_pos hr, hX 1 r d, hB 1 r]
    have he : (⟨(1 : Fin 2).val * 50000 + r.val, by have := r.isLt; show 1 * 50000 + r.val < 100000; omega⟩ : Fin 100000)
        = ⟨50000 + r.val, hr⟩ := Fin.ext (by show 1 * 50000 + r.val = 50000 + r.val; omega)
    rw [he]
  rw [hw, h0, h1]
  exact (sum_two_halves 50000 f).symm

/-- The edge segment sum is the sum of its two halves: rows 0..799999 and rows 800000..1599999. -/
theorem segE_of_parts (x : (⟨2, ![1600000, 32]⟩ : Shape).Idx → EReal) (ids : (⟨1, ![1600000]⟩ : Shape).Idx → BitVec 32)
    (X2 : (⟨3, ![2, 800000, 32]⟩ : Shape).Idx → EReal) (B2 : (⟨3, ![2, 800000, 1]⟩ : Shape).Idx → BitVec 32)
    (hX : ∀ (h : Fin 2) (r : Fin 800000) (d : Fin 32), X2 (ix3 h r d)
      = x (ix2 (⟨h.val * 800000 + r.val, by have := h.isLt; have := r.isLt; omega⟩ : Fin 1600000) d))
    (hB : ∀ (h : Fin 2) (r : Fin 800000), B2 (ix3 h r (0 : Fin 1))
      = ids (ix1 (⟨h.val * 800000 + r.val, by have := h.isLt; have := r.isLt; omega⟩ : Fin 1600000)))
    (g : Fin 512) (d : Fin 32) :
    partE X2 B2 0 g d + partE X2 B2 1 g d = segE x ids (ix2 g d) := by
  -- the summand as a total function of the row number: zero past the last row
  let f : ℕ → EReal := fun i =>
    if hi : i < 1600000 then
      (if ids (ix1 (⟨i, hi⟩ : Fin 1600000)) = BitVec.ofNat 32 g.val then x (ix2 (⟨i, hi⟩ : Fin 1600000) d) else 0)
    else 0
  -- the whole sum, over 800000 + 800000 rows
  have hw : segE x ids (ix2 g d) = ∑ r : Fin (800000 + 800000), f r.val := by
    show (∑ r : Fin 1600000, if ids (ix1 r) = BitVec.ofNat 32 g.val then x (ix2 r d) else 0)
      = ∑ r : Fin 1600000, f r.val
    refine Finset.sum_congr rfl (fun r _ => ?_)
    show _ = dite _ _ _
    rw [dif_pos r.isLt]
  -- half 0 holds rows r, half 1 rows 800000 + r
  have h0 : partE X2 B2 0 g d = ∑ r : Fin 800000, f r.val := by
    unfold partE
    refine Finset.sum_congr rfl (fun r _ => ?_)
    have hr : r.val < 1600000 := by have := r.isLt; omega
    show _ = dite _ _ _
    rw [dif_pos hr, hX 0 r d, hB 0 r]
    have he : (⟨(0 : Fin 2).val * 800000 + r.val, by have := r.isLt; show 0 * 800000 + r.val < 1600000; omega⟩ : Fin 1600000)
        = ⟨r.val, hr⟩ := Fin.ext (by show 0 * 800000 + r.val = r.val; omega)
    rw [he]
  have h1 : partE X2 B2 1 g d = ∑ r : Fin 800000, f (800000 + r.val) := by
    unfold partE
    refine Finset.sum_congr rfl (fun r _ => ?_)
    have hr : 800000 + r.val < 1600000 := by have := r.isLt; omega
    show _ = dite _ _ _
    rw [dif_pos hr, hX 1 r d, hB 1 r]
    have he : (⟨(1 : Fin 2).val * 800000 + r.val, by have := r.isLt; show 1 * 800000 + r.val < 1600000; omega⟩ : Fin 1600000)
        = ⟨800000 + r.val, hr⟩ := Fin.ext (by show 1 * 800000 + r.val = 800000 + r.val; omega)
    rw [he]
  rw [hw, h0, h1]
  exact (sum_two_halves 800000 f).symm

/-! ## A reduction over an axis of extent 2, from zero -/

/-- Over the x partial sums: the reduction over the axis of the two halves, started from zero, is half 0 plus half 1. -/
theorem reduce_halves_x (P : (⟨3, ![2, 512, 128]⟩ : Shape).Idx → EReal)
    (hr : (⟨3, ![2, 512, 128]⟩ : Shape).ReducesTo [0] ⟨2, ![512, 128]⟩) (h0 : 0 < (⟨0, ![]⟩ : Shape).numel)
    (g : Fin 512) (d : Fin 128) :
    Host.reduceAdd (F := Ideal) P (constant (F := Ideal) ⟨0, ![]⟩ .f32 0x00000000#32) hr h0 (ix2 g d)
      = P (ix3 0 g d) + P (ix3 1 g d) := by
  have hR : (⟨3, ![2, 512, 128]⟩ : Shape).Reduces [0] ⟨2, ![512, 128]⟩ := by decide
  show Ideal.hostReduceAdd hr P (Ideal.ofBits .f32 0x00000000#32) (ix2 g d) = _
  rw [Ideal.hostReduceAdd_single hr hR, Ideal.ofBits_zero_f32, zero_add]
  show ∑ k : Fin 2, P (hR.lift (ix2 g d) k) = _
  rw [Fin.sum_univ_two]
  -- the index over (g, d) with k inserted on the first axis is (k, g, d)
  have e0 : hR.lift (ix2 g d) (0 : Fin 2) = ix3 0 g d := by
    funext c; match c with | ⟨0, _⟩ => rfl | ⟨1, _⟩ => rfl | ⟨2, _⟩ => rfl
  have e1 : hR.lift (ix2 g d) (1 : Fin 2) = ix3 1 g d := by
    funext c; match c with | ⟨0, _⟩ => rfl | ⟨1, _⟩ => rfl | ⟨2, _⟩ => rfl
  rw [e0, e1]

/-- Over the e partial sums: the reduction over the axis of the two halves, started from zero, is half 0 plus half 1. -/
theorem reduce_halves_e (P : (⟨3, ![2, 512, 32]⟩ : Shape).Idx → EReal)
    (hr : (⟨3, ![2, 512, 32]⟩ : Shape).ReducesTo [0] ⟨2, ![512, 32]⟩) (h0 : 0 < (⟨0, ![]⟩ : Shape).numel)
    (g : Fin 512) (d : Fin 32) :
    Host.reduceAdd (F := Ideal) P (constant (F := Ideal) ⟨0, ![]⟩ .f32 0x00000000#32) hr h0 (ix2 g d)
      = P (ix3 0 g d) + P (ix3 1 g d) := by
  have hR : (⟨3, ![2, 512, 32]⟩ : Shape).Reduces [0] ⟨2, ![512, 32]⟩ := by decide
  show Ideal.hostReduceAdd hr P (Ideal.ofBits .f32 0x00000000#32) (ix2 g d) = _
  rw [Ideal.hostReduceAdd_single hr hR, Ideal.ofBits_zero_f32, zero_add]
  show ∑ k : Fin 2, P (hR.lift (ix2 g d) k) = _
  rw [Fin.sum_univ_two]
  -- the index over (g, d) with k inserted on the first axis is (k, g, d)
  have e0 : hR.lift (ix2 g d) (0 : Fin 2) = ix3 0 g d := by
    funext c; match c with | ⟨0, _⟩ => rfl | ⟨1, _⟩ => rfl | ⟨2, _⟩ => rfl
  have e1 : hR.lift (ix2 g d) (1 : Fin 2) = ix3 1 g d := by
    funext c; match c with | ⟨0, _⟩ => rfl | ⟨1, _⟩ => rfl | ⟨2, _⟩ => rfl
  rw [e0, e1]

/-! ## The reshapes into two halves, read at an index -/

/-- Rows [100000, 128] split into two halves [2, 50000, 128]: row r of half h is row h·50000 + r. -/
theorem reshape_x_apply {α : Type} (x : (⟨2, ![100000, 128]⟩ : Shape).Idx → α)
    (hc : (⟨2, ![100000, 128]⟩ : Shape).ShapeCasts ⟨3, ![2, 50000, 128]⟩) (h : Fin 2) (r : Fin 50000) (d : Fin 128) :
    shapeCast (⟨3, ![2, 50000, 128]⟩ : Shape) x hc (ix3 h r d)
      = x (ix2 (⟨h.val * 50000 + r.val, by have := h.isLt; have := r.isLt; omega⟩ : Fin 100000) d) :=
  shapeCast_apply x hc _ _ (by
    rw [Shape.rowMajor_val_two, Shape.rowMajor_val_three]
    show (h.val * 50000 + r.val) * 128 + d.val = (h.val * 50000 + r.val) * 128 + d.val
    rfl)

/-- Ids [100000] split into two halves [2, 50000, 1]: entry r of half h is entry h·50000 + r. -/
theorem reshape_ids_apply {α : Type} (b : (⟨1, ![100000]⟩ : Shape).Idx → α)
    (hc : (⟨1, ![100000]⟩ : Shape).ShapeCasts ⟨3, ![2, 50000, 1]⟩) (h : Fin 2) (r : Fin 50000) :
    shapeCast (⟨3, ![2, 50000, 1]⟩ : Shape) b hc (ix3 h r (0 : Fin 1))
      = b (ix1 (⟨h.val * 50000 + r.val, by have := h.isLt; have := r.isLt; omega⟩ : Fin 100000)) :=
  shapeCast_apply b hc _ _ (by
    rw [Shape.rowMajor_val_one, Shape.rowMajor_val_three]
    show h.val * 50000 + r.val = (h.val * 50000 + r.val) * 1 + 0
    omega)

/-- Rows [1600000, 32] split into two halves [2, 800000, 32]: row r of half h is row h·800000 + r. -/
theorem reshape_e_apply {α : Type} (x : (⟨2, ![1600000, 32]⟩ : Shape).Idx → α)
    (hc : (⟨2, ![1600000, 32]⟩ : Shape).ShapeCasts ⟨3, ![2, 800000, 32]⟩) (h : Fin 2) (r : Fin 800000) (d : Fin 32) :
    shapeCast (⟨3, ![2, 800000, 32]⟩ : Shape) x hc (ix3 h r d)
      = x (ix2 (⟨h.val * 800000 + r.val, by have := h.isLt; have := r.isLt; omega⟩ : Fin 1600000) d) :=
  shapeCast_apply x hc _ _ (by
    rw [Shape.rowMajor_val_two, Shape.rowMajor_val_three]
    show (h.val * 800000 + r.val) * 32 + d.val = (h.val * 800000 + r.val) * 32 + d.val
    rfl)

/-- Ids [1600000] split into two halves [2, 800000, 1]: entry r of half h is entry h·800000 + r. -/
theorem reshape_eids_apply {α : Type} (b : (⟨1, ![1600000]⟩ : Shape).Idx → α)
    (hc : (⟨1, ![1600000]⟩ : Shape).ShapeCasts ⟨3, ![2, 800000, 1]⟩) (h : Fin 2) (r : Fin 800000) :
    shapeCast (⟨3, ![2, 800000, 1]⟩ : Shape) b hc (ix3 h r (0 : Fin 1))
      = b (ix1 (⟨h.val * 800000 + r.val, by have := h.isLt; have := r.isLt; omega⟩ : Fin 1600000)) :=
  shapeCast_apply b hc _ _ (by
    rw [Shape.rowMajor_val_one, Shape.rowMajor_val_three]
    show h.val * 800000 + r.val = (h.val * 800000 + r.val) * 1 + 0
    omega)

end Cert.Spec

end
-- ==== Proof.Ki.Value.lean ====
/-
  The idealized kernel's result as a function of its arguments: the tail (concatenate, matrix product with W, plus
  the bias row) of the two segment sums. Each region leaves, per half, the half's per-graph sum; the host adds the
  two halves; the halves are the reshaped rows, so the sum is the segment sum over all rows. For the edges the id of
  an edge is the take of the node ids at the edge's target node, which under the precondition (every target index a
  valid index of the node-id vector) is the plain gather at the wrapped index.
-/
import proofs.«423693_j10393820857014_2_alg».proof.Proof.Ki.Host
import proofs.«423693_j10393820857014_2_alg».proof.Proof.Ki.R0Acc
import proofs.«423693_j10393820857014_2_alg».proof.Proof.Ki.R1Acc
import proofs.«423693_j10393820857014_2_alg».proof.Proof.SumLaws

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Cert.KernelIdeal.Val Cert.Spec

variable (m : (ℓ : Loc nD τ sig) → Buf (Elt Ideal) ℓ)

/-- The target node of every edge: row 1 of the edge index. -/
abbrev colOf (c : Dev nD) : IVec S1600000 32 :=
  shapeCast S1600000 (extractStridedSlice S1x1600000 ![1, 0] (m ((c.tc : Thread nD τ).loc main_arg1)) slices_S2x1600000_S1x1600000_1_0) shapeCasts_S1x1600000_S1600000

/-- The node features summed per graph: the two halves region 0 leaves, added. -/
theorem node_sum (c : Dev nD) :
    Host.reduceAdd (F := Ideal) (W5 m c main_v7) (constant (F := Ideal) S_ .f32 0x00000000#32) reducesTo_S2x512x128_S512x128_d0 h_S_
      = segX (m ((c.tc : Thread nD τ).loc main_arg0)) (m ((c.tc : Thread nD τ).loc main_arg4)) := by
  funext j
  obtain ⟨g, d, rfl⟩ : ∃ (g : Fin 512) (d : Fin 128), j = ix2 g d := ⟨j 0, j 1, eq_ix2 j⟩
  rw [W5_v7, arr0_eq (U3 m) c, reduce_halves_x _ reducesTo_S2x512x128_S512x128_d0 h_S_ g d]
  show partX (V3 m c main_v3 : S2x50000x128.Idx → EReal) (V3 m c main_v4 : S2x50000x1.Idx → BitVec 32) 0 g d
      + partX (V3 m c main_v3 : S2x50000x128.Idx → EReal) (V3 m c main_v4 : S2x50000x1.Idx → BitVec 32) 1 g d = _
  exact segX_of_parts _ _ _ _
    (fun h r d => by rw [V3_v3, V2_keep m c main_arg0 (by decide) (by decide)]; exact reshape_x_apply _ _ h r d)
    (fun h r => by rw [V3_v4, V2_keep m c main_arg4 (by decide) (by decide)]; exact reshape_ids_apply _ _ h r) g d

/-- The edge features summed per graph, each edge under the id its take gives it. -/
theorem edge_sum (c : Dev nD) :
    Host.reduceAdd (F := Ideal) (W5 m c main_v8) (constant (F := Ideal) S_ .f32 0x00000000#32) reducesTo_S2x512x32_S512x32_d0 h_S_
      = segE (m ((c.tc : Thread nD τ).loc main_arg2)) (takeK (colOf m c) (m ((c.tc : Thread nD τ).loc main_arg4))) := by
  funext j
  obtain ⟨g, d, rfl⟩ : ∃ (g : Fin 512) (d : Fin 32), j = ix2 g d := ⟨j 0, j 1, eq_ix2 j⟩
  rw [W5_v8, arr1_eq (U4 m) c, reduce_halves_e _ reducesTo_S2x512x32_S512x32_d0 h_S_ g d]
  show partE (U4 m c main_v5 : S2x800000x32.Idx → EReal) (U4 m c main_v6 : S2x800000x1.Idx → BitVec 32) 0 g d
      + partE (U4 m c main_v5 : S2x800000x32.Idx → EReal) (U4 m c main_v6 : S2x800000x1.Idx → BitVec 32) 1 g d = _
  exact segE_of_parts _ _ _ _
    (fun h r d => by rw [U4_in m c main_v5 (by decide), V3_v5, V2_keep m c main_arg2 (by decide) (by decide)]; exact reshape_e_apply _ _ h r d)
    (fun h r => by
      rw [U4_in m c main_v6 (by decide), V3_v6, V2_v2, V1_v1, V1_keep m c main_arg4 (by decide)]
      exact reshape_eids_apply _ _ h r) g d

/-- THE RESULT, under the range hypothesis on the edges' target indices. -/
theorem value (c : Dev nD)
    (hr : ∀ e : Fin 1600000, -100000 ≤ ((m ((c.tc : Thread nD τ).loc main_arg1) : IVec S2x1600000 32) (ix2 1 e)).toInt ∧ ((m ((c.tc : Thread nD τ).loc main_arg1) : IVec S2x1600000 32) (ix2 1 e)).toInt < 100000) :
    W6 m c main_v15 = tail (F := Ideal) (segX (m ((c.tc : Thread nD τ).loc main_arg0)) (m ((c.tc : Thread nD τ).loc main_arg4))) (segE (m ((c.tc : Thread nD τ).loc main_arg2)) (Host.gather gather_S100000_S1600000x1_S1600000_n_0_n_n_0_1_1 (m ((c.tc : Thread nD τ).loc main_arg4)) (broadcastInDim S1600000x1 ![0] bcast_S1600000_S1600000x1_0 (wrapIdx (colOf m c))))) (m ((c.tc : Thread nD τ).loc main_arg5)) (m ((c.tc : Thread nD τ).loc main_arg6)) := by
  rw [W6_v15, node_sum, edge_sum, W5_keep m c main_arg5 (by decide) (by decide) (by decide) (by decide) (by decide), W5_keep m c main_arg6 (by decide) (by decide) (by decide) (by decide) (by decide),
    takeK_eq_gather _ _ (fun e => by unfold colOf; rw [col_apply]; exact hr e)]

variable (ρ : Dev nD → PrngReg)

/-- The idealized kernel runs, ends with its result at the tail of the two segment sums, and leaves its arguments. -/
theorem run_value
    (hr : ∀ c : Dev nD, ∀ e : Fin 1600000, -100000 ≤ ((m ((c.tc : Thread nD τ).loc main_arg1) : IVec S2x1600000 32) (ix2 1 e)).toInt ∧ ((m ((c.tc : Thread nD τ).loc main_arg1) : IVec S2x1600000 32) (ix2 1 e)).toInt < 100000) :
    θ_run defs (onTc (τ := τ) (main (F := Ideal))) ⟨m, fun _ => 0, ρ⟩ (fun r => ∀ c : Dev nD,
      r.2.mem ((c.tc : Thread nD τ).loc main_v15) = tail (F := Ideal) (segX (m ((c.tc : Thread nD τ).loc main_arg0)) (m ((c.tc : Thread nD τ).loc main_arg4))) (segE (m ((c.tc : Thread nD τ).loc main_arg2)) (Host.gather gather_S100000_S1600000x1_S1600000_n_0_n_n_0_1_1 (m ((c.tc : Thread nD τ).loc main_arg4)) (broadcastInDim S1600000x1 ![0] bcast_S1600000_S1600000x1_0 (wrapIdx (colOf m c))))) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v15 (by decide))).trans (value m c (hr c)),
    (h c _ (mem_uc main_arg0 (by decide))).trans (W6_arg m c main_arg0 (by decide) (by decide) (by decide) (by decide) (by decide) (by decide)),
    (h c _ (mem_uc main_arg1 (by decide))).trans (W6_arg m c main_arg1 (by decide) (by decide) (by decide) (by decide) (by decide) (by decide)),
    (h c _ (mem_uc main_arg2 (by decide))).trans (W6_arg m c main_arg2 (by decide) (by decide) (by decide) (by decide) (by decide) (by decide)),
    (h c _ (mem_uc main_arg3 (by decide))).trans (W6_arg m c main_arg3 (by decide) (by decide) (by decide) (by decide) (by decide) (by decide)),
    (h c _ (mem_uc main_arg4 (by decide))).trans (W6_arg m c main_arg4 (by decide) (by decide) (by decide) (by decide) (by decide) (by decide)),
    (h c _ (mem_uc main_arg5 (by decide))).trans (W6_arg m c main_arg5 (by decide) (by decide) (by decide) (by decide) (by decide) (by decide)),
    (h c _ (mem_uc main_arg6 (by decide))).trans (W6_arg m c main_arg6 (by decide) (by decide) (by decide) (by decide) (by decide) (by decide))⟩) (run_all m ρ)

end Cert.KernelIdeal.Fr

end
-- ==== Proof.Ref.Scatter.lean ====
/-
  The reference's two segment sums, read at an index.

  jax.ops.segment_sum lowers to a StableHLO scatter with an add body into zeros. Its dimension numbers
  (update_window_dims = [1], inserted_window_dims = [0], scatter_dims_to_operand_dims = [0],
  index_vector_dim = 1) send update element (r, c) to operand element (ids r, c), the id read as a signed
  integer; an id outside the operand's rows lands nowhere. At the extended reals the accumulating scatter
  is the exact sum, so the result at (g, c) is the sum of the rows whose id is g: the one-hot sum of the
  specification.
-/
import proofs.«423693_j10393820857014_2_alg».proof.ReferenceIdeal
import proofs.«423693_j10393820857014_2_alg».proof.Proof.Spec
import Idealize.ShloMosaic.PureOps.Ideal.Laws
import Idealize.ShloMosaic.Lib.ValueIdx
import Idealize.ShloMosaic.Lib.IdealHost

noncomputable section

open scoped BigOperators

namespace Cert.ReferenceIdeal.RefValue

open Idealize.ShloMosaic Idealize.ShloMosaic.ValueIdx Cert.ReferenceIdeal

/-! ## The segment sum's dimension numbers, at any extents -/

/-- The scatter dimension numbers of a segment sum of R rows of width W into G segments: the operand's row
    axis is the scattered one, the update's column axis is the window. -/
abbrev segDims (G R W : Nat) (wf : ScatterDims.WF ⟨2, ![G, W]⟩ ⟨2, ![R, 1]⟩ ⟨2, ![R, W]⟩ [1] [0] [0] 1) :
    ScatterDims ⟨2, ![G, W]⟩ ⟨2, ![R, 1]⟩ ⟨2, ![R, W]⟩ where
  updateWindowDims := [1]
  insertedWindowDims := [0]
  scatterDimsToOperandDims := [0]
  indexVectorDim := 1
  wf := wf

section General
variable {G R W w : Nat} (wf : ScatterDims.WF ⟨2, ![G, W]⟩ ⟨2, ![R, 1]⟩ ⟨2, ![R, W]⟩ [1] [0] [0] 1)

/-- On the row axis the window of update (r, c) starts at row r's id, read signed. -/
theorem seg_start_row (r : Fin R) (c : Fin W) (idx : IVec ⟨2, ![R, 1]⟩ w) :
    (segDims G R W wf).start (ix2 r c) idx 0 = (idx (ix2 r 0)).toInt := by
  unfold ScatterDims.start
  rw [dif_pos (show (0 : Fin 2) ∈ (segDims G R W wf).scatterDimsToOperandDims from List.mem_singleton.mpr rfl)]
  refine congrArg (fun k => (idx k).toInt) (funext fun b => Fin.ext ?_)
  match b with
  | ⟨0, _⟩ => rfl
  | ⟨1, _⟩ => rfl

/-- On the column axis the window starts at 0: the map names no index component for it. -/
theorem seg_start_col (r : Fin R) (c : Fin W) (idx : IVec ⟨2, ![R, 1]⟩ w) :
    (segDims G R W wf).start (ix2 r c) idx 1 = 0 := by
  unfold ScatterDims.start
  rw [dif_neg (show ¬ (1 : Fin 2) ∈ ([0] : List (Fin 2)) by decide)]

/-- The row axis is inserted: its window coordinate is 0. -/
theorem seg_window_row (r : Fin R) (c : Fin W) : (segDims G R W wf).window (ix2 r c) 0 = 0 := by
  unfold ScatterDims.window
  have h : ¬ (0 : Fin 2) ∈ (segDims G R W wf).sKept := by
    show ¬ (0 : Fin 2) ∈ (List.finRange 2).filter (· ∉ ([0] : List (Fin 2)))
    decide
  rw [dif_neg h]

/-- The column axis carries the update's column. -/
theorem seg_window_col (r : Fin R) (c : Fin W) : (segDims G R W wf).window (ix2 r c) 1 = c.val := by
  unfold ScatterDims.window
  have h : (1 : Fin 2) ∈ (segDims G R W wf).sKept := by
    show (1 : Fin 2) ∈ (List.finRange 2).filter (· ∉ ([0] : List (Fin 2)))
    decide
  rw [dif_pos h]
  rfl

/-- Update (r, c) lands on operand element (g, q) exactly when row r's id, read signed, is g and the columns
    agree: the row coordinate of the landing place is the id, the column coordinate the update's own, and an
    id outside the rows is dropped. -/
theorem seg_resultIdx_iff (r : Fin R) (c : Fin W) (idx : IVec ⟨2, ![R, 1]⟩ w) (g : Fin G) (q : Fin W) :
    (segDims G R W wf).resultIdx? (ix2 r c) idx = some (ix2 g q) ↔
      (idx (ix2 r 0)).toInt = (g.val : Int) ∧ c = q := by
  have hg := g.isLt
  have hc := c.isLt
  unfold ScatterDims.resultIdx?
  split
  · rename_i h
    rw [Option.some.injEq]
    constructor
    · intro he
      have h0 := congrArg Fin.val (congrFun he 0)
      have h1 := congrArg Fin.val (congrFun he 1)
      have hb := h 0
      rw [seg_start_row, seg_window_row] at hb
      simp only [seg_start_row, seg_window_row] at h0
      simp only [seg_start_col, seg_window_col] at h1
      change _ = g.val at h0
      change _ = q.val at h1
      refine ⟨by omega, Fin.ext (by omega)⟩
    · rintro ⟨ht, rfl⟩
      funext a
      refine Fin.ext ?_
      match a with
      | ⟨0, _⟩ =>
        show ((segDims G R W wf).start (ix2 r c) idx 0 + (segDims G R W wf).window (ix2 r c) 0).toNat = g.val
        rw [seg_start_row, seg_window_row, ht]; omega
      | ⟨1, _⟩ =>
        show ((segDims G R W wf).start (ix2 r c) idx 1 + (segDims G R W wf).window (ix2 r c) 1).toNat = c.val
        rw [seg_start_col, seg_window_col]; omega
  · rename_i h
    constructor
    · intro he; exact absurd he (by simp)
    · rintro ⟨ht, rfl⟩
      refine absurd ?_ h
      intro a
      match a with
      | ⟨0, _⟩ =>
        show 0 ≤ (segDims G R W wf).start (ix2 r c) idx 0 + (segDims G R W wf).window (ix2 r c) 0 ∧
          (segDims G R W wf).start (ix2 r c) idx 0 + (segDims G R W wf).window (ix2 r c) 0 < (G : Int)
        rw [seg_start_row, seg_window_row, ht]; omega
      | ⟨1, _⟩ =>
        show 0 ≤ (segDims G R W wf).start (ix2 r c) idx 1 + (segDims G R W wf).window (ix2 r c) 1 ∧
          (segDims G R W wf).start (ix2 r c) idx 1 + (segDims G R W wf).window (ix2 r c) 1 < (W : Int)
        rw [seg_start_col, seg_window_col]; omega

/-- THE ACCUMULATING SCATTER READ AT (g, q): the operand there plus the sum, over the rows whose id read signed
    is g, of the update's element in column q. -/
theorem seg_scatterAdd_apply (x : (⟨2, ![G, W]⟩ : Shape).Idx → EReal) (idx : IVec ⟨2, ![R, 1]⟩ w)
    (upd : (⟨2, ![R, W]⟩ : Shape).Idx → EReal) (g : Fin G) (q : Fin W) :
    Ideal.hostScatterAdd (segDims G R W wf) x idx upd (ix2 g q) =
      x (ix2 g q) + ∑ r : Fin R, if (idx (ix2 r 0)).toInt = (g.val : Int) then upd (ix2 r q) else 0 := by
  unfold Ideal.hostScatterAdd
  congr 1
  rw [Finset.sum_filter, sum_idx2]
  refine Finset.sum_congr rfl fun r _ => ?_
  simp only [seg_resultIdx_iff]
  by_cases ht : (idx (ix2 r 0)).toInt = (g.val : Int)
  · simp only [ht, true_and, if_true]
    rw [Finset.sum_ite_eq' Finset.univ q (fun c => upd (ix2 r c)), if_pos (Finset.mem_univ q)]
  · simp only [ht, false_and, if_false, Finset.sum_const_zero]

end General

/-! ## Words and their signed values; the id column -/

/-- The word of a natural number below 2^31 has that number as its signed value. -/
theorem toInt_ofNat_small (g : Nat) (hg : g < 2 ^ 31) : (BitVec.ofNat 32 g).toInt = (g : Int) := by
  have hn : (BitVec.ofNat 32 g).toNat = g := by
    rw [BitVec.toNat_ofNat]; exact Nat.mod_eq_of_lt (by omega)
  rw [BitVec.toInt_eq_toNat_of_lt (by rw [hn]; omega), hn]

/-- A 32-bit word's signed value is the natural number g below 2^31 exactly when the word is g's. -/
theorem toInt_eq_natCast_iff (v : BitVec 32) (g : Nat) (hg : g < 2 ^ 31) :
    v.toInt = (g : Int) ↔ v = BitVec.ofNat 32 g := by
  constructor
  · intro h
    apply BitVec.eq_of_toInt_eq
    rw [h, toInt_ofNat_small g hg]
  · rintro rfl
    exact toInt_ofNat_small g hg

/-- The ids broadcast to a one-column array read, in row r, row r's id. -/
theorem idColumn_apply {R w : Nat} (h : (⟨1, ![R]⟩ : Shape).BroadcastsInDim ⟨2, ![R, 1]⟩ ![0])
    (ids : IVec ⟨1, ![R]⟩ w) (r : Fin R) :
    broadcastInDim ⟨2, ![R, 1]⟩ ![0] h ids (ix2 r 0) = ids (ix1 r) := by
  unfold broadcastInDim
  refine congrArg ids (funext fun a => Fin.ext ?_)
  match a with
  | ⟨0, _⟩ =>
    by_cases h1 : (⟨1, ![R]⟩ : Shape).size (⟨0, Nat.one_pos⟩ : Fin 1) = 1
    · rw [dif_pos h1]
      have hR : R = 1 := h1
      have := r.isLt
      show 0 = r.val
      omega
    · rw [dif_neg h1]
      rfl

/-- A segment sum of R rows of width W into G segments, G at most 2^31, from zeros: at (g, q) the sum of the rows
    whose id word is g's. -/
theorem seg_scatterAdd_zero {G R W : Nat} (hG : G ≤ 2 ^ 31)
    (wf : ScatterDims.WF ⟨2, ![G, W]⟩ ⟨2, ![R, 1]⟩ ⟨2, ![R, W]⟩ [1] [0] [0] 1)
    (hz : (⟨0, ![]⟩ : Shape).BroadcastsInDim ⟨2, ![G, W]⟩ ![])
    (hc : (⟨1, ![R]⟩ : Shape).BroadcastsInDim ⟨2, ![R, 1]⟩ ![0])
    (upd : (⟨2, ![R, W]⟩ : Shape).Idx → EReal) (ids : IVec ⟨1, ![R]⟩ 32) (g : Fin G) (q : Fin W) :
    Ideal.hostScatterAdd (segDims G R W wf)
        (broadcastInDim ⟨2, ![G, W]⟩ ![] hz (constant (F := Ideal) ⟨0, ![]⟩ .f32 0x00000000#32))
        (broadcastInDim ⟨2, ![R, 1]⟩ ![0] hc ids) upd (ix2 g q) =
      ∑ r : Fin R, if ids (ix1 r) = BitVec.ofNat 32 g.val then upd (ix2 r q) else 0 := by
  have hg := g.isLt
  rw [seg_scatterAdd_apply, broadcastInDim_scalar_apply, constant_apply, Ideal.ofBits_zero_f32, zero_add]
  refine Finset.sum_congr rfl fun r _ => ?_
  rw [idColumn_apply]
  simp only [toInt_eq_natCast_iff _ g.val (by omega)]

/-! ## The program's two scatters -/

variable [Facts]

/-- The node features' segment sum is the specification's one-hot sum. -/
theorem scatter_nodes (x : FVec Ideal S100000x128 .f32) (ids : IVec S100000 32) :
    Host.scatterAdd (F := Ideal) scatter_S512x128_S100000x1_S100000x128_1_0_0_1
      (broadcastInDim S512x128 ![] Facts₀.bcast_S_S512x128 (constant (F := Ideal) S_ .f32 0x00000000#32))
      (broadcastInDim S100000x1 ![0] Facts₀.bcast_S100000_S100000x1_0 ids) x
    = Cert.Spec.segX x ids := by
  -- the record is the general one at these extents, and the host's accumulating scatter is the ideal instance's
  have hd : Host.scatterAdd (F := Ideal) (w := 32) (φ := .f32) scatter_S512x128_S100000x1_S100000x128_1_0_0_1 =
      Ideal.hostScatterAdd (segDims 512 100000 128 Facts₀.scatter_S512x128_S100000x1_S100000x128_1_0_0_1_wf) := rfl
  rw [hd]
  funext j
  obtain ⟨g, q, rfl⟩ : ∃ (g : Fin 512) (q : Fin 128), j = ix2 g q := ⟨j 0, j 1, eq_ix2 j⟩
  exact seg_scatterAdd_zero (G := 512) (R := 100000) (W := 128) (by norm_num)
    Facts₀.scatter_S512x128_S100000x1_S100000x128_1_0_0_1_wf
    Facts₀.bcast_S_S512x128 Facts₀.bcast_S100000_S100000x1_0 x ids g q

/-- The edge features' segment sum is the specification's one-hot sum. -/
theorem scatter_edges (e : FVec Ideal S1600000x32 .f32) (ids : IVec S1600000 32) :
    Host.scatterAdd (F := Ideal) scatter_S512x32_S1600000x1_S1600000x32_1_0_0_1
      (broadcastInDim S512x32 ![] Facts₀.bcast_S_S512x32 (constant (F := Ideal) S_ .f32 0x00000000#32))
      (broadcastInDim S1600000x1 ![0] Facts₀.bcast_S1600000_S1600000x1_0 ids) e
    = Cert.Spec.segE e ids := by
  -- the record is the general one at these extents, and the host's accumulating scatter is the ideal instance's
  have hd : Host.scatterAdd (F := Ideal) (w := 32) (φ := .f32) scatter_S512x32_S1600000x1_S1600000x32_1_0_0_1 =
      Ideal.hostScatterAdd (segDims 512 1600000 32 Facts₀.scatter_S512x32_S1600000x1_S1600000x32_1_0_0_1_wf) := rfl
  rw [hd]
  funext j
  obtain ⟨g, q, rfl⟩ : ∃ (g : Fin 512) (q : Fin 32), j = ix2 g q := ⟨j 0, j 1, eq_ix2 j⟩
  exact seg_scatterAdd_zero (G := 512) (R := 1600000) (W := 32) (by norm_num)
    Facts₀.scatter_S512x32_S1600000x1_S1600000x32_1_0_0_1_wf
    Facts₀.bcast_S_S512x32 Facts₀.bcast_S1600000_S1600000x1_0 e ids g q

end Cert.ReferenceIdeal.RefValue

end
-- ==== Proof.Ref.RefValue.lean ====
/-
  The reference program's run, its frame, and its result as a function of its arguments: both scatter-adds into
  zeros are one-hot segment sums, the edges' ids being the gather of the node ids at the wrapped target index.
-/
import proofs.«423693_j10393820857014_2_alg».proof.Defs
import proofs.«423693_j10393820857014_2_alg».proof.Proof.Gen.ReferenceIdeal
import proofs.«423693_j10393820857014_2_alg».proof.Proof.Gen.ReferenceIdeal.Run
import proofs.«423693_j10393820857014_2_alg».proof.Proof.Ref.Scatter

noncomputable section

namespace Cert.ReferenceIdeal.RefValue

open Cert.ReferenceIdeal Cert.ReferenceIdeal.Gen Idealize.ShloMosaic Idealize.ShloMosaic.TcCoe Idealize.SL.Sem

/-- The shared tail: the two per-graph sums side by side, times the weight matrix, plus the bias row. -/
def tail {F : FTy → Type} [FloatOps F] (A : FVec F S512x128 .f32) (E : FVec F S512x32 .f32) (W : FVec F S160x64 .f32) (b : FVec F S64 .f32) :
    FVec F S512x64 .f32 :=
  addf
    (Host.dotGeneral dot_S512x160_S160x64_S512x64_1_0_0_1_n_n none
      (concatenate S512x160 1 [⟨S512x128, A⟩, ⟨S512x32, E⟩] concatenates_S512x128_S512x32_S512x160_d1) W)
    (broadcastInDim S512x64 ![0, 1] bcast_S1x64_S512x64_0_1 (broadcastInDim S1x64 ![1] bcast_S64_S1x64_1 b))

variable (m : (ℓ : Loc nD τ sig) → Buf (Elt Ideal) ℓ) (ρ : Dev nD → PrngReg)

/-- The reference runs, ends with its result at the tail of the two segment sums, and leaves its arguments. -/
theorem run_value :
    θ_run defs (onTc (τ := τ) (main (F := Ideal))) ⟨m, fun _ => 0, ρ⟩ (fun r => ∀ c : Dev nD,
      r.2.mem ((c.tc : Thread nD τ).loc main_v19) = tail (F := Ideal) (Cert.Spec.segX (m ((c.tc : Thread nD τ).loc main_arg0)) (m ((c.tc : Thread nD τ).loc main_arg4))) (Cert.Spec.segE (m ((c.tc : Thread nD τ).loc main_arg2)) (Host.gather gather_S100000_S1600000x1_S1600000_n_0_n_n_0_1_1 (m ((c.tc : Thread nD τ).loc main_arg4)) (broadcastInDim S1600000x1 ![0] bcast_S1600000_S1600000x1_0 (select (cmpi .slt (shapeCast _ (extractStridedSlice S1x1600000 ![1, 0] (m ((c.tc : Thread nD τ).loc main_arg1)) slices_S2x1600000_S1x1600000_1_0) shapeCasts_S1x1600000_S1600000) (broadcastInDim S1600000 ![] bcast_S_S1600000 (constantI S_ 32 0#32))) (addi (shapeCast _ (extractStridedSlice S1x1600000 ![1, 0] (m ((c.tc : Thread nD τ).loc main_arg1)) slices_S2x1600000_S1x1600000_1_0) shapeCasts_S1x1600000_S1600000) (broadcastInDim S1600000 ![] bcast_S_S1600000 (constantI S_ 32 100000#32))) (shapeCast _ (extractStridedSlice S1x1600000 ![1, 0] (m ((c.tc : Thread nD τ).loc main_arg1)) slices_S2x1600000_S1x1600000_1_0) shapeCasts_S1x1600000_S1600000))))) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨by rw [(h c).1, scatter_nodes, scatter_edges]; rfl, (h c).2⟩)
    (Cert.ReferenceIdeal.Value.run (F := Ideal) m ρ)

end Cert.ReferenceIdeal.RefValue

end
-- ==== Proof.lean ====
/-
  Segment-sum aggregation of node and edge features by graph id, concatenated and passed through a linear layer:
  a Pallas kernel (two one-hot matrix-product regions, each over two halves of the rows, with an accumulator and a
  cached column-index table carried between grid points) against jax.ops.segment_sum.

  At the ideal instance both programs compute, at graph g and output column o,
      Σ_k cat[g, k] · W[k, o] + b[o],   cat = [ Σ_r [batch r = g] x[r, ·]  |  Σ_e [id e = g] edge_attr[e, ·] ],
  where id e is the graph id of edge e's target node. The kernel reaches the two sums as one-hot matrix products
  accumulated tile by tile within each half and added over the two halves; the reference as scatter-adds into zeros.
  A row whose id is outside 0..511 matches no graph in the one-hot product and is dropped by the scatter: no
  hypothesis on the graph ids is needed. The edge ids differ in one place: the kernel's take yields a sentinel where
  the (wrapped) target index leaves 0..99999, the reference's gather clamps it; under the stated precondition — every
  target index a valid index of the node-id vector, -100000 ≤ edge_index[1] < 100000 — the wrapped index is in range
  and the two agree. Nothing else of the precondition is used: sums over the extended reals reorder freely.

  The frames (both kernels' programs run to the end, fault nowhere, leave their arguments) are proved from the
  regions' body obligations: at every grid point the body's run, by its control case (first step of a half, a middle
  step, the last step), hands the accumulator and the index table from point to point.
-/
import proofs.«423693_j10393820857014_2_alg».proof.Defs
import proofs.«423693_j10393820857014_2_alg».proof.Proof.Gen.Kernel
import proofs.«423693_j10393820857014_2_alg».proof.Proof.Gen.KernelIdeal
import proofs.«423693_j10393820857014_2_alg».proof.Proof.Gen.ReferenceIdeal
import proofs.«423693_j10393820857014_2_alg».proof.Proof.Gen.Pre_finite_inputs
import proofs.«423693_j10393820857014_2_alg».proof.Proof.Kb.Claims
import proofs.«423693_j10393820857014_2_alg».proof.Proof.Ki.Value
import proofs.«423693_j10393820857014_2_alg».proof.Proof.Ref.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal instance. -/
theorem preserves : Cert.preserves_Kernel_KernelIdeal := trivial

/-- Both idealized programs end at the same tail of the same two segment sums of arguments that agree. -/
theorem algebraic : Cert.algebraic_KernelIdeal_ReferenceIdeal := by
  intro m ρ m' ρ' hpre hagree
  have hr : ∀ c : Dev Cert.KernelIdeal.nD, ∀ e : Fin 1600000,
      -100000 ≤ ((m ((c.tc : Thread Cert.KernelIdeal.nD Cert.KernelIdeal.τ).loc Cert.KernelIdeal.main_arg1) : IVec Cert.KernelIdeal.S2x1600000 32) (ValueIdx.ix2 1 e)).toInt
      ∧ ((m ((c.tc : Thread Cert.KernelIdeal.nD Cert.KernelIdeal.τ).loc Cert.KernelIdeal.main_arg1) : IVec Cert.KernelIdeal.S2x1600000 32) (ValueIdx.ix2 1 e)).toInt < 100000 :=
    fun c => Cert.KernelIdeal.Val.col_range _ _ _ _ _ _ _ (hpre c)
  refine ⟨_, Cert.KernelIdeal.Fr.run_value m ρ hr, ?_⟩
  refine (θ_run Cert.ReferenceIdeal.defs _ _).mono (fun _ h c => ⟨(h c).1.trans ?_, (h c).2⟩)
    (Cert.ReferenceIdeal.RefValue.run_value m' ρ')
  rw [(hagree c).1, (hagree c).2.1, (hagree c).2.2.1, (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
